-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x2 : Shape := ⟨2, ![8192, 2]⟩
abbrev S8x4 : Shape := ⟨2, ![8, 4]⟩
abbrev S8x1 : Shape := ⟨2, ![8, 1]⟩
abbrev S2048x8192 : Shape := ⟨2, ![2048, 8192]⟩
abbrev S8192x2048 : Shape := ⟨2, ![8192, 2048]⟩
abbrev S2048x8 : Shape := ⟨2, ![2048, 8]⟩
abbrev S134x256 : Shape := ⟨2, ![134, 256]⟩
abbrev S256 : Shape := ⟨1, ![256]⟩
abbrev S256x128 : Shape := ⟨2, ![256, 128]⟩
abbrev S128 : Shape := ⟨1, ![128]⟩
abbrev S130x128 : Shape := ⟨2, ![130, 128]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S8x4 : S_.BroadcastsInDim S8x4 (![] : Fin 0 → Fin S8x4.rank)
  reducesTo_S8x4_S_d0_1 : S8x4.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S2048x8 : S_.BroadcastsInDim S2048x8 (![] : Fin 0 → Fin S2048x8.rank)
  reducesTo_S2048x8_S_d0_1 : S2048x8.ReducesTo [0, 1] S_
  bcast_S_S134x256 : S_.BroadcastsInDim S134x256 (![] : Fin 0 → Fin S134x256.rank)
  reducesTo_S134x256_S_d0_1 : S134x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S130x128 : S_.BroadcastsInDim S130x128 (![] : Fin 0 → Fin S130x128.rank)
  reducesTo_S130x128_S_d0_1 : S130x128.ReducesTo [0, 1] S_
  bcast_S_S128x128 : S_.BroadcastsInDim S128x128 (![] : Fin 0 → Fin S128x128.rank)
  reducesTo_S128x128_S_d0_1 : S128x128.ReducesTo [0, 1] S_

variable [Facts]

def fn_part7 {F : FTy → Type} [FloatOps F] (main_arg26 : FVec F S128x128 .f32) (main_arg27 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x128 .f32 := Host.absf main_arg26
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S128 .f32 := Host.absf main_arg27
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  main_v133

def fn_part6 {F : FTy → Type} [FloatOps F] (main_arg22 : FVec F S256x128 .f32) (main_arg23 : FVec F S128 .f32) (main_arg24 : FVec F S130x128 .f32) (main_arg25 : FVec F S128 .f32) (main_arg26 : FVec F S128x128 .f32) (main_arg27 : FVec F S128 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x128 .f32 := Host.absf main_arg22
  let main_cst_40 : FVec F S_ .f32 := constant S_ .f32 0x7F800000#32
  let main_v105 : FVec F S256x128 .f32 := broadcastInDim S256x128 ![] bcast_S_S256x128 main_cst_40
  let main_v106 : IVec S256x128 1 := cmpf .olt main_v104 main_v105
  let main_c_41 : IVec S_ 1 := constantI S_ 1 1#1
  let main_v107 : IVec S_ 1 := (fun x v => Host.reduce IntOp.andi x v reducesTo_S256x128_S_d0_1 h_S_) main_v106 main_c_41
  let main_v108 : IVec S_ 1 := andi main_v103 main_v107
  let main_v109 : FVec F S128 .f32 := Host.absf main_arg23
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S130x128 .f32 := Host.absf main_arg24
  let main_cst_44 : FVec F S_ .f32 := constant S_ .f32 0x7F800000#32
  let main_v115 : FVec F S130x128 .f32 := broadcastInDim S130x128 ![] bcast_S_S130x128 main_cst_44
  let main_v116 : IVec S130x128 1 := cmpf .olt main_v114 main_v115
  let main_c_45 : IVec S_ 1 := constantI S_ 1 1#1
  let main_v117 : IVec S_ 1 := (fun x v => Host.reduce IntOp.andi x v reducesTo_S130x128_S_d0_1 h_S_) main_v116 main_c_45
  let main_v118 : IVec S_ 1 := andi main_v113 main_v117
  let main_v119 : FVec F S128 .f32 := Host.absf main_arg25
  fn_part7 (F := F) main_arg26 main_arg27 main_v118 main_v119

def fn_part5 {F : FTy → Type} [FloatOps F] (main_arg19 : FVec F S128 .f32) (main_arg20 : FVec F S134x256 .f32) (main_arg21 : FVec F S256 .f32) (main_arg22 : FVec F S256x128 .f32) (main_arg23 : FVec F S128 .f32) (main_arg24 : FVec F S130x128 .f32) (main_arg25 : FVec F S128 .f32) (main_arg26 : FVec F S128x128 .f32) (main_arg27 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S134x256 .f32 := Host.absf main_arg20
  let main_cst_36 : FVec F S_ .f32 := constant S_ .f32 0x7F800000#32
  let main_v95 : FVec F S134x256 .f32 := broadcastInDim S134x256 ![] bcast_S_S134x256 main_cst_36
  let main_v96 : IVec S134x256 1 := cmpf .olt main_v94 main_v95
  let main_c_37 : IVec S_ 1 := constantI S_ 1 1#1
  let main_v97 : IVec S_ 1 := (fun x v => Host.reduce IntOp.andi x v reducesTo_S134x256_S_d0_1 h_S_) main_v96 main_c_37
  let main_v98 : IVec S_ 1 := andi main_v93 main_v97
  let main_v99 : FVec F S256 .f32 := Host.absf main_arg21
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg22 main_arg23 main_arg24 main_arg25 main_arg26 main_arg27 main_v98 main_v101 main_c_39

def fn_part4 {F : FTy → Type} [FloatOps F] (main_arg15 : FVec F S128 .f32) (main_arg16 : FVec F S130x128 .f32) (main_arg17 : FVec F S128 .f32) (main_arg18 : FVec F S128x128 .f32) (main_arg19 : FVec F S128 .f32) (main_arg20 : FVec F S134x256 .f32) (main_arg21 : FVec F S256 .f32) (main_arg22 : FVec F S256x128 .f32) (main_arg23 : FVec F S128 .f32) (main_arg24 : FVec F S130x128 .f32) (main_arg25 : FVec F S128 .f32) (main_arg26 : FVec F S128x128 .f32) (main_arg27 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S130x128 .f32 := Host.absf main_arg16
  let main_cst_28 : FVec F S_ .f32 := constant S_ .f32 0x7F800000#32
  let main_v75 : FVec F S130x128 .f32 := broadcastInDim S130x128 ![] bcast_S_S130x128 main_cst_28
  let main_v76 : IVec S130x128 1 := cmpf .olt main_v74 main_v75
  let main_c_29 : IVec S_ 1 := constantI S_ 1 1#1
  let main_v77 : IVec S_ 1 := (fun x v => Host.reduce IntOp.andi x v reducesTo_S130x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_v83 main_v84 main_cst_32

def fn_part3 {F : FTy → Type} [FloatOps F] (main_arg12 : FVec F S134x256 .f32) (main_arg13 : FVec F S256 .f32) (main_arg14 : FVec F S256x128 .f32) (main_arg15 : FVec F S128 .f32) (main_arg16 : FVec F S130x128 .f32) (main_arg17 : FVec F S128 .f32) (main_arg18 : FVec F S128x128 .f32) (main_arg19 : FVec F S128 .f32) (main_arg20 : FVec F S134x256 .f32) (main_arg21 : FVec F S256 .f32) (main_arg22 : FVec F S256x128 .f32) (main_arg23 : FVec F S128 .f32) (main_arg24 : FVec F S130x128 .f32) (main_arg25 : FVec F S128 .f32) (main_arg26 : FVec F S128x128 .f32) (main_arg27 : FVec F S128 .f32) (main_v48 : IVec S_ 1) (main_v49 : FVec F S2048x8 .f32) (main_v50 : FVec F S2048x8 .f32) : IVec S_ 1 :=
  let main_v51 : IVec S2048x8 1 := cmpf .olt main_v49 main_v50
  let main_c_19 : IVec S_ 1 := constantI S_ 1 1#1
  let main_v52 : IVec S_ 1 := (fun x v => Host.reduce IntOp.andi x v reducesTo_S2048x8_S_d0_1 h_S_) main_v51 main_c_19
  let main_v53 : IVec S_ 1 := andi main_v48 main_v52
  let main_v54 : FVec F S134x256 .f32 := Host.absf main_arg12
  let main_cst_20 : FVec F S_ .f32 := constant S_ .f32 0x7F800000#32
  let main_v55 : FVec F S134x256 .f32 := broadcastInDim S134x256 ![] bcast_S_S134x256 main_cst_20
  let main_v56 : IVec S134x256 1 := cmpf .olt main_v54 main_v55
  let main_c_21 : IVec S_ 1 := constantI S_ 1 1#1
  let main_v57 : IVec S_ 1 := (fun x v => Host.reduce IntOp.andi x v reducesTo_S134x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg14
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg15 main_arg16 main_arg17 main_arg18 main_arg19 main_arg20 main_arg21 main_arg22 main_arg23 main_arg24 main_arg25 main_arg26 main_arg27 main_v63 main_v67

def fn_part2 {F : FTy → Type} [FloatOps F] (main_arg8 : FVec F S8192x2048 .f32) (main_arg9 : FVec F S2048x8192 .f32) (main_arg10 : FVec F S8192x2048 .f32) (main_arg11 : FVec F S2048x8 .f32) (main_arg12 : FVec F S134x256 .f32) (main_arg13 : FVec F S256 .f32) (main_arg14 : FVec F S256x128 .f32) (main_arg15 : FVec F S128 .f32) (main_arg16 : FVec F S130x128 .f32) (main_arg17 : FVec F S128 .f32) (main_arg18 : FVec F S128x128 .f32) (main_arg19 : FVec F S128 .f32) (main_arg20 : FVec F S134x256 .f32) (main_arg21 : FVec F S256 .f32) (main_arg22 : FVec F S256x128 .f32) (main_arg23 : FVec F S128 .f32) (main_arg24 : FVec F S130x128 .f32) (main_arg25 : FVec F S128 .f32) (main_arg26 : FVec F S128x128 .f32) (main_arg27 : FVec F S128 .f32) (main_v33 : IVec S_ 1) : IVec S_ 1 :=
  let main_v34 : FVec F S8192x2048 .f32 := Host.absf main_arg8
  let main_cst_12 : FVec F S_ .f32 := constant S_ .f32 0x7F800000#32
  let main_v35 : FVec F S8192x2048 .f32 := broadcastInDim S8192x2048 ![] bcast_S_S8192x2048 main_cst_12
  let main_v36 : IVec S8192x2048 1 := cmpf .olt main_v34 main_v35
  let main_c_13 : IVec S_ 1 := constantI S_ 1 1#1
  let main_v37 : IVec S_ 1 := (fun x v => Host.reduce IntOp.andi x v reducesTo_S8192x2048_S_d0_1 h_S_) main_v36 main_c_13
  let main_v38 : IVec S_ 1 := andi main_v33 main_v37
  let main_v39 : FVec F S2048x8192 .f32 := Host.absf main_arg9
  let main_cst_14 : FVec F S_ .f32 := constant S_ .f32 0x7F800000#32
  let main_v40 : FVec F S2048x8192 .f32 := broadcastInDim S2048x8192 ![] bcast_S_S2048x8192 main_cst_14
  let main_v41 : IVec S2048x8192 1 := cmpf .olt main_v39 main_v40
  let main_c_15 : IVec S_ 1 := constantI S_ 1 1#1
  let main_v42 : IVec S_ 1 := (fun x v => Host.reduce IntOp.andi x v reducesTo_S2048x8192_S_d0_1 h_S_) main_v41 main_c_15
  let main_v43 : IVec S_ 1 := andi main_v38 main_v42
  let main_v44 : FVec F S8192x2048 .f32 := Host.absf main_arg10
  let main_cst_16 : FVec F S_ .f32 := constant S_ .f32 0x7F800000#32
  let main_v45 : FVec F S8192x2048 .f32 := broadcastInDim S8192x2048 ![] bcast_S_S8192x2048 main_cst_16
  let main_v46 : IVec S8192x2048 1 := cmpf .olt main_v44 main_v45
  let main_c_17 : IVec S_ 1 := constantI S_ 1 1#1
  let main_v47 : IVec S_ 1 := (fun x v => Host.reduce IntOp.andi x v reducesTo_S8192x2048_S_d0_1 h_S_) main_v46 main_c_17
  let main_v48 : IVec S_ 1 := andi main_v43 main_v47
  let main_v49 : FVec F S2048x8 .f32 := Host.absf main_arg11
  let main_cst_18 : FVec F S_ .f32 := constant S_ .f32 0x7F800000#32
  let main_v50 : FVec F S2048x8 .f32 := broadcastInDim S2048x8 ![] bcast_S_S2048x8 main_cst_18
  fn_part3 (F := F) main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S8192x2 .f32) (main_arg5 : FVec F S8x4 .f32) (main_arg7 : FVec F S2048x8192 .f32) (main_arg8 : FVec F S8192x2048 .f32) (main_arg9 : FVec F S2048x8192 .f32) (main_arg10 : FVec F S8192x2048 .f32) (main_arg11 : FVec F S2048x8 .f32) (main_arg12 : FVec F S134x256 .f32) (main_arg13 : FVec F S256 .f32) (main_arg14 : FVec F S256x128 .f32) (main_arg15 : FVec F S128 .f32) (main_arg16 : FVec F S130x128 .f32) (main_arg17 : FVec F S128 .f32) (main_arg18 : FVec F S128x128 .f32) (main_arg19 : FVec F S128 .f32) (main_arg20 : FVec F S134x256 .f32) (main_arg21 : FVec F S256 .f32) (main_arg22 : FVec F S256x128 .f32) (main_arg23 : FVec F S128 .f32) (main_arg24 : FVec F S130x128 .f32) (main_arg25 : FVec F S128 .f32) (main_arg26 : FVec F S128x128 .f32) (main_arg27 : FVec F S128 .f32) (main_v13 : IVec S_ 1) (main_v16 : IVec S8192x128 1) : IVec S_ 1 :=
  let main_c_5 : IVec S_ 1 := constantI S_ 1 1#1
  let main_v17 : IVec S_ 1 := (fun x v => Host.reduce IntOp.andi x v reducesTo_S8192x128_S_d0_1 h_S_) main_v16 main_c_5
  let main_v18 : IVec S_ 1 := andi main_v13 main_v17
  let main_v19 : FVec F S8192x2 .f32 := Host.absf main_arg4
  let main_cst_6 : FVec F S_ .f32 := constant S_ .f32 0x7F800000#32
  let main_v20 : FVec F S8192x2 .f32 := broadcastInDim S8192x2 ![] bcast_S_S8192x2 main_cst_6
  let main_v21 : IVec S8192x2 1 := cmpf .olt main_v19 main_v20
  let main_c_7 : IVec S_ 1 := constantI S_ 1 1#1
  let main_v22 : IVec S_ 1 := (fun x v => Host.reduce IntOp.andi x v reducesTo_S8192x2_S_d0_1 h_S_) main_v21 main_c_7
  let main_v23 : IVec S_ 1 := andi main_v18 main_v22
  let main_v24 : FVec F S8x4 .f32 := Host.absf main_arg5
  let main_cst_8 : FVec F S_ .f32 := constant S_ .f32 0x7F800000#32
  let main_v25 : FVec F S8x4 .f32 := broadcastInDim S8x4 ![] bcast_S_S8x4 main_cst_8
  let main_v26 : IVec S8x4 1 := cmpf .olt main_v24 main_v25
  let main_c_9 : IVec S_ 1 := constantI S_ 1 1#1
  let main_v27 : IVec S_ 1 := (fun x v => Host.reduce IntOp.andi x v reducesTo_S8x4_S_d0_1 h_S_) main_v26 main_c_9
  let main_v28 : IVec S_ 1 := andi main_v23 main_v27
  let main_v29 : FVec F S2048x8192 .f32 := Host.absf main_arg7
  let main_cst_10 : FVec F S_ .f32 := constant S_ .f32 0x7F800000#32
  let main_v30 : FVec F S2048x8192 .f32 := broadcastInDim S2048x8192 ![] bcast_S_S2048x8192 main_cst_10
  let main_v31 : IVec S2048x8192 1 := cmpf .olt main_v29 main_v30
  let main_c_11 : IVec S_ 1 := constantI S_ 1 1#1
  let main_v32 : IVec S_ 1 := (fun x v => Host.reduce IntOp.andi x v reducesTo_S2048x8192_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S8192x128 .f32) (main_arg1 : FVec F S8192x128 .f32) (main_arg2 : FVec F S8192x128 .f32) (main_arg3 : FVec F S8192x128 .f32) (main_arg4 : FVec F S8192x2 .f32) (main_arg5 : FVec F S8x4 .f32) (main_arg6 : IVec S8x1 32) (main_arg7 : FVec F S2048x8192 .f32) (main_arg8 : FVec F S8192x2048 .f32) (main_arg9 : FVec F S2048x8192 .f32) (main_arg10 : FVec F S8192x2048 .f32) (main_arg11 : FVec F S2048x8 .f32) (main_arg12 : FVec F S134x256 .f32) (main_arg13 : FVec F S256 .f32) (main_arg14 : FVec F S256x128 .f32) (main_arg15 : FVec F S128 .f32) (main_arg16 : FVec F S130x128 .f32) (main_arg17 : FVec F S128 .f32) (main_arg18 : FVec F S128x128 .f32) (main_arg19 : FVec F S128 .f32) (main_arg20 : FVec F S134x256 .f32) (main_arg21 : FVec F S256 .f32) (main_arg22 : FVec F S256x128 .f32) (main_arg23 : FVec F S128 .f32) (main_arg24 : FVec F S130x128 .f32) (main_arg25 : FVec F S128 .f32) (main_arg26 : FVec F S128x128 .f32) (main_arg27 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S8192x128 .f32 := Host.absf main_arg3
  let main_cst_4 : FVec F S_ .f32 := constant S_ .f32 0x7F800000#32
  let main_v15 : FVec F S8192x128 .f32 := broadcastInDim S8192x128 ![] bcast_S_S8192x128 main_cst_4
  let main_v16 : IVec S8192x128 1 := cmpf .olt main_v14 main_v15
  fn_part1 (F := F) main_arg4 main_arg5 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S8192x128 : Shape := ⟨2, ![8192, 128]⟩
abbrev S8192x2 : Shape := ⟨2, ![8192, 2]⟩
abbrev S8x4 : Shape := ⟨2, ![8, 4]⟩
abbrev S8x1 : Shape := ⟨2, ![8, 1]⟩
abbrev S2048x8192 : Shape := ⟨2, ![2048, 8192]⟩
abbrev S8192x2048 : Shape := ⟨2, ![8192, 2048]⟩
abbrev S2048x8 : Shape := ⟨2, ![2048, 8]⟩
abbrev S134x256 : Shape := ⟨2, ![134, 256]⟩
abbrev S256 : Shape := ⟨1, ![256]⟩
abbrev S256x128 : Shape := ⟨2, ![256, 128]⟩
abbrev S128 : Shape := ⟨1, ![128]⟩
abbrev S130x128 : Shape := ⟨2, ![130, 128]⟩
abbrev S128x128 : Shape := ⟨2, ![128, 128]⟩
abbrev S8x5 : Shape := ⟨2, ![8, 5]⟩
abbrev S2048x5 : Shape := ⟨2, ![2048, 5]⟩
abbrev S8192x5 : Shape := ⟨2, ![8192, 5]⟩
abbrev S1024x2048 : Shape := ⟨2, ![1024, 2048]⟩
abbrev S1024x5 : Shape := ⟨2, ![1024, 5]⟩
abbrev S8192x1 : Shape := ⟨2, ![8192, 1]⟩
abbrev S8192x4 : Shape := ⟨2, ![8192, 4]⟩
abbrev S1x256 : Shape := ⟨2, ![1, 256]⟩
abbrev S1x128 : Shape := ⟨2, ![1, 128]⟩
abbrev S2048x128 : Shape := ⟨2, ![2048, 128]⟩
abbrev S2048x2 : Shape := ⟨2, ![2048, 2]⟩
abbrev S2048x4 : Shape := ⟨2, ![2048, 4]⟩
abbrev S2048x134 : Shape := ⟨2, ![2048, 134]⟩
abbrev S2048x256 : Shape := ⟨2, ![2048, 256]⟩
abbrev S256x8192 : Shape := ⟨2, ![256, 8192]⟩
abbrev S1024x128 : Shape := ⟨2, ![1024, 128]⟩
abbrev S2048x1 : Shape := ⟨2, ![2048, 1]⟩
abbrev S2048x130 : Shape := ⟨2, ![2048, 130]⟩

abbrev nBuf : Space → Nat
  | .hbm => 50
  | .vmem => 81
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x2, .f32⟩
  | .hbm, ⟨5, _⟩ => ⟨S8x4, .f32⟩
  | .hbm, ⟨6, _⟩ => ⟨S8x1, .i32⟩
  | .hbm, ⟨7, _⟩ => ⟨S2048x8192, .f32⟩
  | .hbm, ⟨8, _⟩ => ⟨S8192x2048, .f32⟩
  | .hbm, ⟨9, _⟩ => ⟨S2048x8192, .f32⟩
  | .hbm, ⟨10, _⟩ => ⟨S8192x2048, .f32⟩
  | .hbm, ⟨11, _⟩ => ⟨S2048x8, .f32⟩
  | .hbm, ⟨12, _⟩ => ⟨S134x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S130x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S134x256, .f32⟩
  | .hbm, ⟨21, _⟩ => ⟨S256, .f32⟩
  | .hbm, ⟨22, _⟩ => ⟨S256x128, .f32⟩
  | .hbm, ⟨23, _⟩ => ⟨S128, .f32⟩
  | .hbm, ⟨24, _⟩ => ⟨S130x128, .f32⟩
  | .hbm, ⟨25, _⟩ => ⟨S128, .f32⟩
  | .hbm, ⟨26, _⟩ => ⟨S128x128, .f32⟩
  | .hbm, ⟨27, _⟩ => ⟨S128, .f32⟩
  | .hbm, ⟨28, _⟩ => ⟨S8x1, .f32⟩
  | .hbm, ⟨29, _⟩ => ⟨S8x5, .f32⟩
  | .hbm, ⟨30, _⟩ => ⟨S2048x5, .f32⟩
  | .hbm, ⟨31, _⟩ => ⟨S8192x5, .f32⟩
  | .hbm, ⟨32, _⟩ => ⟨S8192x1, .f32⟩
  | .hbm, ⟨33, _⟩ => ⟨S8192x4, .f32⟩
  | .hbm, ⟨34, _⟩ => ⟨S1x256, .f32⟩
  | .hbm, ⟨35, _⟩ => ⟨S1x128, .f32⟩
  | .hbm, ⟨36, _⟩ => ⟨S8192x128, .f32⟩
  | .hbm, ⟨37, _⟩ => ⟨S2048x128, .f32⟩
  | .hbm, ⟨38, _⟩ => ⟨S8192x128, .f32⟩
  | .hbm, ⟨39, _⟩ => ⟨S1x128, .f32⟩
  | .hbm, ⟨40, _⟩ => ⟨S1x128, .f32⟩
  | .hbm, ⟨41, _⟩ => ⟨S8192x128, .f32⟩
  | .hbm, ⟨42, _⟩ => ⟨S1x256, .f32⟩
  | .hbm, ⟨43, _⟩ => ⟨S1x128, .f32⟩
  | .hbm, ⟨44, _⟩ => ⟨S8192x128, .f32⟩
  | .hbm, ⟨45, _⟩ => ⟨S2048x128, .f32⟩
  | .hbm, ⟨46, _⟩ => ⟨S8192x128, .f32⟩
  | .hbm, ⟨47, _⟩ => ⟨S1x128, .f32⟩
  | .hbm, ⟨48, _⟩ => ⟨S1x128, .f32⟩
  | .hbm, ⟨49, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S2048x5, .f32⟩
  | .local _ .vmem, ⟨3, _⟩ => ⟨S1024x5, .f32⟩
  | .local _ .vmem, ⟨4, _⟩ => ⟨S1024x5, .f32⟩
  | .local _ .vmem, ⟨5, _⟩ => ⟨S2048x128, .f32⟩
  | .local _ .vmem, ⟨6, _⟩ => ⟨S2048x128, .f32⟩
  | .local _ .vmem, ⟨7, _⟩ => ⟨S2048x2, .f32⟩
  | .local _ .vmem, ⟨8, _⟩ => ⟨S2048x2, .f32⟩
  | .local _ .vmem, ⟨9, _⟩ => ⟨S2048x4, .f32⟩
  | .local _ .vmem, ⟨10, _⟩ => ⟨S2048x4, .f32⟩
  | .local _ .vmem, ⟨11, _⟩ => ⟨S134x256, .f32⟩
  | .local _ .vmem, ⟨12, _⟩ => ⟨S1x256, .f32⟩
  | .local _ .vmem, ⟨13, _⟩ => ⟨S256x128, .f32⟩
  | .local _ .vmem, ⟨14, _⟩ => ⟨S1x128, .f32⟩
  | .local _ .vmem, ⟨15, _⟩ => ⟨S2048x128, .f32⟩
  | .local _ .vmem, ⟨16, _⟩ => ⟨S2048x128, .f32⟩
  | .local _ .vmem, ⟨17, _⟩ => ⟨S256x8192, .f32⟩
  | .local _ .vmem, ⟨18, _⟩ => ⟨S256x8192, .f32⟩
  | .local _ .vmem, ⟨19, _⟩ => ⟨S8192x128, .f32⟩
  | .local _ .vmem, ⟨20, _⟩ => ⟨S256x128, .f32⟩
  | .local _ .vmem, ⟨21, _⟩ => ⟨S256x128, .f32⟩
  | .local _ .vmem, ⟨22, _⟩ => ⟨S1024x2048, .f32⟩
  | .local _ .vmem, ⟨23, _⟩ => ⟨S1024x2048, .f32⟩
  | .local _ .vmem, ⟨24, _⟩ => ⟨S2048x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S2048x128, .f32⟩
  | .local _ .vmem, ⟨30, _⟩ => ⟨S2048x128, .f32⟩
  | .local _ .vmem, ⟨31, _⟩ => ⟨S2048x2, .f32⟩
  | .local _ .vmem, ⟨32, _⟩ => ⟨S2048x2, .f32⟩
  | .local _ .vmem, ⟨33, _⟩ => ⟨S2048x1, .f32⟩
  | .local _ .vmem, ⟨34, _⟩ => ⟨S2048x1, .f32⟩
  | .local _ .vmem, ⟨35, _⟩ => ⟨S2048x128, .f32⟩
  | .local _ .vmem, ⟨36, _⟩ => ⟨S2048x128, .f32⟩
  | .local _ .vmem, ⟨37, _⟩ => ⟨S130x128, .f32⟩
  | .local _ .vmem, ⟨38, _⟩ => ⟨S1x128, .f32⟩
  | .local _ .vmem, ⟨39, _⟩ => ⟨S128x128, .f32⟩
  | .local _ .vmem, ⟨40, _⟩ => ⟨S1x128, .f32⟩
  | .local _ .vmem, ⟨41, _⟩ => ⟨S2048x128, .f32⟩
  | .local _ .vmem, ⟨42, _⟩ => ⟨S2048x128, .f32⟩
  | .local _ .vmem, ⟨43, _⟩ => ⟨S2048x128, .f32⟩
  | .local _ .vmem, ⟨44, _⟩ => ⟨S2048x128, .f32⟩
  | .local _ .vmem, ⟨45, _⟩ => ⟨S2048x2, .f32⟩
  | .local _ .vmem, ⟨46, _⟩ => ⟨S2048x2, .f32⟩
  | .local _ .vmem, ⟨47, _⟩ => ⟨S2048x4, .f32⟩
  | .local _ .vmem, ⟨48, _⟩ => ⟨S2048x4, .f32⟩
  | .local _ .vmem, ⟨49, _⟩ => ⟨S134x256, .f32⟩
  | .local _ .vmem, ⟨50, _⟩ => ⟨S1x256, .f32⟩
  | .local _ .vmem, ⟨51, _⟩ => ⟨S256x128, .f32⟩
  | .local _ .vmem, ⟨52, _⟩ => ⟨S1x128, .f32⟩
  | .local _ .vmem, ⟨53, _⟩ => ⟨S2048x128, .f32⟩
  | .local _ .vmem, ⟨54, _⟩ => ⟨S2048x128, .f32⟩
  | .local _ .vmem, ⟨55, _⟩ => ⟨S256x8192, .f32⟩
  | .local _ .vmem, ⟨56, _⟩ => ⟨S256x8192, .f32⟩
  | .local _ .vmem, ⟨57, _⟩ => ⟨S8192x128, .f32⟩
  | .local _ .vmem, ⟨58, _⟩ => ⟨S256x128, .f32⟩
  | .local _ .vmem, ⟨59, _⟩ => ⟨S256x128, .f32⟩
  | .local _ .vmem, ⟨60, _⟩ => ⟨S1024x2048, .f32⟩
  | .local _ .vmem, ⟨61, _⟩ => ⟨S1024x2048, .f32⟩
  | .local _ .vmem, ⟨62, _⟩ => ⟨S2048x128, .f32⟩
  | .local _ .vmem, ⟨63, _⟩ => ⟨S1024x128, .f32⟩
  | .local _ .vmem, ⟨64, _⟩ => ⟨S1024x128, .f32⟩
  | .local _ .vmem, ⟨65, _⟩ => ⟨S1024x128, .f32⟩
  | .local _ .vmem, ⟨66, _⟩ => ⟨S1024x128, .f32⟩
  | .local _ .vmem, ⟨67, _⟩ => ⟨S2048x128, .f32⟩
  | .local _ .vmem, ⟨68, _⟩ => ⟨S2048x128, .f32⟩
  | .local _ .vmem, ⟨69, _⟩ => ⟨S2048x2, .f32⟩
  | .local _ .vmem, ⟨70, _⟩ => ⟨S2048x2, .f32⟩
  | .local _ .vmem, ⟨71, _⟩ => ⟨S2048x1, .f32⟩
  | .local _ .vmem, ⟨72, _⟩ => ⟨S2048x1, .f32⟩
  | .local _ .vmem, ⟨73, _⟩ => ⟨S2048x128, .f32⟩
  | .local _ .vmem, ⟨74, _⟩ => ⟨S2048x128, .f32⟩
  | .local _ .vmem, ⟨75, _⟩ => ⟨S130x128, .f32⟩
  | .local _ .vmem, ⟨76, _⟩ => ⟨S1x128, .f32⟩
  | .local _ .vmem, ⟨77, _⟩ => ⟨S128x128, .f32⟩
  | .local _ .vmem, ⟨78, _⟩ => ⟨S1x128, .f32⟩
  | .local _ .vmem, ⟨79, _⟩ => ⟨S2048x128, .f32⟩
  | .local _ .vmem, ⟨80, _⟩ => ⟨S2048x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg7_0 : Ref sig .tc := ⟨.vmem, 40, rfl⟩
abbrev cc4_stg8_0 : Ref sig .tc := ⟨.vmem, 41, rfl⟩
abbrev cc4_stg8_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg2_1 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg7_0 : Ref sig .tc := ⟨.vmem, 53, rfl⟩
abbrev cc5_stg7_1 : Ref sig .tc := ⟨.vmem, 54, rfl⟩
abbrev cc6_stg0_0 : Ref sig .tc := ⟨.vmem, 55, rfl⟩
abbrev cc6_stg0_1 : Ref sig .tc := ⟨.vmem, 56, rfl⟩
abbrev cc6_stg1_0 : Ref sig .tc := ⟨.vmem, 57, rfl⟩
abbrev cc6_stg2_0 : Ref sig .tc := ⟨.vmem, 58, rfl⟩
abbrev cc6_stg2_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg2_1 : Ref sig .tc := ⟨.vmem, 64, rfl⟩
abbrev cc7_stg3_0 : Ref sig .tc := ⟨.vmem, 65, rfl⟩
abbrev cc7_stg3_1 : Ref sig .tc := ⟨.vmem, 66, rfl⟩
abbrev cc8_stg0_0 : Ref sig .tc := ⟨.vmem, 67, rfl⟩
abbrev cc8_stg0_1 : Ref sig .tc := ⟨.vmem, 68, rfl⟩
abbrev cc8_stg1_0 : Ref sig .tc := ⟨.vmem, 69, rfl⟩
abbrev cc8_stg1_1 : Ref sig .tc := ⟨.vmem, 70, rfl⟩
abbrev cc8_stg2_0 : Ref sig .tc := ⟨.vmem, 71, rfl⟩
abbrev cc8_stg2_1 : Ref sig .tc := ⟨.vmem, 72, rfl⟩
abbrev cc8_stg3_0 : Ref sig .tc := ⟨.vmem, 73, rfl⟩
abbrev cc8_stg3_1 : Ref sig .tc := ⟨.vmem, 74, rfl⟩
abbrev cc8_stg4_0 : Ref sig .tc := ⟨.vmem, 75, rfl⟩
abbrev cc8_stg5_0 : Ref sig .tc := ⟨.vmem, 76, rfl⟩
abbrev cc8_stg6_0 : Ref sig .tc := ⟨.vmem, 77, rfl⟩
abbrev cc8_stg7_0 : Ref sig .tc := ⟨.vmem, 78, rfl⟩
abbrev cc8_stg8_0 : Ref sig .tc := ⟨.vmem, 79, rfl⟩
abbrev cc8_stg8_1 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc4_sem4_0 : DmaSem sig := 37
abbrev cc4_sem5_0 : DmaSem sig := 38
abbrev cc4_sem6_0 : DmaSem sig := 39
abbrev cc4_sem7_0 : DmaSem sig := 40
abbrev cc4_sem8_0 : DmaSem sig := 41
abbrev cc4_sem8_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem2_1 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem7_0 : DmaSem sig := 53
abbrev cc5_sem7_1 : DmaSem sig := 54
abbrev cc6_sem0_0 : DmaSem sig := 55
abbrev cc6_sem0_1 : DmaSem sig := 56
abbrev cc6_sem1_0 : DmaSem sig := 57
abbrev cc6_sem2_0 : DmaSem sig := 58
abbrev cc6_sem2_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem2_1 : DmaSem sig := 64
abbrev cc7_sem3_0 : DmaSem sig := 65
abbrev cc7_sem3_1 : DmaSem sig := 66
abbrev cc8_sem0_0 : DmaSem sig := 67
abbrev cc8_sem0_1 : DmaSem sig := 68
abbrev cc8_sem1_0 : DmaSem sig := 69
abbrev cc8_sem1_1 : DmaSem sig := 70
abbrev cc8_sem2_0 : DmaSem sig := 71
abbrev cc8_sem2_1 : DmaSem sig := 72
abbrev cc8_sem3_0 : DmaSem sig := 73
abbrev cc8_sem3_1 : DmaSem sig := 74
abbrev cc8_sem4_0 : DmaSem sig := 75
abbrev cc8_sem5_0 : DmaSem sig := 76
abbrev cc8_sem6_0 : DmaSem sig := 77
abbrev cc8_sem7_0 : DmaSem sig := 78
abbrev cc8_sem8_0 : DmaSem sig := 79
abbrev cc8_sem8_1 : DmaSem sig := 80

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S134x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x2 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2048x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S130x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2048x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x2 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x4 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S134x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2048x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x8192 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8192x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S256x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S2048x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S1024x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1024x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2048x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2048x2 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2048x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2048x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S130x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S128x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 2 → Memref sig .tc .vmem S2048x128 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

class Facts₀ : Prop where
  concatenates_S8x1_S8x4_S8x5_d1 : Shape.Concatenates [S8x1, S8x4] S8x5 1
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x5_S2048x5_0_0 : ∀ a, (![0, 0] : Fin 2 → Nat) a + S2048x5.size a ≤ S2048x5.size a
  h_S2048x5 : 0 < S2048x5.numel
  shapeCasts_S2048x5_S2048x5 : S2048x5.ShapeCasts S2048x5
  inb_S1024x5_S1024x5_0_0 : ∀ a, (![0, 0] : Fin 2 → Nat) a + S1024x5.size a ≤ S1024x5.size a
  h_S1024x5 : 0 < S1024x5.numel
  slices_S8192x5_S8192x1_0_0 : S8192x5.Slices ![0, 0] S8192x1
  slices_S8192x5_S8192x4_0_1 : S8192x5.Slices ![0, 1] S8192x4
  shapeCasts_S256_S1x256 : S256.ShapeCasts S1x256
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  inb_S2048x2_S2048x2_0_0 : ∀ a, (![0, 0] : Fin 2 → Nat) a + S2048x2.size a ≤ S2048x2.size a
  h_S2048x2 : 0 < S2048x2.numel
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  concatenates_S2048x128_S2048x2_S2048x4_S2048x134_d1 : Shape.Concatenates [S2048x128, S2048x2, S2048x4] S2048x134 1
  inb_S134x256_S134x256_0_0 : ∀ a, (![0, 0] : Fin 2 → Nat) a + S134x256.size a ≤ S134x256.size a
  h_S134x256 : 0 < S134x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S256x8192_S256x8192_0_0 : ∀ a, (![0, 0] : Fin 2 → Nat) a + S256x8192.size a ≤ S256x8192.size a
  h_S256x8192 : 0 < S256x8192.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  concatenates_S2048x128_S2048x2_S2048x130_d1 : Shape.Concatenates [S2048x128, S2048x2] S2048x130 1
  inb_S130x128_S130x128_0_0 : ∀ a, (![0, 0] : Fin 2 → Nat) a + S130x128.size a ≤ S130x128.size a
  h_S130x128 : 0 < S130x128.numel
  inb_S128x128_S128x128_0_0 : ∀ a, (![0, 0] : Fin 2 → Nat) a + S128x128.size a ≤ S128x128.size a
  h_S128x128 : 0 < S128x128.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  dot_S2048x8_S8x5_S2048x5_1_0_0_1_n_n_wf : DotDims.WF S2048x8 S8x5 S2048x5 [1] [0] [0] [1] [] []
  dot_S1024x2048_S2048x5_S1024x5_1_0_0_1_n_n_wf : DotDims.WF S1024x2048 S2048x5 S1024x5 [1] [0] [0] [1] [] []
  dot_S2048x134_S134x256_S2048x256_1_0_0_1_n_n_wf : DotDims.WF S2048x134 S134x256 S2048x256 [1] [0] [0] [1] [] []
  dot_S2048x256_S256x128_S2048x128_1_0_0_1_n_n_wf : DotDims.WF S2048x256 S256x128 S2048x128 [1] [0] [0] [1] [] []
  dot_S256x8192_S8192x128_S256x128_1_0_0_1_n_n_wf : DotDims.WF S256x8192 S8192x128 S256x128 [1] [0] [0] [1] [] []
  dot_S1024x2048_S2048x128_S1024x128_1_0_0_1_n_n_wf : DotDims.WF S1024x2048 S2048x128 S1024x128 [1] [0] [0] [1] [] []
  dot_S2048x130_S130x128_S2048x128_1_0_0_1_n_n_wf : DotDims.WF S2048x130 S130x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x5.size a ≤ S2048x5.size a
  hwx0_1 : ∀ i : grid0.Coords, EltTy.bits .f32 = 32 ∨ (Rect.block (s := S2048x5) S2048x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x5.size a ≤ S8192x5.size a
  hwx0_2 : ∀ i : grid0.Coords, EltTy.bits .f32 = 32 ∨ (Rect.block (s := S8192x5) S1024x5.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S8192x128.size a
  hwx1_0 : ∀ i : grid1.Coords, EltTy.bits .f32 = 32 ∨ (Rect.block (s := S8192x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x2.size a ≤ S8192x2.size a
  hwx1_1 : ∀ i : grid1.Coords, EltTy.bits .f32 = 32 ∨ (Rect.block (s := S8192x2) S2048x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x4.size a ≤ S8192x4.size a
  hwx1_2 : ∀ i : grid1.Coords, EltTy.bits .f32 = 32 ∨ (Rect.block (s := S8192x4) S2048x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S134x256.size a ≤ S134x256.size a
  hwx1_3 : ∀ i : grid1.Coords, EltTy.bits .f32 = 32 ∨ (Rect.block (s := S134x256) S134x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x128.size a ≤ S8192x128.size a
  hwx1_7 : ∀ i : grid1.Coords, EltTy.bits .f32 = 32 ∨ (Rect.block (s := S8192x128) S2048x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S2048x8192.size a
  hwx2_0 : ∀ i : grid2.Coords, EltTy.bits .f32 = 32 ∨ (Rect.block (s := S2048x8192) S256x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S8192x128.size a
  hwx2_1 : ∀ i : grid2.Coords, EltTy.bits .f32 = 32 ∨ (Rect.block (s := S8192x128) S8192x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S2048x128.size a
  hwx2_2 : ∀ i : grid2.Coords, EltTy.bits .f32 = 32 ∨ (Rect.block (s := S2048x128) S256x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x2048.size a
  hwx3_0 : ∀ i : grid3.Coords, EltTy.bits .f32 = 32 ∨ (Rect.block (s := S8192x2048) S1024x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S2048x128.size a
  hwx3_1 : ∀ i : grid3.Coords, EltTy.bits .f32 = 32 ∨ (Rect.block (s := S2048x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S8192x128.size a
  hwx3_2 : ∀ i : grid3.Coords, EltTy.bits .f32 = 32 ∨ (Rect.block (s := S8192x128) S1024x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S8192x128.size a
  hwx3_3 : ∀ i : grid3.Coords, EltTy.bits .f32 = 32 ∨ (Rect.block (s := S8192x128) S1024x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S8192x128.size a
  hwx4_0 : ∀ i : grid4.Coords, EltTy.bits .f32 = 32 ∨ (Rect.block (s := S8192x128) S2048x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x2.size a ≤ S8192x2.size a
  hwx4_1 : ∀ i : grid4.Coords, EltTy.bits .f32 = 32 ∨ (Rect.block (s := S8192x2) S2048x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S8192x1.size a
  hwx4_2 : ∀ i : grid4.Coords, EltTy.bits .f32 = 32 ∨ (Rect.block (s := S8192x1) S2048x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x128.size a ≤ S8192x128.size a
  hwx4_3 : ∀ i : grid4.Coords, EltTy.bits .f32 = 32 ∨ (Rect.block (s := S8192x128) S2048x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S130x128.size a ≤ S130x128.size a
  hwx4_4 : ∀ i : grid4.Coords, EltTy.bits .f32 = 32 ∨ (Rect.block (s := S130x128) S130x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2048x128.size a ≤ S8192x128.size a
  hwx4_8 : ∀ i : grid4.Coords, EltTy.bits .f32 = 32 ∨ (Rect.block (s := S8192x128) S2048x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S8192x128.size a
  hwx5_0 : ∀ i : grid5.Coords, EltTy.bits .f32 = 32 ∨ (Rect.block (s := S8192x128) S2048x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x2.size a ≤ S8192x2.size a
  hwx5_1 : ∀ i : grid5.Coords, EltTy.bits .f32 = 32 ∨ (Rect.block (s := S8192x2) S2048x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x4.size a ≤ S8192x4.size a
  hwx5_2 : ∀ i : grid5.Coords, EltTy.bits .f32 = 32 ∨ (Rect.block (s := S8192x4) S2048x4.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S134x256.size a ≤ S134x256.size a
  hwx5_3 : ∀ i : grid5.Coords, EltTy.bits .f32 = 32 ∨ (Rect.block (s := S134x256) S134x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x128.size a ≤ S256x128.size a
  hwx5_5 : ∀ i : grid5.Coords, EltTy.bits .f32 = 32 ∨ (Rect.block (s := S256x128) S256x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2048x128.size a ≤ S8192x128.size a
  hwx5_7 : ∀ i : grid5.Coords, EltTy.bits .f32 = 32 ∨ (Rect.block (s := S8192x128) S2048x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x8192.size a ≤ S2048x8192.size a
  hwx6_0 : ∀ i : grid6.Coords, EltTy.bits .f32 = 32 ∨ (Rect.block (s := S2048x8192) S256x8192.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S8192x128.size a ≤ S8192x128.size a
  hwx6_1 : ∀ i : grid6.Coords, EltTy.bits .f32 = 32 ∨ (Rect.block (s := S8192x128) S8192x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S256x128.size a ≤ S2048x128.size a
  hwx6_2 : ∀ i : grid6.Coords, EltTy.bits .f32 = 32 ∨ (Rect.block (s := S2048x128) S256x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x2048.size a ≤ S8192x2048.size a
  hwx7_0 : ∀ i : grid7.Coords, EltTy.bits .f32 = 32 ∨ (Rect.block (s := S8192x2048) S1024x2048.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S2048x128.size a ≤ S2048x128.size a
  hwx7_1 : ∀ i : grid7.Coords, EltTy.bits .f32 = 32 ∨ (Rect.block (s := S2048x128) S2048x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x128.size a ≤ S8192x128.size a
  hwx7_2 : ∀ i : grid7.Coords, EltTy.bits .f32 = 32 ∨ (Rect.block (s := S8192x128) S1024x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x128.size a ≤ S8192x128.size a
  hwx7_3 : ∀ i : grid7.Coords, EltTy.bits .f32 = 32 ∨ (Rect.block (s := S8192x128) S1024x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x128.size a ≤ S8192x128.size a
  hwx8_0 : ∀ i : grid8.Coords, EltTy.bits .f32 = 32 ∨ (Rect.block (s := S8192x128) S2048x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2048x2.size a ≤ S8192x2.size a
  hwx8_1 : ∀ i : grid8.Coords, EltTy.bits .f32 = 32 ∨ (Rect.block (s := S8192x2) S2048x2.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2048x1.size a ≤ S8192x1.size a
  hwx8_2 : ∀ i : grid8.Coords, EltTy.bits .f32 = 32 ∨ (Rect.block (s := S8192x1) S2048x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2048x128.size a ≤ S8192x128.size a
  hwx8_3 : ∀ i : grid8.Coords, EltTy.bits .f32 = 32 ∨ (Rect.block (s := S8192x128) S2048x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S130x128.size a ≤ S130x128.size a
  hwx8_4 : ∀ i : grid8.Coords, EltTy.bits .f32 = 32 ∨ (Rect.block (s := S130x128) S130x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S128x128.size a ≤ S128x128.size a
  hwx8_6 : ∀ i : grid8.Coords, EltTy.bits .f32 = 32 ∨ (Rect.block (s := S128x128) S128x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S2048x128.size a ≤ S8192x128.size a
  hwx8_8 : ∀ i : grid8.Coords, EltTy.bits .f32 = 32 ∨ (Rect.block (s := S8192x128) S2048x128.size (cc8_transform_8 i) (hinb8_8 i)).WholeWords (EltTy.packing .f32)

variable [Facts₀]

def dot_S2048x8_S8x5_S2048x5_1_0_0_1_n_n : DotDims S2048x8 S8x5 S2048x5 where
  lhsContracting := [1]
  rhsContracting := [0]
  lhsNonContracting := [0]
  rhsNonContracting := [1]
  lhsBatch := []
  rhsBatch := []
  wf := dot_S2048x8_S8x5_S2048x5_1_0_0_1_n_n_wf
def dot_S1024x2048_S2048x5_S1024x5_1_0_0_1_n_n : DotDims S1024x2048 S2048x5 S1024x5 where
  lhsContracting := [1]
  rhsContracting := [0]
  lhsNonContracting := [0]
  rhsNonContracting := [1]
  lhsBatch := []
  rhsBatch := []
  wf := dot_S1024x2048_S2048x5_S1024x5_1_0_0_1_n_n_wf
def dot_S2048x134_S134x256_S2048x256_1_0_0_1_n_n : DotDims S2048x134 S134x256 S2048x256 where
  lhsContracting := [1]
  rhsContracting := [0]
  lhsNonContracting := [0]
  rhsNonContracting := [1]
  lhsBatch := []
  rhsBatch := []
  wf := dot_S2048x134_S134x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S2048x130_S130x128_S2048x128_1_0_0_1_n_n : DotDims S2048x130 S130x128 S2048x128 where
  lhsContracting := [1]
  rhsContracting := [0]
  lhsNonContracting := [0]
  rhsNonContracting := [1]
  lhsBatch := []
  rhsBatch := []
  wf := dot_S2048x130_S130x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg8) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2048x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2048x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S134x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S2048x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg7) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S8192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S256x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg8) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S2048x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v8) S1024x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v10) S1024x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v10) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S2048x2.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S2048x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg1) S2048x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg16) S130x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v11) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg18) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v12) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v13) S2048x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_arg3) S2048x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg4) S2048x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v5) S2048x4.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg20) S134x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v14) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg22) S256x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v15) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v16) S2048x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_arg9) S256x8192.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v16) S8192x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v17) S256x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_arg10) S1024x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v17) S2048x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v16) S1024x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v18) S1024x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v18) S2048x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg4) S2048x2.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v4) S2048x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_arg0) S2048x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_arg24) S130x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v19) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_arg26) S128x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v20) S1x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v21) S2048x128.size cc8_transform_8 reads8_8 true false 2 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

class Facts : Prop extends Facts₀ where

variable [Facts]
-- ==== ReferenceIdeal.lean ====
abbrev S8192x128 : Shape := ⟨2, ![8192, 128]⟩
abbrev S8192x2 : Shape := ⟨2, ![8192, 2]⟩
abbrev S8x4 : Shape := ⟨2, ![8, 4]⟩
abbrev S8x1 : Shape := ⟨2, ![8, 1]⟩
abbrev S2048x8192 : Shape := ⟨2, ![2048, 8192]⟩
abbrev S8192x2048 : Shape := ⟨2, ![8192, 2048]⟩
abbrev S2048x8 : Shape := ⟨2, ![2048, 8]⟩
abbrev S134x256 : Shape := ⟨2, ![134, 256]⟩
abbrev S256 : Shape := ⟨1, ![256]⟩
abbrev S256x128 : Shape := ⟨2, ![256, 128]⟩
abbrev S128 : Shape := ⟨1, ![128]⟩
abbrev S130x128 : Shape := ⟨2, ![130, 128]⟩
abbrev S128x128 : Shape := ⟨2, ![128, 128]⟩
abbrev S2048x1 : Shape := ⟨2, ![2048, 1]⟩
abbrev S8192x1 : Shape := ⟨2, ![8192, 1]⟩
abbrev S2048x4 : Shape := ⟨2, ![2048, 4]⟩
abbrev S8192x4 : Shape := ⟨2, ![8192, 4]⟩
abbrev S8192x134 : Shape := ⟨2, ![8192, 134]⟩
abbrev S8192x256 : Shape := ⟨2, ![8192, 256]⟩
abbrev S1x256 : Shape := ⟨2, ![1, 256]⟩
abbrev S_ : Shape := ⟨0, ![]⟩
abbrev S1x128 : Shape := ⟨2, ![1, 128]⟩
abbrev S2048x128 : Shape := ⟨2, ![2048, 128]⟩
abbrev S8192x130 : Shape := ⟨2, ![8192, 130]⟩

abbrev nBuf : Space → Nat
  | .hbm => 103
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x2, .f32⟩
  | .hbm, ⟨5, _⟩ => ⟨S8x4, .f32⟩
  | .hbm, ⟨6, _⟩ => ⟨S8x1, .i32⟩
  | .hbm, ⟨7, _⟩ => ⟨S2048x8192, .f32⟩
  | .hbm, ⟨8, _⟩ => ⟨S8192x2048, .f32⟩
  | .hbm, ⟨9, _⟩ => ⟨S2048x8192, .f32⟩
  | .hbm, ⟨10, _⟩ => ⟨S8192x2048, .f32⟩
  | .hbm, ⟨11, _⟩ => ⟨S2048x8, .f32⟩
  | .hbm, ⟨12, _⟩ => ⟨S134x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S130x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S134x256, .f32⟩
  | .hbm, ⟨21, _⟩ => ⟨S256, .f32⟩
  | .hbm, ⟨22, _⟩ => ⟨S256x128, .f32⟩
  | .hbm, ⟨23, _⟩ => ⟨S128, .f32⟩
  | .hbm, ⟨24, _⟩ => ⟨S130x128, .f32⟩
  | .hbm, ⟨25, _⟩ => ⟨S128, .f32⟩
  | .hbm, ⟨26, _⟩ => ⟨S128x128, .f32⟩
  | .hbm, ⟨27, _⟩ => ⟨S128, .f32⟩
  | .hbm, ⟨28, _⟩ => ⟨S8x1, .f32⟩
  | .hbm, ⟨29, _⟩ => ⟨S2048x1, .f32⟩
  | .hbm, ⟨30, _⟩ => ⟨S8192x1, .f32⟩
  | .hbm, ⟨31, _⟩ => ⟨S2048x4, .f32⟩
  | .hbm, ⟨32, _⟩ => ⟨S8192x4, .f32⟩
  | .hbm, ⟨33, _⟩ => ⟨S8192x134, .f32⟩
  | .hbm, ⟨34, _⟩ => ⟨S8192x256, .f32⟩
  | .hbm, ⟨35, _⟩ => ⟨S1x256, .f32⟩
  | .hbm, ⟨36, _⟩ => ⟨S8192x256, .f32⟩
  | .hbm, ⟨37, _⟩ => ⟨S8192x256, .f32⟩
  | .hbm, ⟨38, _⟩ => ⟨S_, .f32⟩
  | .hbm, ⟨39, _⟩ => ⟨S8192x256, .f32⟩
  | .hbm, ⟨40, _⟩ => ⟨S8192x256, .f32⟩
  | .hbm, ⟨41, _⟩ => ⟨S8192x128, .f32⟩
  | .hbm, ⟨42, _⟩ => ⟨S1x128, .f32⟩
  | .hbm, ⟨43, _⟩ => ⟨S8192x128, .f32⟩
  | .hbm, ⟨44, _⟩ => ⟨S8192x128, .f32⟩
  | .hbm, ⟨45, _⟩ => ⟨S2048x128, .f32⟩
  | .hbm, ⟨46, _⟩ => ⟨S8192x128, .f32⟩
  | .hbm, ⟨47, _⟩ => ⟨S8192x128, .f32⟩
  | .hbm, ⟨48, _⟩ => ⟨S8192x130, .f32⟩
  | .hbm, ⟨49, _⟩ => ⟨S8192x128, .f32⟩
  | .hbm, ⟨50, _⟩ => ⟨S1x128, .f32⟩
  | .hbm, ⟨51, _⟩ => ⟨S8192x128, .f32⟩
  | .hbm, ⟨52, _⟩ => ⟨S8192x128, .f32⟩
  | .hbm, ⟨53, _⟩ => ⟨S_, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S1x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S8192x134, .f32⟩
  | .hbm, ⟨69, _⟩ => ⟨S8192x256, .f32⟩
  | .hbm, ⟨70, _⟩ => ⟨S1x256, .f32⟩
  | .hbm, ⟨71, _⟩ => ⟨S8192x256, .f32⟩
  | .hbm, ⟨72, _⟩ => ⟨S8192x256, .f32⟩
  | .hbm, ⟨73, _⟩ => ⟨S_, .f32⟩
  | .hbm, ⟨74, _⟩ => ⟨S8192x256, .f32⟩
  | .hbm, ⟨75, _⟩ => ⟨S8192x256, .f32⟩
  | .hbm, ⟨76, _⟩ => ⟨S8192x128, .f32⟩
  | .hbm, ⟨77, _⟩ => ⟨S1x128, .f32⟩
  | .hbm, ⟨78, _⟩ => ⟨S8192x128, .f32⟩
  | .hbm, ⟨79, _⟩ => ⟨S8192x128, .f32⟩
  | .hbm, ⟨80, _⟩ => ⟨S2048x128, .f32⟩
  | .hbm, ⟨81, _⟩ => ⟨S8192x128, .f32⟩
  | .hbm, ⟨82, _⟩ => ⟨S8192x128, .f32⟩
  | .hbm, ⟨83, _⟩ => ⟨S8192x130, .f32⟩
  | .hbm, ⟨84, _⟩ => ⟨S8192x128, .f32⟩
  | .hbm, ⟨85, _⟩ => ⟨S1x128, .f32⟩
  | .hbm, ⟨86, _⟩ => ⟨S8192x128, .f32⟩
  | .hbm, ⟨87, _⟩ => ⟨S8192x128, .f32⟩
  | .hbm, ⟨88, _⟩ => ⟨S_, .f32⟩
  | .hbm, ⟨89, _⟩ => ⟨S8192x128, .f32⟩
  | .hbm, ⟨90, _⟩ => ⟨S8192x128, .f32⟩
  | .hbm, ⟨91, _⟩ => ⟨S8192x128, .f32⟩
  | .hbm, ⟨92, _⟩ => ⟨S1x128, .f32⟩
  | .hbm, ⟨93, _⟩ => ⟨S8192x128, .f32⟩
  | .hbm, ⟨94, _⟩ => ⟨S8192x128, .f32⟩
  | .hbm, ⟨95, _⟩ => ⟨S8192x128, .f32⟩
  | .hbm, ⟨96, _⟩ => ⟨S8192x128, .f32⟩
  | .hbm, ⟨97, _⟩ => ⟨S_, .f32⟩
  | .hbm, ⟨98, _⟩ => ⟨S8192x1, .f32⟩
  | .hbm, ⟨99, _⟩ => ⟨S8192x1, .f32⟩
  | .hbm, ⟨100, _⟩ => ⟨S8192x128, .f32⟩
  | .hbm, ⟨101, _⟩ => ⟨S8192x128, .f32⟩
  | .hbm, ⟨102, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_call0_cst : Ref sig .tc := ⟨.hbm, 38, rfl⟩
abbrev main_call0_v0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_call1_cst : Ref sig .tc := ⟨.hbm, 53, rfl⟩
abbrev main_call1_v0 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_call2_cst : Ref sig .tc := ⟨.hbm, 73, rfl⟩
abbrev main_call2_v0 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_call3_cst : Ref sig .tc := ⟨.hbm, 88, rfl⟩
abbrev main_call3_v0 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_0 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩

abbrev nD : Nat := 1
abbrev τ : Topo := Topo.v7x

variable {F : FTy → Type} [FloatOps F]

class Facts₀ : Prop where
  concatenates_S8192x128_S8192x2_S8192x4_S8192x134_d1 : Shape.Concatenates [S8192x128, S8192x2, S8192x4] S8192x134 1
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  concatenates_S8192x128_S8192x2_S8192x130_d1 : Shape.Concatenates [S8192x128, S8192x2] S8192x130 1
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  bcast_S_S8192x1 : S_.BroadcastsInDim S8192x1 (![] : Fin 0 → Fin S8192x1.rank)
  dot_S2048x8_S8x1_S2048x1_1_0_0_1_n_n_wf : DotDims.WF S2048x8 S8x1 S2048x1 [1] [0] [0] [1] [] []
  dot_S8192x2048_S2048x1_S8192x1_1_0_0_1_n_n_wf : DotDims.WF S8192x2048 S2048x1 S8192x1 [1] [0] [0] [1] [] []
  dot_S2048x8_S8x4_S2048x4_1_0_0_1_n_n_wf : DotDims.WF S2048x8 S8x4 S2048x4 [1] [0] [0] [1] [] []
  dot_S8192x2048_S2048x4_S8192x4_1_0_0_1_n_n_wf : DotDims.WF S8192x2048 S2048x4 S8192x4 [1] [0] [0] [1] [] []
  dot_S8192x134_S134x256_S8192x256_1_0_0_1_n_n_wf : DotDims.WF S8192x134 S134x256 S8192x256 [1] [0] [0] [1] [] []
  dot_S8192x256_S256x128_S8192x128_1_0_0_1_n_n_wf : DotDims.WF S8192x256 S256x128 S8192x128 [1] [0] [0] [1] [] []
  dot_S2048x8192_S8192x128_S2048x128_1_0_0_1_n_n_wf : DotDims.WF S2048x8192 S8192x128 S2048x128 [1] [0] [0] [1] [] []
  dot_S8192x2048_S2048x128_S8192x128_1_0_0_1_n_n_wf : DotDims.WF S8192x2048 S2048x128 S8192x128 [1] [0] [0] [1] [] []
  dot_S8192x130_S130x128_S8192x128_1_0_0_1_n_n_wf : DotDims.WF S8192x130 S130x128 S8192x128 [1] [0] [0] [1] [] []
  dot_S8192x128_S128x128_S8192x128_1_0_0_1_n_n_wf : DotDims.WF S8192x128 S128x128 S8192x128 [1] [0] [0] [1] [] []

variable [Facts₀]

def dot_S2048x8_S8x1_S2048x1_1_0_0_1_n_n : DotDims S2048x8 S8x1 S2048x1 where
  lhsContracting := [1]
  rhsContracting := [0]
  lhsNonContracting := [0]
  rhsNonContracting := [1]
  lhsBatch := []
  rhsBatch := []
  wf := dot_S2048x8_S8x1_S2048x1_1_0_0_1_n_n_wf
def dot_S8192x2048_S2048x1_S8192x1_1_0_0_1_n_n : DotDims S8192x2048 S2048x1 S8192x1 where
  lhsContracting := [1]
  rhsContracting := [0]
  lhsNonContracting := [0]
  rhsNonContracting := [1]
  lhsBatch := []
  rhsBatch := []
  wf := dot_S8192x2048_S2048x1_S8192x1_1_0_0_1_n_n_wf
def dot_S2048x8_S8x4_S2048x4_1_0_0_1_n_n : DotDims S2048x8 S8x4 S2048x4 where
  lhsContracting := [1]
  rhsContracting := [0]
  lhsNonContracting := [0]
  rhsNonContracting := [1]
  lhsBatch := []
  rhsBatch := []
  wf := dot_S2048x8_S8x4_S2048x4_1_0_0_1_n_n_wf
def dot_S8192x2048_S2048x4_S8192x4_1_0_0_1_n_n : DotDims S8192x2048 S2048x4 S8192x4 where
  lhsContracting := [1]
  rhsContracting := [0]
  lhsNonContracting := [0]
  rhsNonContracting := [1]
  lhsBatch := []
  rhsBatch := []
  wf := dot_S8192x2048_S2048x4_S8192x4_1_0_0_1_n_n_wf
def dot_S8192x134_S134x256_S8192x256_1_0_0_1_n_n : DotDims S8192x134 S134x256 S8192x256 where
  lhsContracting := [1]
  rhsContracting := [0]
  lhsNonContracting := [0]
  rhsNonContracting := [1]
  lhsBatch := []
  rhsBatch := []
  wf := dot_S8192x134_S134x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S2048x8192_S8192x128_S2048x128_1_0_0_1_n_n : DotDims S2048x8192 S8192x128 S2048x128 where
  lhsContracting := [1]
  rhsContracting := [0]
  lhsNonContracting := [0]
  rhsNonContracting := [1]
  lhsBatch := []
  rhsBatch := []
  wf := dot_S2048x8192_S8192x128_S2048x128_1_0_0_1_n_n_wf
def dot_S8192x2048_S2048x128_S8192x128_1_0_0_1_n_n : DotDims S8192x2048 S2048x128 S8192x128 where
  lhsContracting := [1]
  rhsContracting := [0]
  lhsNonContracting := [0]
  rhsNonContracting := [1]
  lhsBatch := []
  rhsBatch := []
  wf := dot_S8192x2048_S2048x128_S8192x128_1_0_0_1_n_n_wf
def dot_S8192x130_S130x128_S8192x128_1_0_0_1_n_n : DotDims S8192x130 S130x128 S8192x128 where
  lhsContracting := [1]
  rhsContracting := [0]
  lhsNonContracting := [0]
  rhsNonContracting := [1]
  lhsBatch := []
  rhsBatch := []
  wf := dot_S8192x130_S130x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.Spec.lean ====
/-
  What both programs compute, as plain functions on the extended reals.

  A matrix is a function of a row and a column. Every stage of the two programs is built from five things: the
  matrix product `mm` (entry (p, q) is the sum over k of A p k · B k q), the side-by-side join of column blocks
  (`cat15`, `cat2`, `cat3`), `relu x = max x 0`, a bias row added to every row, and the blend
  `mask · new + (1 − mask) · old` by a per-row mask.

  * `head` is the two-layer map applied to each edge before the node sums:
      relu([dec | edge | graph] · W1 + b1) · W2 + b2.
  * `agg` is the node sum sent back to the edges less the edge's own message: Mt · (M · h) − h.
  * `tail` is the two-layer map after the sums, blended with the old state by the row mask:
      mask · (relu([agg | edge] · A1 + c1) · A2 + c2) + (1 − mask) · orig.

  All of them act row by row: row p of the result depends on row p of the row-indexed operands only, so reading a
  block of rows of the result is applying the same function to the same block of rows of the operands
  (`head_rows`, `tail_rows`, `mm_rows`, `mmSub_rows`). That is what lets a kernel that works on one block of rows at
  a time be read as one whole-array function.

  The kernel sends the activity flag and the four graph features through the variable incidence matrices TOGETHER,
  as the five columns of one matrix, and then takes column 0 and columns 1–4 apart; the reference sends them
  separately. Column j of a product depends on column j of the right factor only, so the two agree entry by entry
  (`mm_cat15_col0`, `mm_cat15_succ`): no law beyond the definition of the product is used.
-/
import Idealize.ShloMosaic.PureOps.Ideal.Laws
import Idealize.ShloMosaic.Lib.ValueIdx

noncomputable section

namespace Cert.Spec

open Idealize.ShloMosaic

/-- A matrix over the extended reals: a function of a row and a column. -/
abbrev Mat (M N : Nat) : Type := Fin M → Fin N → EReal

/-- The matrix product: entry (p, q) is the sum over k of `A p k · B k q`. -/
def mm {M K N : Nat} (A : Mat M K) (B : Mat K N) : Mat M N := fun p q => ∑ k : Fin K, A p k * B k q

/-- The product less a matrix of the result's shape. -/
def mmSub {M K N : Nat} (A : Mat M K) (B : Mat K N) (C : Mat M N) : Mat M N := fun p q => mm A B p q - C p q

/-- One column beside four. -/
def cat15 {M : Nat} (X : Mat M 1) (Y : Mat M 4) : Mat M 5 := fun p j =>
  if h : j.val < 1 then X p ⟨j.val, h⟩ else Y p ⟨j.val - 1, by have := j.isLt; omega⟩

/-- 128 columns beside two. -/
def cat2 {M : Nat} (X : Mat M 128) (Y : Mat M 2) : Mat M 130 := fun p j =>
  if h : j.val < 128 then X p ⟨j.val, h⟩ else Y p ⟨j.val - 128, by have := j.isLt; omega⟩

/-- 128 columns beside two beside four. -/
def cat3 {M : Nat} (X : Mat M 128) (Y : Mat M 2) (Z : Mat M 4) : Mat M 134 := fun p j =>
  if h : j.val < 128 then X p ⟨j.val, h⟩
  else if h2 : j.val < 130 then Y p ⟨j.val - 128, by omega⟩
  else Z p ⟨j.val - 130, by have := j.isLt; omega⟩

/-- `max x 0`. -/
def relu (x : EReal) : EReal := max x 0

/-- The number the blend subtracts the mask from: the single-precision word of 1, read as an extended real. -/
def one : EReal := Ideal.ofBits .f32 0x3F800000#32

/-- The map applied to every edge before the node sums. -/
def head {M : Nat} (dec : Mat M 128) (edge : Mat M 2) (g : Mat M 4) (w1 : Mat 134 256) (b1 : Fin 256 → EReal)
    (w2 : Mat 256 128) (b2 : Fin 128 → EReal) : Mat M 128 :=
  fun p q => mm (fun p' j => relu (mm (cat3 dec edge g) w1 p' j + b1 j)) w2 p q + b2 q

/-- The node sum sent back to the edges, less the edge's own message. -/
def agg {E V : Nat} (Mt : Mat E V) (Mv : Mat V E) (h : Mat E 128) : Mat E 128 := mmSub Mt (mm Mv h) h

/-- The map applied after the node sums, blended with the old state by the row mask. -/
def tail {M : Nat} (a : Mat M 128) (edge : Mat M 2) (mask : Fin M → EReal) (orig : Mat M 128) (a1 : Mat 130 128)
    (c1 : Fin 128 → EReal) (a2 : Mat 128 128) (c2 : Fin 128 → EReal) : Mat M 128 :=
  fun p q => mask p * (mm (fun p' j => relu (mm (cat2 a edge) a1 p' j + c1 j)) a2 p q + c2 q) + (one - mask p) * orig p q

/-! ## Row by row -/

/-- A block of rows of a product is the product of that block of rows of the left factor. -/
theorem mm_rows {M M' K N : Nat} (r : Fin M' → Fin M) (A : Mat M K) (B : Mat K N) (p : Fin M') (q : Fin N) :
    mm (fun p' k => A (r p') k) B p q = mm A B (r p) q := rfl

theorem mmSub_rows {M M' K N : Nat} (r : Fin M' → Fin M) (A : Mat M K) (B : Mat K N) (C : Mat M N) (p : Fin M') (q : Fin N) :
    mmSub (fun p' k => A (r p') k) B (fun p' q' => C (r p') q') p q = mmSub A B C (r p) q := rfl

theorem head_rows {M M' : Nat} (r : Fin M' → Fin M) (dec : Mat M 128) (edge : Mat M 2) (g : Mat M 4) (w1 : Mat 134 256)
    (b1 : Fin 256 → EReal) (w2 : Mat 256 128) (b2 : Fin 128 → EReal) (p : Fin M') (q : Fin 128) :
    head (fun p' k => dec (r p') k) (fun p' k => edge (r p') k) (fun p' k => g (r p') k) w1 b1 w2 b2 p q
      = head dec edge g w1 b1 w2 b2 (r p) q := rfl

theorem tail_rows {M M' : Nat} (r : Fin M' → Fin M) (a : Mat M 128) (edge : Mat M 2) (mask : Fin M → EReal) (orig : Mat M 128)
    (a1 : Mat 130 128) (c1 : Fin 128 → EReal) (a2 : Mat 128 128) (c2 : Fin 128 → EReal) (p : Fin M') (q : Fin 128) :
    tail (fun p' k => a (r p') k) (fun p' k => edge (r p') k) (fun p' => mask (r p')) (fun p' k => orig (r p') k) a1 c1 a2 c2 p q
      = tail a edge mask orig a1 c1 a2 c2 (r p) q := rfl

/-! ## Five columns sent together, or one and four apart -/

/-- Column 0 of a product with `[X | Y]` is the product with `X`. -/
theorem mm_cat15_col0 {M K : Nat} (A : Mat M K) (X : Mat K 1) (Y : Mat K 4) (p : Fin M) :
    mm A (cat15 X Y) p 0 = mm A X p 0 := by
  unfold mm cat15
  refine Finset.sum_congr rfl fun k _ => ?_
  rw [dif_pos (by decide)]
  rfl

/-- Column j + 1 of a product with `[X | Y]` is column j of the product with `Y`. -/
theorem mm_cat15_succ {M K : Nat} (A : Mat M K) (X : Mat K 1) (Y : Mat K 4) (p : Fin M) (j : Fin 4) :
    mm A (cat15 X Y) p ⟨j.val + 1, by have := j.isLt; omega⟩ = mm A Y p j := by
  unfold mm cat15
  refine Finset.sum_congr rfl fun k _ => ?_
  rw [dif_neg (by simp)]
  rfl

/-! ## Arrays as matrices -/

open Idealize.ShloMosaic.ValueIdx

/-- A rank-2 array of extended reals as a matrix. -/
def ofV {M N : Nat} (x : (⟨2, ![M, N]⟩ : Shape).Idx → EReal) : Mat M N := fun p q => x (ix2 p q)
/-- A matrix as a rank-2 array. -/
def toV {M N : Nat} (A : Mat M N) : (⟨2, ![M, N]⟩ : Shape).Idx → EReal := fun i => A (i 0) (i 1)
/-- A rank-1 array as a row of numbers. -/
def ofV1 {N : Nat} (x : (⟨1, ![N]⟩ : Shape).Idx → EReal) : Fin N → EReal := fun q => x (ix1 q)
/-- A one-row array as a row of numbers. -/
def ofRow {N : Nat} (x : (⟨2, ![1, N]⟩ : Shape).Idx → EReal) : Fin N → EReal := fun q => x (ix2 0 q)
/-- A one-column array as a column of numbers. -/
def ofCol {M : Nat} (x : (⟨2, ![M, 1]⟩ : Shape).Idx → EReal) : Fin M → EReal := fun p => x (ix2 p 0)

theorem toV_apply {M N : Nat} (A : Mat M N) (p : Fin M) (q : Fin N) : toV A (ix2 p q) = A p q := rfl
theorem ofV_toV {M N : Nat} (A : Mat M N) : ofV (toV A) = A := rfl
theorem toV_ofV {M N : Nat} (x : (⟨2, ![M, N]⟩ : Shape).Idx → EReal) : toV (ofV x) = x :=
  funext fun i => congrArg x (eq_ix2 i).symm

/-! ## The two programs -/

/-- The 28 inputs, in the order of the entry point's parameters: the two states, the two decimator states, the edge
    features, the per-problem features, the per-problem activity flag (an integer), the four incidence matrices, the
    problem-of-variable matrix, and the sixteen weights and biases. -/
structure Args where
  x0 : (⟨2, ![8192, 128]⟩ : Shape).Idx → EReal
  x1 : (⟨2, ![8192, 128]⟩ : Shape).Idx → EReal
  x2 : (⟨2, ![8192, 128]⟩ : Shape).Idx → EReal
  x3 : (⟨2, ![8192, 128]⟩ : Shape).Idx → EReal
  x4 : (⟨2, ![8192, 2]⟩ : Shape).Idx → EReal
  x5 : (⟨2, ![8, 4]⟩ : Shape).Idx → EReal
  x6 : (⟨2, ![8, 1]⟩ : Shape).Idx → BitVec 32
  x7 : (⟨2, ![2048, 8192]⟩ : Shape).Idx → EReal
  x8 : (⟨2, ![8192, 2048]⟩ : Shape).Idx → EReal
  x9 : (⟨2, ![2048, 8192]⟩ : Shape).Idx → EReal
  x10 : (⟨2, ![8192, 2048]⟩ : Shape).Idx → EReal
  x11 : (⟨2, ![2048, 8]⟩ : Shape).Idx → EReal
  x12 : (⟨2, ![134, 256]⟩ : Shape).Idx → EReal
  x13 : (⟨1, ![256]⟩ : Shape).Idx → EReal
  x14 : (⟨2, ![256, 128]⟩ : Shape).Idx → EReal
  x15 : (⟨1, ![128]⟩ : Shape).Idx → EReal
  x16 : (⟨2, ![130, 128]⟩ : Shape).Idx → EReal
  x17 : (⟨1, ![128]⟩ : Shape).Idx → EReal
  x18 : (⟨2, ![128, 128]⟩ : Shape).Idx → EReal
  x19 : (⟨1, ![128]⟩ : Shape).Idx → EReal
  x20 : (⟨2, ![134, 256]⟩ : Shape).Idx → EReal
  x21 : (⟨1, ![256]⟩ : Shape).Idx → EReal
  x22 : (⟨2, ![256, 128]⟩ : Shape).Idx → EReal
  x23 : (⟨1, ![128]⟩ : Shape).Idx → EReal
  x24 : (⟨2, ![130, 128]⟩ : Shape).Idx → EReal
  x25 : (⟨1, ![128]⟩ : Shape).Idx → EReal
  x26 : (⟨2, ![128, 128]⟩ : Shape).Idx → EReal
  x27 : (⟨1, ![128]⟩ : Shape).Idx → EReal

variable (a : Args)

/-- The activity flag as a number. -/
def act : Mat 8 1 := fun p q => FloatOps.sitofp (F := Ideal) .f32 (a.x6 (ix2 p q))

/-! ### The kernel: flag and features sent through the incidence matrices together -/

/-- Per variable: the flag and the four features of its problem. -/
def kBv : Mat 2048 5 := mm (ofV a.x11) (cat15 (act a) (ofV a.x5))
/-- Per edge: the flag and the four features of its variable's problem. -/
def kMg : Mat 8192 5 := mm (ofV a.x8) (kBv a)
def kMask : Fin 8192 → EReal := fun p => kMg a p 0
def kGraph : Mat 8192 4 := fun p j => kMg a p ⟨j.val + 1, by have := j.isLt; omega⟩
def kHv : Mat 8192 128 := head (ofV a.x2) (ofV a.x4) (kGraph a) (ofV a.x12) (ofV1 a.x13) (ofV a.x14) (ofV1 a.x15)
def kVsum : Mat 2048 128 := mm (ofV a.x7) (kHv a)
def kAggV : Mat 8192 128 := mmSub (ofV a.x8) (kVsum a) (kHv a)
/-- The kernel's new function state. -/
def kFs : Mat 8192 128 := tail (kAggV a) (ofV a.x4) (kMask a) (ofV a.x1) (ofV a.x16) (ofV1 a.x17) (ofV a.x18) (ofV1 a.x19)
def kHf : Mat 8192 128 := head (ofV a.x3) (ofV a.x4) (kGraph a) (ofV a.x20) (ofV1 a.x21) (ofV a.x22) (ofV1 a.x23)
def kFsum : Mat 2048 128 := mm (ofV a.x9) (kHf a)
def kAggF : Mat 8192 128 := mmSub (ofV a.x10) (kFsum a) (kHf a)
/-- The kernel's new variable state. -/
def kVs : Mat 8192 128 := tail (kAggF a) (ofV a.x4) (kMask a) (ofV a.x0) (ofV a.x24) (ofV1 a.x25) (ofV a.x26) (ofV1 a.x27)

/-! ### The reference: flag and features sent separately -/

def rMask : Fin 8192 → EReal := fun p => mm (ofV a.x8) (mm (ofV a.x11) (act a)) p 0
def rGraph : Mat 8192 4 := mm (ofV a.x8) (mm (ofV a.x11) (ofV a.x5))
def rHv : Mat 8192 128 := head (ofV a.x2) (ofV a.x4) (rGraph a) (ofV a.x12) (ofV1 a.x13) (ofV a.x14) (ofV1 a.x15)
def rAggV : Mat 8192 128 := mmSub (ofV a.x8) (mm (ofV a.x7) (rHv a)) (rHv a)
/-- The reference's new function state. -/
def rFs : Mat 8192 128 := tail (rAggV a) (ofV a.x4) (rMask a) (ofV a.x1) (ofV a.x16) (ofV1 a.x17) (ofV a.x18) (ofV1 a.x19)
def rHf : Mat 8192 128 := head (ofV a.x3) (ofV a.x4) (rGraph a) (ofV a.x20) (ofV1 a.x21) (ofV a.x22) (ofV1 a.x23)
def rAggF : Mat 8192 128 := mmSub (ofV a.x10) (mm (ofV a.x9) (rHf a)) (rHf a)
/-- The reference's new variable state. -/
def rVs : Mat 8192 128 := tail (rAggF a) (ofV a.x4) (rMask a) (ofV a.x0) (ofV a.x24) (ofV1 a.x25) (ofV a.x26) (ofV1 a.x27)

/-! ### They agree -/

theorem kMask_eq : kMask a = rMask a := funext fun p => by
  show (∑ v : Fin 2048, ofV a.x8 p v * mm (ofV a.x11) (cat15 (act a) (ofV a.x5)) v 0)
    = ∑ v : Fin 2048, ofV a.x8 p v * mm (ofV a.x11) (act a) v 0
  refine Finset.sum_congr rfl fun v _ => ?_
  rw [mm_cat15_col0]

theorem kGraph_eq : kGraph a = rGraph a := funext fun p => funext fun j => by
  show (∑ v : Fin 2048, ofV a.x8 p v * mm (ofV a.x11) (cat15 (act a) (ofV a.x5)) v ⟨j.val + 1, by have := j.isLt; omega⟩)
    = ∑ v : Fin 2048, ofV a.x8 p v * mm (ofV a.x11) (ofV a.x5) v j
  refine Finset.sum_congr rfl fun v _ => ?_
  rw [mm_cat15_succ]

theorem kFs_eq : kFs a = rFs a := by
  unfold kFs rFs kAggV rAggV kVsum kHv rHv
  rw [kMask_eq, kGraph_eq]

theorem kVs_eq : kVs a = rVs a := by
  unfold kVs rVs kAggF rAggF kFsum kHf rHf
  rw [kMask_eq, kGraph_eq]

end Cert.Spec

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Region0.lean ====
/-
  The first call: the edge-by-variable incidence matrix times the five per-variable columns.

  The call works on eight blocks of 1024 rows. At block t it loads rows 1024·t … 1024·t + 1023 of the incidence matrix
  and the whole 2048 × 5 right factor, multiplies them (into a zero accumulator; the change of number format before
  the product is the identity on the extended reals) and stores the 1024 × 5 product as rows 1024·t … of the result.
  Row p of a product depends on row p of the left factor only, so block t of the result is block t of the product
  of the WHOLE arrays; the eight blocks tile the result, so after the call the result array holds that product.
-/
import proofs.«179721_j30537217474923_1_alg».proof.Proof.Gen.KernelIdeal.Frame
import proofs.«179721_j30537217474923_1_alg».proof.Proof.Spec
import proofs.«179721_j30537217474923_1_alg».proof.Proof.LibMatmulAt
import Idealize.ShloMosaic.Lib.Pipeline.Value
import Idealize.ShloMosaic.Lib.ValueLayout

noncomputable section

open Idealize.ShloMosaic Idealize.ShloMosaic.TcCoe Idealize.SL.Sem
open Idealize.ShloMosaic.Pipeline (Dat)

namespace Cert.KernelIdeal.R0

open Idealize.ShloMosaic.ValueIdx Cert.KernelIdeal Cert.KernelIdeal.Gen Cert.Spec

/-! ## Where the product's dimension numbers read their operands -/

theorem d_l0 (i : S1024x5.Idx) (q : dot_S1024x2048_S2048x5_S1024x5_1_0_0_1_n_n.contr.Idx) : (dot_S1024x2048_S2048x5_S1024x5_1_0_0_1_n_n.lhsIdx i q 0).val = (i 0).val := by
  unfold DotDims.lhsIdx
  rw [dif_neg (show ¬(0 : Fin S1024x2048.rank) ∈ dot_S1024x2048_S2048x5_S1024x5_1_0_0_1_n_n.lhsBatch by decide), dif_pos (show (0 : Fin S1024x2048.rank) ∈ dot_S1024x2048_S2048x5_S1024x5_1_0_0_1_n_n.lhsNonContracting by decide)]
  rfl
theorem d_l1 (i : S1024x5.Idx) (q : dot_S1024x2048_S2048x5_S1024x5_1_0_0_1_n_n.contr.Idx) : (dot_S1024x2048_S2048x5_S1024x5_1_0_0_1_n_n.lhsIdx i q 1).val = (q ⟨0, by decide⟩).val :=
  dot_S1024x2048_S2048x5_S1024x5_1_0_0_1_n_n.lhsIdx_val_of_single rfl i q
theorem d_r0 (i : S1024x5.Idx) (q : dot_S1024x2048_S2048x5_S1024x5_1_0_0_1_n_n.contr.Idx) : (dot_S1024x2048_S2048x5_S1024x5_1_0_0_1_n_n.rhsIdx i q 0).val = (q ⟨0, by decide⟩).val :=
  dot_S1024x2048_S2048x5_S1024x5_1_0_0_1_n_n.rhsIdx_val_of_single rfl i q
theorem d_r1 (i : S1024x5.Idx) (q : dot_S1024x2048_S2048x5_S1024x5_1_0_0_1_n_n.contr.Idx) : (dot_S1024x2048_S2048x5_S1024x5_1_0_0_1_n_n.rhsIdx i q 1).val = (i 1).val := by
  unfold DotDims.rhsIdx
  rw [dif_neg (show ¬(1 : Fin S2048x5.rank) ∈ dot_S1024x2048_S2048x5_S1024x5_1_0_0_1_n_n.rhsBatch by decide), dif_pos (show (1 : Fin S2048x5.rank) ∈ dot_S1024x2048_S2048x5_S1024x5_1_0_0_1_n_n.rhsNonContracting by decide)]
  rfl

/-! ## The body's value at an entry -/

/-- Entry (p, q) of what the body stores is the product of the two loaded blocks at (p, q). -/
theorem pay_at (x0 : Vec Ideal S1024x2048 .f32) (x1 : Vec Ideal S2048x5 .f32) (p : Fin 1024) (q : Fin 5) :
    k0_pay1 (F := Ideal) x0 x1 (ix2 p q) = mm (ofV x0) (ofV x1) p q := by
  unfold k0_pay1
  refine (MatmulAt.matmul_zero_at dot_S1024x2048_S2048x5_S1024x5_1_0_0_1_n_n rfl rfl d_l0 d_l1 d_r0 d_r1 none _ _ p q).trans ?_
  unfold mm
  refine Finset.sum_congr rfl fun k _ => ?_
  rw [shapeCast_self]
  rfl

/-- What the result array holds after the call, as a function of the two arrays the call reads. -/
def G (a0 : Vec Ideal S8192x2048 .f32) (a1 : Vec Ideal S2048x5 .f32) : Vec Ideal S8192x5 .f32 :=
  toV (mm (ofV a0) (ofV a1))

/-- If the left block is rows `r p` of the left array and the right block is the right array, the body's value at
    `y` is the whole product at the index with row `r (y 0)` and `y`'s column. -/
theorem point (x0 : Vec Ideal S1024x2048 .f32) (x1 : Vec Ideal S2048x5 .f32) (a0 : Vec Ideal S8192x2048 .f32) (a1 : Vec Ideal S2048x5 .f32)
    (r : Fin 1024 → Fin 8192)
    (h0 : ∀ (p : Fin 1024) (k : Fin 2048), x0 (ix2 p k) = a0 (ix2 (r p) k))
    (h1 : ∀ (k : Fin 2048) (q : Fin 5), x1 (ix2 k q) = a1 (ix2 k q))
    (y : S1024x5.Idx) (i : S8192x5.Idx) (hi0 : (i 0).val = (r (y 0)).val) (hi1 : (i 1).val = (y 1).val) :
    k0_pay1 (F := Ideal) x0 x1 y = G a0 a1 i := by
  obtain ⟨p, q, rfl⟩ : ∃ (p : Fin 1024) (q : Fin 5), y = ix2 p q := ⟨y 0, y 1, eq_ix2 y⟩
  rw [pay_at]
  have e0 : i 0 = r p := Fin.ext hi0
  have e1 : i 1 = q := Fin.ext hi1
  show mm (ofV x0) (ofV x1) p q = mm (ofV a0) (ofV a1) (i 0) (i 1)
  rw [e0, e1]
  have hx0 : ofV x0 = fun p k => ofV a0 (r p) k := funext fun p => funext fun k => h0 p k
  have hx1 : ofV x1 = ofV a1 := funext fun k => funext fun q => h1 k q
  rw [hx0, hx1]
  exact mm_rows r (ofV a0) (ofV a1) p q

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point t the left window and the result window are at block row t,
    the right window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays as the call finds them. -/
theorem flushed_eq (c : Dev nD) (t : Fin cfg0.N) :
    (dat0 V c).flushed 2 t = ((cfg0.win 2).blk t).view.read (Elt Ideal) (G (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S1024x2048) hz, View.ld_unit_zero (S := S2048x5) hz]
  obtain ⟨e0, e1, e2, e3, e4, e5⟩ := idx_facts t
  have htN : t.val < 8 := Nat.lt_of_lt_of_eq t.isLt N_0
  funext j
  show k0_pay1 (F := Ideal) (iblk0 V c 0 t) (iblk0 V c 1 t) j
    = G (V c (Pipeline.arrRef spec0 0)) (V c (Pipeline.arrRef spec0 1)) (((cfg0.win 2).blk t).view.emb j)
  refine point (iblk0 V c 0 t) (iblk0 V c 1 t) (V c (Pipeline.arrRef spec0 0)) (V c (Pipeline.arrRef spec0 1))
    (fun p => ⟨1024 * t.val + p.val, by have := p.isLt; omega⟩) ?_ ?_ j (((cfg0.win 2).blk t).view.emb j) ?_ ?_
  · intro p k
    unfold iblk0
    rw [View.read_apply]
    refine congrArg (V c (Pipeline.arrRef spec0 0)) ?_
    funext a; apply Fin.ext
    match a with
    | ⟨0, _⟩ => show win0_0.index t (0 : Fin 2) * 1024 + 1 * p.val = 1024 * t.val + p.val; rw [e0]; omega
    | ⟨1, _⟩ => show win0_0.index t (1 : Fin 2) * 2048 + 1 * k.val = k.val; rw [e1]; omega
  · intro k q
    unfold iblk0
    rw [View.read_apply]
    refine congrArg (V c (Pipeline.arrRef spec0 1)) ?_
    funext a; apply Fin.ext
    match a with
    | ⟨0, _⟩ => show win0_1.index t (0 : Fin 2) * 2048 + 1 * k.val = k.val; rw [e2]; omega
    | ⟨1, _⟩ => show win0_1.index t (1 : Fin 2) * 5 + 1 * q.val = q.val; rw [e3]; omega
  · show win0_2.index t (0 : Fin 2) * 1024 + 1 * (j 0).val = 1024 * t.val + (j 0).val; rw [e4]; omega
  · show win0_2.index t (1 : Fin 2) * 5 + 1 * (j 1).val = (j 1).val; rw [e5]; omega

/-- An index of the result array is in point t's block iff each coordinate is in the block's range on its axis. -/
theorem mem_blk (t : Fin cfg0.N) (i : S8192x5.Idx) :
    i ∈ ((cfg0.win 2).blk t).view.set ↔ ∀ a : Fin 2, win0_2.index t a * S1024x5.size a ≤ (i a).val ∧ (i a).val < win0_2.index t a * S1024x5.size a + S1024x5.size a := by
  show i ∈ ((View.whole main_v3).slice (win0_2.rect t)).set ↔ _
  rw [View.set_slice_whole, Rect.mem_set_unit]
  exact Iff.rfl

/-- After the call the result array holds the product: row r is written by point r / 1024. -/
theorem final (c : Dev nD) :
    (dat0 V c).arrAt 2 cfg0.N = G (V c (Pipeline.arrRef spec0 0)) (V c (Pipeline.arrRef spec0 1)) :=
  (dat0 V c).arrAt_eq_of_cover 2 _ (fun t _ => flushed_eq V c t) fun i => by
    have hi0 : (i 0).val < 8192 := (i 0).isLt
    have hi1 : (i 1).val < 5 := (i 1).isLt
    refine ⟨⟨(i 0).val / 1024, by rw [show cfg0.N = 8 from N_0]; omega⟩, flush0_2 _, ?_⟩
    rw [mem_blk]
    obtain ⟨e0, e1, e2, e3, e4, e5⟩ := idx_facts ⟨(i 0).val / 1024, by rw [show cfg0.N = 8 from N_0]; omega⟩
    intro a
    match a with
    | ⟨0, _⟩ => show win0_2.index _ (0 : Fin 2) * 1024 ≤ (i 0).val ∧ (i 0).val < win0_2.index _ (0 : Fin 2) * 1024 + 1024; rw [e4]; dsimp only; omega
    | ⟨1, _⟩ => show win0_2.index _ (1 : Fin 2) * 5 ≤ (i 1).val ∧ (i 1).val < win0_2.index _ (1 : Fin 2) * 5 + 5; rw [e5]; omega

end Cert.KernelIdeal.R0

end
-- ==== Proof.KV1.lean ====
import proofs.«179721_j30537217474923_1_alg».proof.Proof.Gen.KernelIdeal.Frame
import proofs.«179721_j30537217474923_1_alg».proof.Proof.Spec
import proofs.«179721_j30537217474923_1_alg».proof.Proof.LibMatmulAt
import proofs.«179721_j30537217474923_1_alg».proof.Proof.Region0
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.KV

open Idealize.ShloMosaic.ValueIdx Cert.KernelIdeal Cert.KernelIdeal.Gen Cert.Spec

variable (m : (ℓ : Loc nD τ sig) → Buf (Elt Ideal) ℓ) (ρ : Dev nD → PrngReg)

/-- The 28 inputs as launched, on core c. -/
def args (c : Dev nD) : Spec.Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)
  x13 := m ((c : Thread nD τ).loc main_arg13)
  x14 := m ((c : Thread nD τ).loc main_arg14)
  x15 := m ((c : Thread nD τ).loc main_arg15)
  x16 := m ((c : Thread nD τ).loc main_arg16)
  x17 := m ((c : Thread nD τ).loc main_arg17)
  x18 := m ((c : Thread nD τ).loc main_arg18)
  x19 := m ((c : Thread nD τ).loc main_arg19)
  x20 := m ((c : Thread nD τ).loc main_arg20)
  x21 := m ((c : Thread nD τ).loc main_arg21)
  x22 := m ((c : Thread nD τ).loc main_arg22)
  x23 := m ((c : Thread nD τ).loc main_arg23)
  x24 := m ((c : Thread nD τ).loc main_arg24)
  x25 := m ((c : Thread nD τ).loc main_arg25)
  x26 := m ((c : Thread nD τ).loc main_arg26)
  x27 := m ((c : Thread nD τ).loc main_arg27)

/-! ## Where the host product's dimension numbers read their operands -/

private theorem h_l0 (i : S2048x5.Idx) (q : dot_S2048x8_S8x5_S2048x5_1_0_0_1_n_n.contr.Idx) :
    (dot_S2048x8_S8x5_S2048x5_1_0_0_1_n_n.lhsIdx i q 0).val = (i 0).val := by
  unfold DotDims.lhsIdx
  rw [dif_neg (show ¬(0 : Fin S2048x8.rank) ∈ dot_S2048x8_S8x5_S2048x5_1_0_0_1_n_n.lhsBatch by decide), dif_pos (show (0 : Fin S2048x8.rank) ∈ dot_S2048x8_S8x5_S2048x5_1_0_0_1_n_n.lhsNonContracting by decide)]
  rfl
private theorem h_l1 (i : S2048x5.Idx) (q : dot_S2048x8_S8x5_S2048x5_1_0_0_1_n_n.contr.Idx) :
    (dot_S2048x8_S8x5_S2048x5_1_0_0_1_n_n.lhsIdx i q 1).val = (q ⟨0, by decide⟩).val :=
  dot_S2048x8_S8x5_S2048x5_1_0_0_1_n_n.lhsIdx_val_of_single rfl i q
private theorem h_r0 (i : S2048x5.Idx) (q : dot_S2048x8_S8x5_S2048x5_1_0_0_1_n_n.contr.Idx) :
    (dot_S2048x8_S8x5_S2048x5_1_0_0_1_n_n.rhsIdx i q 0).val = (q ⟨0, by decide⟩).val :=
  dot_S2048x8_S8x5_S2048x5_1_0_0_1_n_n.rhsIdx_val_of_single rfl i q
private theorem h_r1 (i : S2048x5.Idx) (q : dot_S2048x8_S8x5_S2048x5_1_0_0_1_n_n.contr.Idx) :
    (dot_S2048x8_S8x5_S2048x5_1_0_0_1_n_n.rhsIdx i q 1).val = (i 1).val := by
  unfold DotDims.rhsIdx
  rw [dif_neg (show ¬(1 : Fin S8x5.rank) ∈ dot_S2048x8_S8x5_S2048x5_1_0_0_1_n_n.rhsBatch by decide), dif_pos (show (1 : Fin S8x5.rank) ∈ dot_S2048x8_S8x5_S2048x5_1_0_0_1_n_n.rhsNonContracting by decide)]
  rfl

/-- Entry (p, q) of the host's product of a 2048 × 8 and an 8 × 5 array is the sum over k of l[p, k] · r[k, q]. -/
private theorem hostDot_at (l : FVec Ideal S2048x8 .f32) (r : FVec Ideal S8x5 .f32) (p : Fin 2048) (q : Fin 5) :
    Host.dotGeneral (F := Ideal) dot_S2048x8_S8x5_S2048x5_1_0_0_1_n_n none l r (ix2 p q) = mm (ofV l) (ofV r) p q := by
  simp only [Host.dotGeneral]
  rw [Ideal.dotGeneral_apply, ← Equiv.sum_comp (ValueIdx.contrEquiv1 dot_S2048x8_S8x5_S2048x5_1_0_0_1_n_n 8 rfl rfl).symm]
  unfold mm
  refine Finset.sum_congr rfl fun k _ => ?_
  have hk := ValueIdx.contrEquiv1_symm_val dot_S2048x8_S8x5_S2048x5_1_0_0_1_n_n 8 rfl rfl k
  have el : dot_S2048x8_S8x5_S2048x5_1_0_0_1_n_n.lhsIdx (ix2 p q) ((ValueIdx.contrEquiv1 dot_S2048x8_S8x5_S2048x5_1_0_0_1_n_n 8 rfl rfl).symm k) = ix2 p k := funext fun a => Fin.ext (by
    match a with
    | ⟨0, _⟩ => exact h_l0 _ _
    | ⟨1, _⟩ => exact (h_l1 _ _).trans hk)
  have er : dot_S2048x8_S8x5_S2048x5_1_0_0_1_n_n.rhsIdx (ix2 p q) ((ValueIdx.contrEquiv1 dot_S2048x8_S8x5_S2048x5_1_0_0_1_n_n 8 rfl rfl).symm k) = ix2 k q := funext fun a => Fin.ext (by
    match a with
    | ⟨0, _⟩ => exact (h_r0 _ _).trans hk
    | ⟨1, _⟩ => exact h_r1 _ _)
  rw [el, er]
  rfl

/-- Entry (k, q) of one column joined with four: column 0 is the single column, column q ≥ 1 is column q − 1 of the four. -/
private theorem cat_at (a : Vec Ideal S8x1 .f32) (b : Vec Ideal S8x4 .f32) (k : Fin 8) (q : Fin 5) :
    concatenate S8x5 1 [⟨S8x1, a⟩, ⟨S8x4, b⟩] concatenates_S8x1_S8x4_S8x5_d1 (ix2 k q) = cat15 (ofV a) (ofV b) k q := by
  unfold cat15
  by_cases h : q.val < 1
  · rw [dif_pos h]
    refine concatenate_pair_apply_left (1 : Fin S8x5.rank) a b concatenates_S8x1_S8x4_S8x5_d1 (ix2 k q) rfl (ix2 k ⟨q.val, h⟩) ?_
    intro b'
    match b' with
    | ⟨0, _⟩ => rfl
    | ⟨1, _⟩ => rfl
  · rw [dif_neg h]
    refine concatenate_pair_apply_right (1 : Fin S8x5.rank) a b concatenates_S8x1_S8x4_S8x5_d1 (ix2 k q) rfl rfl (ix2 k ⟨q.val - 1, by have := q.isLt; omega⟩) ?_ ?_
    · intro b' hb
      match b' with
      | ⟨0, _⟩ => rfl
      | ⟨1, _⟩ => exact absurd rfl hb
    · show (q.val - 1) + 1 = q.val
      omega

/-- The five per-variable columns, as the host computes them before the first call: the problem-of-variable matrix
    times the flag column (converted to a number) joined with the four feature columns. -/
private theorem bv_eq (a : Spec.Args) :
    Host.dotGeneral (F := Ideal) (φ₁ := .f32) (φ₂ := .f32) dot_S2048x8_S8x5_S2048x5_1_0_0_1_n_n none a.x11
      (concatenate S8x5 1 [⟨S8x1, sitofp (F := Ideal) .f32 a.x6⟩, ⟨S8x4, a.x5⟩] concatenates_S8x1_S8x4_S8x5_d1)
      = toV (kBv a) := by
  funext i
  obtain ⟨p, q, rfl⟩ : ∃ (p : Fin 2048) (q : Fin 5), i = ix2 p q := ⟨i 0, i 1, eq_ix2 i⟩
  rw [hostDot_at]
  show mm (ofV a.x11) _ p q = mm (ofV a.x11) (cat15 (act a) (ofV a.x5)) p q
  refine congrArg (fun B => mm (ofV a.x11) B p q) ?_
  funext k j
  exact cat_at (sitofp (F := Ideal) .f32 a.x6) a.x5 k j

/-- The first call's left array is the edge-by-variable incidence matrix as launched: the host writes nothing to it. -/
private theorem in0_eq (c : Dev nD) : V1 m ρ c (Pipeline.arrRef spec0 0) = (args m c).x8 := by
  show StableHlo.after hostOps0 (W0 m ρ c) (Proc.devRef .tc main_arg8) = _
  after_results
  rfl

/-- The first call's right array is what the host's three operations leave: the product above. -/
private theorem in1_eq (c : Dev nD) : V1 m ρ c (Pipeline.arrRef spec0 1) = toV (kBv (args m c)) := by
  refine Eq.trans ?_ (bv_eq (args m c))
  show StableHlo.after hostOps0 (W0 m ρ c) (Proc.devRef .tc main_v2) = _
  after_results
  rfl

/-- After the first call its result array holds, per edge, the activity flag and the four features of the problem of
    the edge's variable. -/
theorem mg_eq (c : Dev nD) : W2 m ρ c (Proc.devRef .tc main_v3) = toV (kMg (args m c)) := by
  refine ((W2_arr m ρ c 2).trans (R0.final (V1 m ρ) c)).trans ?_
  rw [in0_eq, in1_eq]
  rfl

end Cert.KernelIdeal.KV

end
-- ==== Proof.Region1.lean ====
/-
  One call of the two-layer map applied to every edge before the node sums.

  The call works on four blocks of 2048 rows. At block t it loads rows 2048·t … 2048·t + 2047 of the decimator state
  (128 columns), of the edge features (2 columns) and of the per-edge graph features (4 columns), and the whole of
  the two weight matrices (134 × 256 and 256 × 128) and of the two bias rows. It joins the three row blocks side by
  side into a 2048 × 134 matrix, multiplies by the first weight matrix (into a zero accumulator; the change of number
  format before each product is the identity on the extended reals), adds the first bias row to every row, takes the
  maximum with 0, multiplies by the second weight matrix, adds the second bias row to every row, and stores the
  2048 × 128 result as rows 2048·t … of the result array.
  Row p of the result depends on row p of the three row-indexed operands only, so block t of the result is block t
  of the same map applied to the WHOLE arrays; the four blocks tile the result, so after the call the result array
  holds that map of the arrays the call reads.
-/
import proofs.«179721_j30537217474923_1_alg».proof.Proof.Gen.KernelIdeal.Frame
import proofs.«179721_j30537217474923_1_alg».proof.Proof.Spec
import proofs.«179721_j30537217474923_1_alg».proof.Proof.LibMatmulAt
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.R1

open Idealize.ShloMosaic.ValueIdx Cert.KernelIdeal Cert.KernelIdeal.Gen Cert.Spec

/-! ## Where the two products' dimension numbers read their operands -/

theorem d1_l0 (i : S2048x256.Idx) (q : dot_S2048x134_S134x256_S2048x256_1_0_0_1_n_n.contr.Idx) : (dot_S2048x134_S134x256_S2048x256_1_0_0_1_n_n.lhsIdx i q 0).val = (i 0).val := by
  unfold DotDims.lhsIdx
  rw [dif_neg (show ¬(0 : Fin S2048x134.rank) ∈ dot_S2048x134_S134x256_S2048x256_1_0_0_1_n_n.lhsBatch by decide), dif_pos (show (0 : Fin S2048x134.rank) ∈ dot_S2048x134_S134x256_S2048x256_1_0_0_1_n_n.lhsNonContracting by decide)]
  rfl
theorem d1_l1 (i : S2048x256.Idx) (q : dot_S2048x134_S134x256_S2048x256_1_0_0_1_n_n.contr.Idx) : (dot_S2048x134_S134x256_S2048x256_1_0_0_1_n_n.lhsIdx i q 1).val = (q ⟨0, by decide⟩).val :=
  dot_S2048x134_S134x256_S2048x256_1_0_0_1_n_n.lhsIdx_val_of_single rfl i q
theorem d1_r0 (i : S2048x256.Idx) (q : dot_S2048x134_S134x256_S2048x256_1_0_0_1_n_n.contr.Idx) : (dot_S2048x134_S134x256_S2048x256_1_0_0_1_n_n.rhsIdx i q 0).val = (q ⟨0, by decide⟩).val :=
  dot_S2048x134_S134x256_S2048x256_1_0_0_1_n_n.rhsIdx_val_of_single rfl i q
theorem d1_r1 (i : S2048x256.Idx) (q : dot_S2048x134_S134x256_S2048x256_1_0_0_1_n_n.contr.Idx) : (dot_S2048x134_S134x256_S2048x256_1_0_0_1_n_n.rhsIdx i q 1).val = (i 1).val := by
  unfold DotDims.rhsIdx
  rw [dif_neg (show ¬(1 : Fin S134x256.rank) ∈ dot_S2048x134_S134x256_S2048x256_1_0_0_1_n_n.rhsBatch by decide), dif_pos (show (1 : Fin S134x256.rank) ∈ dot_S2048x134_S134x256_S2048x256_1_0_0_1_n_n.rhsNonContracting by decide)]
  rfl

theorem d2_l0 (i : S2048x128.Idx) (q : dot_S2048x256_S256x128_S2048x128_1_0_0_1_n_n.contr.Idx) : (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem d2_l1 (i : S2048x128.Idx) (q : dot_S2048x256_S256x128_S2048x128_1_0_0_1_n_n.contr.Idx) : (dot_S2048x256_S256x128_S2048x128_1_0_0_1_n_n.lhsIdx i q 1).val = (q ⟨0, by decide⟩).val :=
  dot_S2048x256_S256x128_S2048x128_1_0_0_1_n_n.lhsIdx_val_of_single rfl i q
theorem d2_r0 (i : S2048x128.Idx) (q : dot_S2048x256_S256x128_S2048x128_1_0_0_1_n_n.contr.Idx) : (dot_S2048x256_S256x128_S2048x128_1_0_0_1_n_n.rhsIdx i q 0).val = (q ⟨0, by decide⟩).val :=
  dot_S2048x256_S256x128_S2048x128_1_0_0_1_n_n.rhsIdx_val_of_single rfl i q
theorem d2_r1 (i : S2048x128.Idx) (q : dot_S2048x256_S256x128_S2048x128_1_0_0_1_n_n.contr.Idx) : (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-! ## The pieces of the body's value at an entry -/

/-- A one-row array repeated over M rows, read at (p, q), is the row's entry q. -/
theorem row_bcast_at {M N : Nat} (hN : N ≠ 1) (x : (⟨2, ![1, N]⟩ : Shape).Idx → EReal)
    (h : (⟨2, ![1, N]⟩ : Shape).Broadcasts (⟨2, ![M, N]⟩ : Shape)) (p : Fin M) (q : Fin N) :
    broadcastTo (⟨2, ![M, N]⟩ : Shape) x h (ix2 p q) = x (ix2 0 q) := by
  refine broadcastTo_apply x h (ix2 p q) (ix2 0 q) fun a => ?_
  match a with
  | ⟨0, _⟩ => exact (if_pos rfl).symm
  | ⟨1, _⟩ => exact (if_neg hN).symm

/-- The three blocks joined along the columns, read at (p, k): the block whose column range holds k, at k less the
    widths before it. -/
theorem cat_at (x0 : Vec Ideal S2048x128 .f32) (x1 : Vec Ideal S2048x2 .f32) (x2 : Vec Ideal S2048x4 .f32) (p : Fin 2048) (k : Fin 134) :
    concatenate S2048x134 1 [⟨S2048x128, x0⟩, ⟨S2048x2, x1⟩, ⟨S2048x4, x2⟩] concatenates_S2048x128_S2048x2_S2048x4_S2048x134_d1 (ix2 p k)
      = cat3 (ofV x0) (ofV x1) (ofV x2) p k := by
  have hk := k.isLt
  unfold cat3
  by_cases h : k.val < 128
  · rw [dif_pos h]
    refine concatenate_apply_piece (t := S2048x134) 1 _ _ (ix2 p k) 0 (by show (0 : Nat) < 3; omega) S2048x128 x0 rfl rfl 0 rfl (ix2 p ⟨k.val, h⟩) ?_ ?_
    · intro b hb
      match b with
      | ⟨0, _⟩ => rfl
      | ⟨1, _⟩ => exact absurd (Fin.ext rfl) hb
    · show 0 + k.val = k.val; omega
  · rw [dif_neg h]
    by_cases h2 : k.val < 130
    · rw [dif_pos h2]
      refine concatenate_apply_piece (t := S2048x134) 1 _ _ (ix2 p k) 1 (by show (1 : Nat) < 3; omega) S2048x2 x1 rfl rfl 128 rfl (ix2 p ⟨k.val - 128, by omega⟩) ?_ ?_
      · intro b hb
        match b with
        | ⟨0, _⟩ => rfl
        | ⟨1, _⟩ => exact absurd (Fin.ext rfl) hb
      · show 128 + (k.val - 128) = k.val; omega
    · rw [dif_neg h2]
      refine concatenate_apply_piece (t := S2048x134) 1 _ _ (ix2 p k) 2 (by show (2 : Nat) < 3; omega) S2048x4 x2 rfl rfl 130 rfl (ix2 p ⟨k.val - 130, by omega⟩) ?_ ?_
      · intro b hb
        match b with
        | ⟨0, _⟩ => rfl
        | ⟨1, _⟩ => exact absurd (Fin.ext rfl) hb
      · show 130 + (k.val - 130) = k.val; omega

/-! ## The body's value at an entry -/

/-- Entry (p, q) of what the body stores is the two-layer map of the loaded blocks at (p, q): the changes of number
    format before each product are the identity on the extended reals, each product is into a zero accumulator, each
    bias row is repeated over the rows, and the maximum is with the zero word. -/
theorem pay_at (x0 : Vec Ideal S2048x128 .f32) (x1 : Vec Ideal S2048x2 .f32) (x2 : Vec Ideal S2048x4 .f32) (x3 : Vec Ideal S134x256 .f32) (x4 : Vec Ideal S1x256 .f32) (x5 : Vec Ideal S256x128 .f32) (x6 : Vec Ideal S1x128 .f32) (p : Fin 2048) (q : Fin 128) :
    k1_pay1 (F := Ideal) x0 x1 x2 x3 x4 x5 x6 (ix2 p q) = head (ofV x0) (ofV x1) (ofV x2) (ofV x3) (ofRow x4) (ofV x5) (ofRow x6) p q := by
  unfold k1_pay1
  rw [shapeCast_self, shapeCast_self, shapeCast_self, addf_apply]
  unfold head
  refine congrArg₂ (fun a b : EReal => a + b) ?_ (row_bcast_at (by decide) x6 _ p q)
  refine (MatmulAt.matmul_zero_at dot_S2048x256_S256x128_S2048x128_1_0_0_1_n_n rfl rfl d2_l0 d2_l1 d2_r0 d2_r1 none _ _ p q).trans ?_
  unfold mm
  refine Finset.sum_congr rfl fun k _ => ?_
  refine congrArg₂ (fun a b : EReal => a * b) ?_ rfl
  rw [truncf_apply, maximumf_apply, addf_apply]
  unfold relu
  refine congrArg₂ (fun a b : EReal => max a b) (congrArg₂ (fun a b : EReal => a + b) ?_ (row_bcast_at (by decide) x4 _ p k)) Ideal.ofBits_zero_f32
  refine (MatmulAt.matmul_zero_at dot_S2048x134_S134x256_S2048x256_1_0_0_1_n_n rfl rfl d1_l0 d1_l1 d1_r0 d1_r1 none _ _ p k).trans ?_
  refine Finset.sum_congr rfl fun m _ => ?_
  exact congrArg₂ (fun a b : EReal => a * b) (cat_at x0 x1 x2 p m) rfl

/-- What the result array holds after the call, as a function of the arrays the call reads. -/
def G (a0 : Vec Ideal S8192x128 .f32) (a1 : Vec Ideal S8192x2 .f32) (a2 : Vec Ideal S8192x4 .f32) (a3 : Vec Ideal S134x256 .f32) (a4 : Vec Ideal S1x256 .f32) (a5 : Vec Ideal S256x128 .f32) (a6 : Vec Ideal S1x128 .f32) : Vec Ideal S8192x128 .f32 :=
  toV (head (ofV a0) (ofV a1) (ofV a2) (ofV a3) (ofRow a4) (ofV a5) (ofRow a6))

/-- If the three row blocks are rows `r p` of their arrays and the weights and biases are their arrays, the body's
    value at `y` is the whole map at the index with row `r (y 0)` and `y`'s column. -/
theorem point (x0 : Vec Ideal S2048x128 .f32) (x1 : Vec Ideal S2048x2 .f32) (x2 : Vec Ideal S2048x4 .f32) (x3 : Vec Ideal S134x256 .f32) (x4 : Vec Ideal S1x256 .f32) (x5 : Vec Ideal S256x128 .f32) (x6 : Vec Ideal S1x128 .f32)
    (a0 : Vec Ideal S8192x128 .f32) (a1 : Vec Ideal S8192x2 .f32) (a2 : Vec Ideal S8192x4 .f32) (a3 : Vec Ideal S134x256 .f32) (a4 : Vec Ideal S1x256 .f32) (a5 : Vec Ideal S256x128 .f32) (a6 : Vec Ideal S1x128 .f32)
    (r : Fin 2048 → Fin 8192)
    (h0 : ∀ (p : Fin 2048) (k : Fin 128), x0 (ix2 p k) = a0 (ix2 (r p) k))
    (h1 : ∀ (p : Fin 2048) (k : Fin 2), x1 (ix2 p k) = a1 (ix2 (r p) k))
    (h2 : ∀ (p : Fin 2048) (k : Fin 4), x2 (ix2 p k) = a2 (ix2 (r p) k))
    (h3 : ∀ (k : Fin 134) (q : Fin 256), x3 (ix2 k q) = a3 (ix2 k q))
    (h4 : ∀ q : Fin 256, x4 (ix2 0 q) = a4 (ix2 0 q))
    (h5 : ∀ (k : Fin 256) (q : Fin 128), x5 (ix2 k q) = a5 (ix2 k q))
    (h6 : ∀ q : Fin 128, x6 (ix2 0 q) = a6 (ix2 0 q))
    (y : S2048x128.Idx) (i : S8192x128.Idx) (hi0 : (i 0).val = (r (y 0)).val) (hi1 : (i 1).val = (y 1).val) :
    k1_pay1 (F := Ideal) x0 x1 x2 x3 x4 x5 x6 y = G a0 a1 a2 a3 a4 a5 a6 i := by
  obtain ⟨p, q, rfl⟩ : ∃ (p : Fin 2048) (q : Fin 128), y = ix2 p q := ⟨y 0, y 1, eq_ix2 y⟩
  rw [pay_at]
  have e0 : i 0 = r p := Fin.ext hi0
  have e1 : i 1 = q := Fin.ext hi1
  show head (ofV x0) (ofV x1) (ofV x2) (ofV x3) (ofRow x4) (ofV x5) (ofRow x6) p q
    = head (ofV a0) (ofV a1) (ofV a2) (ofV a3) (ofRow a4) (ofV a5) (ofRow a6) (i 0) (i 1)
  rw [e0, e1]
  have hx0 : ofV x0 = fun p k => ofV a0 (r p) k := funext fun p => funext fun k => h0 p k
  have hx1 : ofV x1 = fun p k => ofV a1 (r p) k := funext fun p => funext fun k => h1 p k
  have hx2 : ofV x2 = fun p k => ofV a2 (r p) k := funext fun p => funext fun k => h2 p k
  have hx3 : ofV x3 = ofV a3 := funext fun k => funext fun q => h3 k q
  have hx4 : ofRow x4 = ofRow a4 := funext fun q => h4 q
  have hx5 : ofV x5 = ofV a5 := funext fun k => funext fun q => h5 k q
  have hx6 : ofRow x6 = ofRow a6 := funext fun q => h6 q
  rw [hx0, hx1, hx2, hx3, hx4, hx5, hx6]
  exact head_rows r (ofV a0) (ofV a1) (ofV a2) (ofV a3) (ofRow a4) (ofV a5) (ofRow a6) p q

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-! The printed index maps, decided over the grid: at point t the three row-blocked windows and the result window are
    at block row t, the two weight windows and the two bias windows at block (0, 0). -/

theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx2 : ∀ t : Fin cfg1.N, win1_2.index t (0 : Fin 2) = t.val ∧ win1_2.index t (1 : Fin 2) = 0 :=
  (by decide +kernel : ∀ t : Fin grid1.N, _)
theorem idx3 : ∀ t : Fin cfg1.N, win1_3.index t (0 : Fin 2) = 0 ∧ win1_3.index t (1 : Fin 2) = 0 :=
  (by decide +kernel : ∀ t : Fin grid1.N, _)
theorem idx4 : ∀ t : Fin cfg1.N, win1_4.index t (0 : Fin 2) = 0 ∧ win1_4.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)
theorem idx7 : ∀ t : Fin cfg1.N, win1_7.index t (0 : Fin 2) = t.val ∧ win1_7.index t (1 : Fin 2) = 0 :=
  (by decide +kernel : ∀ t : Fin grid1.N, _)

/-- Row p of block t is row 2048·t + p of the array. -/
def rowOf (t : Fin cfg1.N) (p : Fin 2048) : Fin 8192 :=
  ⟨2048 * t.val + p.val, by have := p.isLt; have := Nat.lt_of_lt_of_eq t.isLt N_1; omega⟩

/-! Each window's block at point t, read at an entry, is its array at the entry the block's position sends it to: a
    block's coordinate is its block index times the block's extent plus the coordinate inside the block. -/

theorem rd0 (c : Dev nD) (t : Fin cfg1.N) (p : Fin 2048) (k : Fin 128) :
    (iblk1 V c 0 t : Vec Ideal S2048x128 .f32) (ix2 p k) = (V c (Pipeline.arrRef spec1 0)) (ix2 (rowOf t p) k) := by
  obtain ⟨er, ec⟩ := idx0 t
  unfold iblk1
  rw [View.read_apply]
  refine congrArg (V c (Pipeline.arrRef spec1 0)) ?_
  funext a; apply Fin.ext
  match a with
  | ⟨0, _⟩ => show win1_0.index t (0 : Fin 2) * 2048 + 1 * p.val = 2048 * t.val + p.val; rw [er]; omega
  | ⟨1, _⟩ => show win1_0.index t (1 : Fin 2) * 128 + 1 * k.val = k.val; rw [ec]; omega
theorem rd1 (c : Dev nD) (t : Fin cfg1.N) (p : Fin 2048) (k : Fin 2) :
    (iblk1 V c 1 t : Vec Ideal S2048x2 .f32) (ix2 p k) = (V c (Pipeline.arrRef spec1 1)) (ix2 (rowOf t p) k) := by
  obtain ⟨er, ec⟩ := idx1 t
  unfold iblk1
  rw [View.read_apply]
  refine congrArg (V c (Pipeline.arrRef spec1 1)) ?_
  funext a; apply Fin.ext
  match a with
  | ⟨0, _⟩ => show win1_1.index t (0 : Fin 2) * 2048 + 1 * p.val = 2048 * t.val + p.val; rw [er]; omega
  | ⟨1, _⟩ => show win1_1.index t (1 : Fin 2) * 2 + 1 * k.val = k.val; rw [ec]; omega
theorem rd2 (c : Dev nD) (t : Fin cfg1.N) (p : Fin 2048) (k : Fin 4) :
    (iblk1 V c 2 t : Vec Ideal S2048x4 .f32) (ix2 p k) = (V c (Pipeline.arrRef spec1 2)) (ix2 (rowOf t p) k) := by
  obtain ⟨er, ec⟩ := idx2 t
  unfold iblk1
  rw [View.read_apply]
  refine congrArg (V c (Pipeline.arrRef spec1 2)) ?_
  funext a; apply Fin.ext
  match a with
  | ⟨0, _⟩ => show win1_2.index t (0 : Fin 2) * 2048 + 1 * p.val = 2048 * t.val + p.val; rw [er]; omega
  | ⟨1, _⟩ => show win1_2.index t (1 : Fin 2) * 4 + 1 * k.val = k.val; rw [ec]; omega
theorem rd3 (c : Dev nD) (t : Fin cfg1.N) (k : Fin 134) (q : Fin 256) :
    (iblk1 V c 3 t : Vec Ideal S134x256 .f32) (ix2 k q) = (V c (Pipeline.arrRef spec1 3)) (ix2 k q) := by
  obtain ⟨er, ec⟩ := idx3 t
  unfold iblk1
  rw [View.read_apply]
  refine congrArg (V c (Pipeline.arrRef spec1 3)) ?_
  funext a; apply Fin.ext
  match a with
  | ⟨0, _⟩ => show win1_3.index t (0 : Fin 2) * 134 + 1 * k.val = k.val; rw [er]; omega
  | ⟨1, _⟩ => show win1_3.index t (1 : Fin 2) * 256 + 1 * q.val = q.val; rw [ec]; omega
theorem rd4 (c : Dev nD) (t : Fin cfg1.N) (q : Fin 256) :
    (iblk1 V c 4 t : Vec Ideal S1x256 .f32) (ix2 0 q) = (V c (Pipeline.arrRef spec1 4)) (ix2 0 q) := by
  obtain ⟨er, ec⟩ := idx4 t
  unfold iblk1
  rw [View.read_apply]
  refine congrArg (V c (Pipeline.arrRef spec1 4)) ?_
  funext a; apply Fin.ext
  match a with
  | ⟨0, _⟩ => show win1_4.index t (0 : Fin 2) * 1 + 1 * 0 = 0; rw [er]
  | ⟨1, _⟩ => show win1_4.index t (1 : Fin 2) * 256 + 1 * q.val = q.val; rw [ec]; omega
theorem rd5 (c : Dev nD) (t : Fin cfg1.N) (k : Fin 256) (q : Fin 128) :
    (iblk1 V c 5 t : Vec Ideal S256x128 .f32) (ix2 k q) = (V c (Pipeline.arrRef spec1 5)) (ix2 k q) := by
  obtain ⟨er, ec⟩ := idx5 t
  unfold iblk1
  rw [View.read_apply]
  refine congrArg (V c (Pipeline.arrRef spec1 5)) ?_
  funext a; apply Fin.ext
  match a with
  | ⟨0, _⟩ => show win1_5.index t (0 : Fin 2) * 256 + 1 * k.val = k.val; rw [er]; omega
  | ⟨1, _⟩ => show win1_5.index t (1 : Fin 2) * 128 + 1 * q.val = q.val; rw [ec]; omega
theorem rd6 (c : Dev nD) (t : Fin cfg1.N) (q : Fin 128) :
    (iblk1 V c 6 t : Vec Ideal S1x128 .f32) (ix2 0 q) = (V c (Pipeline.arrRef spec1 6)) (ix2 0 q) := by
  obtain ⟨er, ec⟩ := idx6 t
  unfold iblk1
  rw [View.read_apply]
  refine congrArg (V c (Pipeline.arrRef spec1 6)) ?_
  funext a; apply Fin.ext
  match a with
  | ⟨0, _⟩ => show win1_6.index t (0 : Fin 2) * 1 + 1 * 0 = 0; rw [er]
  | ⟨1, _⟩ => show win1_6.index t (1 : Fin 2) * 128 + 1 * q.val = q.val; rw [ec]; omega

/-- What point t writes back is block t of the map of the arrays as the call finds them. -/
theorem flushed_eq (c : Dev nD) (t : Fin cfg1.N) :
    (dat1 V c).flushed 7 t = ((cfg1.win 7).blk t).view.read (Elt Ideal) (G (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) := by
  show (cfg1.win 7).cut (grid1.coords t) ((dat1 V c).after 7 t) = _
  rw [after1_7]
  unfold out1_7
  rw [View.canon_unit_zero hz]
  simp only [View.ld_unit_zero (S := S2048x128) hz, View.ld_unit_zero (S := S2048x2) hz, View.ld_unit_zero (S := S2048x4) hz, View.ld_unit_zero (S := S134x256) hz, View.ld_unit_zero (S := S1x256) hz, View.ld_unit_zero (S := S256x128) hz, View.ld_unit_zero (S := S1x128) hz]
  obtain ⟨er, ec⟩ := idx7 t
  funext j
  show k1_pay1 (F := Ideal) (iblk1 V c 0 t) (iblk1 V c 1 t) (iblk1 V c 2 t) (iblk1 V c 3 t) (iblk1 V c 4 t) (iblk1 V c 5 t) (iblk1 V c 6 t) j
    = G (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (((cfg1.win 7).blk t).view.emb j)
  refine point (iblk1 V c 0 t) (iblk1 V c 1 t) (iblk1 V c 2 t) (iblk1 V c 3 t) (iblk1 V c 4 t) (iblk1 V c 5 t) (iblk1 V c 6 t)
    (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))
    (rowOf t) (rd0 V c t) (rd1 V c t) (rd2 V c t) (rd3 V c t) (rd4 V c t) (rd5 V c t) (rd6 V c t) j (((cfg1.win 7).blk t).view.emb j) ?_ ?_
  · show win1_7.index t (0 : Fin 2) * 2048 + 1 * (j 0).val = 2048 * t.val + (j 0).val; rw [er]; omega
  · show win1_7.index t (1 : Fin 2) * 128 + 1 * (j 1).val = (j 1).val; rw [ec]; omega

/-- An index of the result array is in point t's block iff each coordinate is in the block's range on its axis. -/
theorem mem_blk (t : Fin cfg1.N) (i : S8192x128.Idx) :
    i ∈ ((cfg1.win 7).blk t).view.set ↔ ∀ a : Fin 2, win1_7.index t a * S2048x128.size a ≤ (i a).val ∧ (i a).val < win1_7.index t a * S2048x128.size a + S2048x128.size a := by
  show i ∈ ((View.whole main_v8).slice (win1_7.rect t)).set ↔ _
  rw [View.set_slice_whole, Rect.mem_set_unit]
  exact Iff.rfl

/-- After the call the result array holds the map of the arrays it read: row r is written by point r / 2048. -/
theorem final (c : Dev nD) :
    (dat1 V c).arrAt 7 cfg1.N = G (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) := by
  refine (dat1 V c).arrAt_eq_of_cover 7 _ (fun t _ => flushed_eq V c t) fun i => ?_
  have hi0 : (i 0).val < 8192 := (i 0).isLt
  have hi1 : (i 1).val < 128 := (i 1).isLt
  refine ⟨⟨(i 0).val / 2048, by rw [show cfg1.N = 4 from N_1]; omega⟩, flush1_7 _, ?_⟩
  rw [mem_blk]
  obtain ⟨er, ec⟩ := idx7 ⟨(i 0).val / 2048, by rw [show cfg1.N = 4 from N_1]; omega⟩
  intro a
  match a with
  | ⟨0, _⟩ => show win1_7.index _ (0 : Fin 2) * 2048 ≤ (i 0).val ∧ (i 0).val < win1_7.index _ (0 : Fin 2) * 2048 + 2048; rw [er]; dsimp only; omega
  | ⟨1, _⟩ => show win1_7.index _ (1 : Fin 2) * 128 ≤ (i 1).val ∧ (i 1).val < win1_7.index _ (1 : Fin 2) * 128 + 128; rw [ec]; omega

end Cert.KernelIdeal.R1

end
-- ==== Proof.KV2.lean ====
import proofs.«179721_j30537217474923_1_alg».proof.Proof.Gen.KernelIdeal.Frame
import proofs.«179721_j30537217474923_1_alg».proof.Proof.Spec
import proofs.«179721_j30537217474923_1_alg».proof.Proof.LibMatmulAt
import proofs.«179721_j30537217474923_1_alg».proof.Proof.KV1
import proofs.«179721_j30537217474923_1_alg».proof.Proof.Region1
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.KV

open Idealize.ShloMosaic.ValueIdx Cert.KernelIdeal Cert.KernelIdeal.Gen Cert.Spec

variable (m : (ℓ : Loc nD τ sig) → Buf (Elt Ideal) ℓ) (ρ : Dev nD → PrngReg)

/-- Column 0 of the first call's result, cut out by the host: the per-edge mask. -/
theorem mask_eq (c : Dev nD) : W3 m ρ c (Proc.devRef .tc main_v4) = (fun i : S8192x1.Idx => kMask (args m c) (i 0)) := by
  -- the host writes the slice of the first call's result at offsets (0, 0)
  show StableHlo.after hostOps1 (W2 m ρ c) (Proc.devRef .tc main_v4) = _
  after_results
  rw [mg_eq]
  funext i
  obtain ⟨p, q, rfl⟩ : ∃ (p : Fin 8192) (q : Fin 1), i = ix2 p q := ⟨i 0, i 1, eq_ix2 i⟩
  -- entry (p, q) of the slice is entry (p, 0 + q) = (p, 0) of the five-column matrix
  refine (slice2_axis1_apply 0 (toV (kMg (args m c))) slices_S8192x5_S8192x1_0_0 p q (0 : Fin 5)
    (by have := q.isLt; show 0 = 0 + q.val; omega)).trans ?_
  rfl

/-- Columns 1 to 4 of the first call's result, cut out by the host: the per-edge graph features. -/
theorem graph_eq (c : Dev nD) : W3 m ρ c (Proc.devRef .tc main_v5) = toV (kGraph (args m c)) := by
  -- the host writes the slice of the first call's result at offsets (0, 1)
  show StableHlo.after hostOps1 (W2 m ρ c) (Proc.devRef .tc main_v5) = _
  after_results
  rw [mg_eq]
  funext i
  obtain ⟨p, q, rfl⟩ : ∃ (p : Fin 8192) (q : Fin 4), i = ix2 p q := ⟨i 0, i 1, eq_ix2 i⟩
  -- entry (p, q) of the slice is entry (p, 1 + q) of the five-column matrix
  refine (slice2_axis1_apply 1 (toV (kMg (args m c))) slices_S8192x5_S8192x4_0_1 p q
    (⟨q.val + 1, by have := q.isLt; omega⟩ : Fin 5) (by show q.val + 1 = 1 + q.val; omega)).trans ?_
  rfl

/-- A buffer that the host operations before the first call do not write, and that is none of the first call's arrays,
    holds at the first call's exit what it was launched with. -/
private theorem W2_launch (c : Dev nD) (b : Ref sig .tc)
    (h0 : b ≠ main_v0 ∧ b ≠ main_v1 ∧ b ≠ main_v2) (hs : ∀ w, Pipeline.arrRef spec0 w ≠ b) :
    W2 m ρ c (Proc.devRef .tc b) = m ((c : Thread nD τ).loc b) :=
  calc W2 m ρ c (Proc.devRef .tc b)
    _ = W1 m ρ c (Proc.devRef .tc b) := W2_of_ne m ρ c b hs
    _ = W0 m ρ c (Proc.devRef .tc b) := StableHlo.after_of_forall_not_mem (b := Proc.devRef .tc b) _ _ (List.forall_iff_forall_mem.mp (by
          simp only [hostOps0, List.Forall, StableHlo.unary_writes, StableHlo.binary_writes, Finset.mem_singleton]
          exact ⟨StableHlo.devRef_ne_of_ne h0.1, StableHlo.devRef_ne_of_ne h0.2.1, StableHlo.devRef_ne_of_ne h0.2.2⟩))
    _ = m ((c : Thread nD τ).loc b) := rfl

/-- If moreover the host operations between the first two calls do not write it, it still holds that at the second
    call's entry. -/
private theorem W3_launch (c : Dev nD) (b : Ref sig .tc)
    (h1 : b ≠ main_v4 ∧ b ≠ main_v5 ∧ b ≠ main_v6 ∧ b ≠ main_v7)
    (h0 : b ≠ main_v0 ∧ b ≠ main_v1 ∧ b ≠ main_v2) (hs : ∀ w, Pipeline.arrRef spec0 w ≠ b) :
    W3 m ρ c (Proc.devRef .tc b) = m ((c : Thread nD τ).loc b) :=
  calc W3 m ρ c (Proc.devRef .tc b)
    _ = W2 m ρ c (Proc.devRef .tc b) := StableHlo.after_of_forall_not_mem (b := Proc.devRef .tc b) _ _ (List.forall_iff_forall_mem.mp (by
          simp only [hostOps1, List.Forall, StableHlo.unary_writes, StableHlo.reshape_writes, Finset.mem_singleton]
          exact ⟨StableHlo.devRef_ne_of_ne h1.1, StableHlo.devRef_ne_of_ne h1.2.1, StableHlo.devRef_ne_of_ne h1.2.2.1,
            StableHlo.devRef_ne_of_ne h1.2.2.2⟩))
    _ = m ((c : Thread nD τ).loc b) := W2_launch m ρ c b h0 hs

/-- The first bias of the second call, reshaped by the host to one row of 256: read as a row it is the launched
    rank-1 array. -/
private theorem row_v6 (c : Dev nD) : ofRow (W3 m ρ c (Proc.devRef .tc main_v6)) = ofV1 (args m c).x13 := by
  have e : W3 m ρ c (Proc.devRef .tc main_v6)
      = shapeCast S1x256 (W2 m ρ c (Proc.devRef .tc main_arg13)) shapeCasts_S256_S1x256 := by
    show StableHlo.after hostOps1 (W2 m ρ c) (Proc.devRef .tc main_v6) = _
    after_results
    rfl
  rw [e, W2_launch m ρ c main_arg13 (by decide) (by decide)]
  funext q
  exact shapeCast_a_1a_apply (m ((c : Thread nD τ).loc main_arg13)) shapeCasts_S256_S1x256 0 q

/-- The second bias of the second call, reshaped by the host to one row of 128, likewise. -/
private theorem row_v7 (c : Dev nD) : ofRow (W3 m ρ c (Proc.devRef .tc main_v7)) = ofV1 (args m c).x15 := by
  have e : W3 m ρ c (Proc.devRef .tc main_v7)
      = shapeCast S1x128 (W2 m ρ c (Proc.devRef .tc main_arg15)) shapeCasts_S128_S1x128 := by
    show StableHlo.after hostOps1 (W2 m ρ c) (Proc.devRef .tc main_v7) = _
    after_results
    rfl
  rw [e, W2_launch m ρ c main_arg15 (by decide) (by decide)]
  funext q
  exact shapeCast_a_1a_apply (m ((c : Thread nD τ).loc main_arg15)) shapeCasts_S128_S1x128 0 q

/-- After the second call its result array holds the variable branch's per-edge messages. -/
theorem hv_eq (c : Dev nD) : W4 m ρ c (Proc.devRef .tc main_v8) = toV (kHv (args m c)) := by
  -- the result array at the call's exit is the call's function of its seven input arrays at entry
  refine ((W4_arr m ρ c 7).trans (R1.final (V3 m ρ) c)).trans ?_
  show R1.G (W3 m ρ c (Proc.devRef .tc main_arg2)) (W3 m ρ c (Proc.devRef .tc main_arg4))
      (W3 m ρ c (Proc.devRef .tc main_v5)) (W3 m ρ c (Proc.devRef .tc main_arg12))
      (W3 m ρ c (Proc.devRef .tc main_v6)) (W3 m ρ c (Proc.devRef .tc main_arg14))
      (W3 m ρ c (Proc.devRef .tc main_v7)) = _
  -- four inputs are launched arrays, one is the graph features, two are the reshaped biases
  rw [W3_launch m ρ c main_arg2 (by decide) (by decide) (by decide),
    W3_launch m ρ c main_arg4 (by decide) (by decide) (by decide),
    W3_launch m ρ c main_arg12 (by decide) (by decide) (by decide),
    W3_launch m ρ c main_arg14 (by decide) (by decide) (by decide), graph_eq]
  unfold R1.G kHv
  rw [row_v6, row_v7]
  rfl

end Cert.KernelIdeal.KV

end
-- ==== Proof.Region2.lean ====
/-
  Kernel call 2 (calls are counted from 0): a node-by-edge incidence matrix times the 128 columns of per-edge
  messages, which gives the per-node sums.

  The call works on eight blocks of 256 rows. At block t it loads rows 256·t … 256·t + 255 of the 2048 × 8192
  incidence matrix and the whole 8192 × 128 right factor, multiplies them (into a zero accumulator; the change of
  number format before the product is the identity on the extended reals) and stores the 256 × 128 product as rows
  256·t … of the result. Row p of a product depends on row p of the left factor only, so block t of the result is
  block t of the product of the WHOLE arrays; the eight blocks tile the result, so after the call the result array
  holds that product.
-/
import proofs.«179721_j30537217474923_1_alg».proof.Proof.Gen.KernelIdeal.Frame
import proofs.«179721_j30537217474923_1_alg».proof.Proof.Spec
import proofs.«179721_j30537217474923_1_alg».proof.Proof.LibMatmulAt
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.R2

open Idealize.ShloMosaic.ValueIdx Cert.KernelIdeal Cert.KernelIdeal.Gen Cert.Spec

/-! ## Where the product's dimension numbers read their operands -/

theorem d_l0 (i : S256x128.Idx) (q : dot_S256x8192_S8192x128_S256x128_1_0_0_1_n_n.contr.Idx) : (dot_S256x8192_S8192x128_S256x128_1_0_0_1_n_n.lhsIdx i q 0).val = (i 0).val := by
  unfold DotDims.lhsIdx
  rw [dif_neg (show ¬(0 : Fin S256x8192.rank) ∈ dot_S256x8192_S8192x128_S256x128_1_0_0_1_n_n.lhsBatch by decide), dif_pos (show (0 : Fin S256x8192.rank) ∈ dot_S256x8192_S8192x128_S256x128_1_0_0_1_n_n.lhsNonContracting by decide)]
  rfl
theorem d_l1 (i : S256x128.Idx) (q : dot_S256x8192_S8192x128_S256x128_1_0_0_1_n_n.contr.Idx) : (dot_S256x8192_S8192x128_S256x128_1_0_0_1_n_n.lhsIdx i q 1).val = (q ⟨0, by decide⟩).val :=
  dot_S256x8192_S8192x128_S256x128_1_0_0_1_n_n.lhsIdx_val_of_single rfl i q
theorem d_r0 (i : S256x128.Idx) (q : dot_S256x8192_S8192x128_S256x128_1_0_0_1_n_n.contr.Idx) : (dot_S256x8192_S8192x128_S256x128_1_0_0_1_n_n.rhsIdx i q 0).val = (q ⟨0, by decide⟩).val :=
  dot_S256x8192_S8192x128_S256x128_1_0_0_1_n_n.rhsIdx_val_of_single rfl i q
theorem d_r1 (i : S256x128.Idx) (q : dot_S256x8192_S8192x128_S256x128_1_0_0_1_n_n.contr.Idx) : (dot_S256x8192_S8192x128_S256x128_1_0_0_1_n_n.rhsIdx i q 1).val = (i 1).val := by
  unfold DotDims.rhsIdx
  rw [dif_neg (show ¬(1 : Fin S8192x128.rank) ∈ dot_S256x8192_S8192x128_S256x128_1_0_0_1_n_n.rhsBatch by decide), dif_pos (show (1 : Fin S8192x128.rank) ∈ dot_S256x8192_S8192x128_S256x128_1_0_0_1_n_n.rhsNonContracting by decide)]
  rfl

/-! ## The body's value at an entry -/

/-- Entry (p, q) of what the body stores is the product of the two loaded blocks at (p, q). -/
theorem pay_at (x0 : Vec Ideal S256x8192 .f32) (x1 : Vec Ideal S8192x128 .f32) (p : Fin 256) (q : Fin 128) :
    k2_pay1 (F := Ideal) x0 x1 (ix2 p q) = mm (ofV x0) (ofV x1) p q := by
  unfold k2_pay1
  refine (MatmulAt.matmul_zero_at dot_S256x8192_S8192x128_S256x128_1_0_0_1_n_n rfl rfl d_l0 d_l1 d_r0 d_r1 none _ _ p q).trans ?_
  unfold mm
  refine Finset.sum_congr rfl fun k _ => ?_
  rw [shapeCast_self]
  rfl

/-- What the result array holds after the call, as a function of the arrays the call reads. -/
def G (a0 : Vec Ideal S2048x8192 .f32) (a1 : Vec Ideal S8192x128 .f32) : Vec Ideal S2048x128 .f32 :=
  toV (mm (ofV a0) (ofV a1))

/-- If the left block is rows `r p` of the left array and the right block is the right array, the body's value at
    `y` is the whole product at the index with row `r (y 0)` and `y`'s column. -/
theorem point (x0 : Vec Ideal S256x8192 .f32) (x1 : Vec Ideal S8192x128 .f32) (a0 : Vec Ideal S2048x8192 .f32) (a1 : Vec Ideal S8192x128 .f32)
    (r : Fin 256 → Fin 2048)
    (h0 : ∀ (p : Fin 256) (k : Fin 8192), x0 (ix2 p k) = a0 (ix2 (r p) k))
    (h1 : ∀ (k : Fin 8192) (q : Fin 128), x1 (ix2 k q) = a1 (ix2 k q))
    (y : S256x128.Idx) (i : S2048x128.Idx) (hi0 : (i 0).val = (r (y 0)).val) (hi1 : (i 1).val = (y 1).val) :
    k2_pay1 (F := Ideal) x0 x1 y = G a0 a1 i := by
  obtain ⟨p, q, rfl⟩ : ∃ (p : Fin 256) (q : Fin 128), y = ix2 p q := ⟨y 0, y 1, eq_ix2 y⟩
  rw [pay_at]
  have e0 : i 0 = r p := Fin.ext hi0
  have e1 : i 1 = q := Fin.ext hi1
  show mm (ofV x0) (ofV x1) p q = mm (ofV a0) (ofV a1) (i 0) (i 1)
  rw [e0, e1]
  have hx0 : ofV x0 = fun p k => ofV a0 (r p) k := funext fun p => funext fun k => h0 p k
  have hx1 : ofV x1 = ofV a1 := funext fun k => funext fun q => h1 k q
  rw [hx0, hx1]
  exact mm_rows r (ofV a0) (ofV a1) p q

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point t the left window and the result window are at block row t,
    the right window at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the arrays as the call finds them. -/
theorem flushed_eq (c : Dev nD) (t : Fin cfg2.N) :
    (dat2 V c).flushed 2 t = ((cfg2.win 2).blk t).view.read (Elt Ideal) (G (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S256x8192) hz, View.ld_unit_zero (S := S8192x128) hz]
  obtain ⟨e0, e1, e2, e3, e4, e5⟩ := idx_facts t
  have htN : t.val < 8 := Nat.lt_of_lt_of_eq t.isLt N_2
  funext j
  show k2_pay1 (F := Ideal) (iblk2 V c 0 t) (iblk2 V c 1 t) j
    = G (V c (Pipeline.arrRef spec2 0)) (V c (Pipeline.arrRef spec2 1)) (((cfg2.win 2).blk t).view.emb j)
  refine point (iblk2 V c 0 t) (iblk2 V c 1 t) (V c (Pipeline.arrRef spec2 0)) (V c (Pipeline.arrRef spec2 1))
    (fun p => ⟨256 * t.val + p.val, by have := p.isLt; omega⟩) ?_ ?_ j (((cfg2.win 2).blk t).view.emb j) ?_ ?_
  · intro p k
    unfold iblk2
    rw [View.read_apply]
    refine congrArg (V c (Pipeline.arrRef spec2 0)) ?_
    funext a; apply Fin.ext
    match a with
    | ⟨0, _⟩ => show win2_0.index t (0 : Fin 2) * 256 + 1 * p.val = 256 * t.val + p.val; rw [e0]; omega
    | ⟨1, _⟩ => show win2_0.index t (1 : Fin 2) * 8192 + 1 * k.val = k.val; rw [e1]; omega
  · intro k q
    unfold iblk2
    rw [View.read_apply]
    refine congrArg (V c (Pipeline.arrRef spec2 1)) ?_
    funext a; apply Fin.ext
    match a with
    | ⟨0, _⟩ => show win2_1.index t (0 : Fin 2) * 8192 + 1 * k.val = k.val; rw [e2]; omega
    | ⟨1, _⟩ => show win2_1.index t (1 : Fin 2) * 128 + 1 * q.val = q.val; rw [e3]; omega
  · show win2_2.index t (0 : Fin 2) * 256 + 1 * (j 0).val = 256 * t.val + (j 0).val; rw [e4]; omega
  · show win2_2.index t (1 : Fin 2) * 128 + 1 * (j 1).val = (j 1).val; rw [e5]; omega

/-- An index of the result array is in point t's block iff each coordinate is in the block's range on its axis. -/
theorem mem_blk (t : Fin cfg2.N) (i : S2048x128.Idx) :
    i ∈ ((cfg2.win 2).blk t).view.set ↔ ∀ a : Fin 2, win2_2.index t a * S256x128.size a ≤ (i a).val ∧ (i a).val < win2_2.index t a * S256x128.size a + S256x128.size a := by
  show i ∈ ((View.whole main_v9).slice (win2_2.rect t)).set ↔ _
  rw [View.set_slice_whole, Rect.mem_set_unit]
  exact Iff.rfl

/-- After the call the result array holds the product: row r is written by point r / 256. -/
theorem final (c : Dev nD) :
    (dat2 V c).arrAt 2 cfg2.N = G (V c (Pipeline.arrRef spec2 0)) (V c (Pipeline.arrRef spec2 1)) :=
  (dat2 V c).arrAt_eq_of_cover 2 _ (fun t _ => flushed_eq V c t) fun i => by
    have hi0 : (i 0).val < 2048 := (i 0).isLt
    have hi1 : (i 1).val < 128 := (i 1).isLt
    refine ⟨⟨(i 0).val / 256, by rw [show cfg2.N = 8 from N_2]; omega⟩, flush2_2 _, ?_⟩
    rw [mem_blk]
    obtain ⟨e0, e1, e2, e3, e4, e5⟩ := idx_facts ⟨(i 0).val / 256, by rw [show cfg2.N = 8 from N_2]; omega⟩
    intro a
    match a with
    | ⟨0, _⟩ => show win2_2.index _ (0 : Fin 2) * 256 ≤ (i 0).val ∧ (i 0).val < win2_2.index _ (0 : Fin 2) * 256 + 256; rw [e4]; dsimp only; omega
    | ⟨1, _⟩ => show win2_2.index _ (1 : Fin 2) * 128 ≤ (i 1).val ∧ (i 1).val < win2_2.index _ (1 : Fin 2) * 128 + 128; rw [e5]; omega

end Cert.KernelIdeal.R2

end
-- ==== Proof.Region3.lean ====
/-
  Kernel call 3 (calls are counted from 0): an edge-by-node incidence matrix times the 128 columns of per-node sums,
  less each edge's own message.

  The call works on eight blocks of 1024 rows. At block t it loads rows 1024·t … 1024·t + 1023 of the 8192 × 2048
  incidence matrix, the whole 2048 × 128 right factor, and rows 1024·t … of the 8192 × 128 matrix to subtract;
  it multiplies the first two (into a zero accumulator; the change of number format before the product is the
  identity on the extended reals), subtracts the third entry by entry, and stores the 1024 × 128 difference as rows
  1024·t … of the result. Row p of the product depends on row p of the left factor only, and row p of the
  difference on row p of the subtrahend only, so block t of the result is block t of the product of the WHOLE
  arrays less the WHOLE subtrahend; the eight blocks tile the result, so after the call the result array holds that
  difference.
-/
import proofs.«179721_j30537217474923_1_alg».proof.Proof.Gen.KernelIdeal.Frame
import proofs.«179721_j30537217474923_1_alg».proof.Proof.Spec
import proofs.«179721_j30537217474923_1_alg».proof.Proof.LibMatmulAt
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.R3

open Idealize.ShloMosaic.ValueIdx Cert.KernelIdeal Cert.KernelIdeal.Gen Cert.Spec

/-! ## Where the product's dimension numbers read their operands -/

theorem d_l0 (i : S1024x128.Idx) (q : dot_S1024x2048_S2048x128_S1024x128_1_0_0_1_n_n.contr.Idx) : (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem d_l1 (i : S1024x128.Idx) (q : dot_S1024x2048_S2048x128_S1024x128_1_0_0_1_n_n.contr.Idx) : (dot_S1024x2048_S2048x128_S1024x128_1_0_0_1_n_n.lhsIdx i q 1).val = (q ⟨0, by decide⟩).val :=
  dot_S1024x2048_S2048x128_S1024x128_1_0_0_1_n_n.lhsIdx_val_of_single rfl i q
theorem d_r0 (i : S1024x128.Idx) (q : dot_S1024x2048_S2048x128_S1024x128_1_0_0_1_n_n.contr.Idx) : (dot_S1024x2048_S2048x128_S1024x128_1_0_0_1_n_n.rhsIdx i q 0).val = (q ⟨0, by decide⟩).val :=
  dot_S1024x2048_S2048x128_S1024x128_1_0_0_1_n_n.rhsIdx_val_of_single rfl i q
theorem d_r1 (i : S1024x128.Idx) (q : dot_S1024x2048_S2048x128_S1024x128_1_0_0_1_n_n.contr.Idx) : (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-! ## The body's value at an entry -/

/-- Entry (p, q) of what the body stores is the product of the first two loaded blocks at (p, q) less the third
    block's entry there. -/
theorem pay_at (x0 : Vec Ideal S1024x2048 .f32) (x1 : Vec Ideal S2048x128 .f32) (x2 : Vec Ideal S1024x128 .f32) (p : Fin 1024) (q : Fin 128) :
    k3_pay1 (F := Ideal) x0 x1 x2 (ix2 p q) = mmSub (ofV x0) (ofV x1) (ofV x2) p q := by
  unfold k3_pay1 mmSub
  refine (congrArg₂ (fun a b : EReal => a - b)
    (MatmulAt.matmul_zero_at dot_S1024x2048_S2048x128_S1024x128_1_0_0_1_n_n rfl rfl d_l0 d_l1 d_r0 d_r1 none _ _ p q)
    (congrFun (shapeCast_self x2 shapeCasts_S1024x128_S1024x128) (ix2 p q))).trans ?_
  show (∑ k : Fin 2048, _ * _) - x2 (ix2 p q) = mm (ofV x0) (ofV x1) p q - ofV x2 p q
  refine congrArg (fun a : EReal => a - x2 (ix2 p q)) ?_
  unfold mm
  refine Finset.sum_congr rfl fun k _ => ?_
  rw [shapeCast_self]
  rfl

/-- What the result array holds after the call, as a function of the arrays the call reads. -/
def G (a0 : Vec Ideal S8192x2048 .f32) (a1 : Vec Ideal S2048x128 .f32) (a2 : Vec Ideal S8192x128 .f32) : Vec Ideal S8192x128 .f32 :=
  toV (mmSub (ofV a0) (ofV a1) (ofV a2))

/-- If the left block and the block to subtract are rows `r p` of their arrays and the right block is the right
    array, the body's value at `y` is the whole difference at the index with row `r (y 0)` and `y`'s column. -/
theorem point (x0 : Vec Ideal S1024x2048 .f32) (x1 : Vec Ideal S2048x128 .f32) (x2 : Vec Ideal S1024x128 .f32)
    (a0 : Vec Ideal S8192x2048 .f32) (a1 : Vec Ideal S2048x128 .f32) (a2 : Vec Ideal S8192x128 .f32)
    (r : Fin 1024 → Fin 8192)
    (h0 : ∀ (p : Fin 1024) (k : Fin 2048), x0 (ix2 p k) = a0 (ix2 (r p) k))
    (h1 : ∀ (k : Fin 2048) (q : Fin 128), x1 (ix2 k q) = a1 (ix2 k q))
    (h2 : ∀ (p : Fin 1024) (q : Fin 128), x2 (ix2 p q) = a2 (ix2 (r p) q))
    (y : S1024x128.Idx) (i : S8192x128.Idx) (hi0 : (i 0).val = (r (y 0)).val) (hi1 : (i 1).val = (y 1).val) :
    k3_pay1 (F := Ideal) x0 x1 x2 y = G a0 a1 a2 i := by
  obtain ⟨p, q, rfl⟩ : ∃ (p : Fin 1024) (q : Fin 128), y = ix2 p q := ⟨y 0, y 1, eq_ix2 y⟩
  rw [pay_at]
  have e0 : i 0 = r p := Fin.ext hi0
  have e1 : i 1 = q := Fin.ext hi1
  show mmSub (ofV x0) (ofV x1) (ofV x2) p q = mmSub (ofV a0) (ofV a1) (ofV a2) (i 0) (i 1)
  rw [e0, e1]
  have hx0 : ofV x0 = fun p k => ofV a0 (r p) k := funext fun p => funext fun k => h0 p k
  have hx1 : ofV x1 = ofV a1 := funext fun k => funext fun q => h1 k q
  have hx2 : ofV x2 = fun p q => ofV a2 (r p) q := funext fun p => funext fun q => h2 p q
  rw [hx0, hx1, hx2]
  exact mmSub_rows r (ofV a0) (ofV a1) (ofV a2) p q

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point t the left window, the window of the matrix to subtract
    and the result window are at block row t, the right window at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point t writes back is block t of the difference computed from the arrays as the call finds them. -/
theorem flushed_eq (c : Dev nD) (t : Fin cfg3.N) :
    (dat3 V c).flushed 3 t = ((cfg3.win 3).blk t).view.read (Elt Ideal) (G (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S1024x2048) hz, View.ld_unit_zero (S := S2048x128) hz, View.ld_unit_zero (S := S1024x128) hz]
  obtain ⟨e0, e1, e2, e3, e4, e5, e6, e7⟩ := idx_facts t
  have htN : t.val < 8 := Nat.lt_of_lt_of_eq t.isLt N_3
  funext j
  show k3_pay1 (F := Ideal) (iblk3 V c 0 t) (iblk3 V c 1 t) (iblk3 V c 2 t) j
    = G (V c (Pipeline.arrRef spec3 0)) (V c (Pipeline.arrRef spec3 1)) (V c (Pipeline.arrRef spec3 2)) (((cfg3.win 3).blk t).view.emb j)
  refine point (iblk3 V c 0 t) (iblk3 V c 1 t) (iblk3 V c 2 t)
    (V c (Pipeline.arrRef spec3 0)) (V c (Pipeline.arrRef spec3 1)) (V c (Pipeline.arrRef spec3 2))
    (fun p => ⟨1024 * t.val + p.val, by have := p.isLt; omega⟩) ?_ ?_ ?_ j (((cfg3.win 3).blk t).view.emb j) ?_ ?_
  · intro p k
    unfold iblk3
    rw [View.read_apply]
    refine congrArg (V c (Pipeline.arrRef spec3 0)) ?_
    funext a; apply Fin.ext
    match a with
    | ⟨0, _⟩ => show win3_0.index t (0 : Fin 2) * 1024 + 1 * p.val = 1024 * t.val + p.val; rw [e0]; omega
    | ⟨1, _⟩ => show win3_0.index t (1 : Fin 2) * 2048 + 1 * k.val = k.val; rw [e1]; omega
  · intro k q
    unfold iblk3
    rw [View.read_apply]
    refine congrArg (V c (Pipeline.arrRef spec3 1)) ?_
    funext a; apply Fin.ext
    match a with
    | ⟨0, _⟩ => show win3_1.index t (0 : Fin 2) * 2048 + 1 * k.val = k.val; rw [e2]; omega
    | ⟨1, _⟩ => show win3_1.index t (1 : Fin 2) * 128 + 1 * q.val = q.val; rw [e3]; omega
  · intro p q
    unfold iblk3
    rw [View.read_apply]
    refine congrArg (V c (Pipeline.arrRef spec3 2)) ?_
    funext a; apply Fin.ext
    match a with
    | ⟨0, _⟩ => show win3_2.index t (0 : Fin 2) * 1024 + 1 * p.val = 1024 * t.val + p.val; rw [e4]; omega
    | ⟨1, _⟩ => show win3_2.index t (1 : Fin 2) * 128 + 1 * q.val = q.val; rw [e5]; omega
  · show win3_3.index t (0 : Fin 2) * 1024 + 1 * (j 0).val = 1024 * t.val + (j 0).val; rw [e6]; omega
  · show win3_3.index t (1 : Fin 2) * 128 + 1 * (j 1).val = (j 1).val; rw [e7]; omega

/-- An index of the result array is in point t's block iff each coordinate is in the block's range on its axis. -/
theorem mem_blk (t : Fin cfg3.N) (i : S8192x128.Idx) :
    i ∈ ((cfg3.win 3).blk t).view.set ↔ ∀ a : Fin 2, win3_3.index t a * S1024x128.size a ≤ (i a).val ∧ (i a).val < win3_3.index t a * S1024x128.size a + S1024x128.size a := by
  show i ∈ ((View.whole main_v10).slice (win3_3.rect t)).set ↔ _
  rw [View.set_slice_whole, Rect.mem_set_unit]
  exact Iff.rfl

/-- After the call the result array holds the difference: row r is written by point r / 1024. -/
theorem final (c : Dev nD) :
    (dat3 V c).arrAt 3 cfg3.N = G (V c (Pipeline.arrRef spec3 0)) (V c (Pipeline.arrRef spec3 1)) (V c (Pipeline.arrRef spec3 2)) :=
  (dat3 V c).arrAt_eq_of_cover 3 _ (fun t _ => flushed_eq V c t) fun i => by
    have hi0 : (i 0).val < 8192 := (i 0).isLt
    have hi1 : (i 1).val < 128 := (i 1).isLt
    refine ⟨⟨(i 0).val / 1024, by rw [show cfg3.N = 8 from N_3]; omega⟩, flush3_3 _, ?_⟩
    rw [mem_blk]
    obtain ⟨e0, e1, e2, e3, e4, e5, e6, e7⟩ := idx_facts ⟨(i 0).val / 1024, by rw [show cfg3.N = 8 from N_3]; omega⟩
    intro a
    match a with
    | ⟨0, _⟩ => show win3_3.index _ (0 : Fin 2) * 1024 ≤ (i 0).val ∧ (i 0).val < win3_3.index _ (0 : Fin 2) * 1024 + 1024; rw [e6]; dsimp only; omega
    | ⟨1, _⟩ => show win3_3.index _ (1 : Fin 2) * 128 ≤ (i 1).val ∧ (i 1).val < win3_3.index _ (1 : Fin 2) * 128 + 128; rw [e7]; omega

end Cert.KernelIdeal.R3

end
-- ==== Proof.KV3.lean ====
import proofs.«179721_j30537217474923_1_alg».proof.Proof.Gen.KernelIdeal.Frame
import proofs.«179721_j30537217474923_1_alg».proof.Proof.Spec
import proofs.«179721_j30537217474923_1_alg».proof.Proof.LibMatmulAt
import proofs.«179721_j30537217474923_1_alg».proof.Proof.KV2
import proofs.«179721_j30537217474923_1_alg».proof.Proof.Region2
import proofs.«179721_j30537217474923_1_alg».proof.Proof.Region3
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.KV

open Idealize.ShloMosaic.ValueIdx Cert.KernelIdeal Cert.KernelIdeal.Gen Cert.Spec

variable (m : (ℓ : Loc nD τ sig) → Buf (Elt Ideal) ℓ) (ρ : Dev nD → PrngReg)

/-- The variable-side incidence matrix (edges summed per variable) is read-only: at the third call's entry it
    still holds what was launched. No earlier call has it as one of its arrays, and no host operation writes it. -/
private theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- The edge-side incidence matrix (variables sent back to their edges) at the fourth call's entry still holds what
    was launched. The first call reads it as an input array, which a call leaves as it found it; the second and
    third calls do not have it among their arrays; no host operation writes it. -/
private theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := (W2_arr m ρ c 0).trans (((dat0 (V1 m ρ) c).arrAt_in 0 rfl _).trans (A_eq0 (V1 m ρ) c 0))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- The per-edge messages are an input array of the third call, which leaves them as it found them. -/
private theorem W5_v8 (c : Dev nD) : W5 m ρ c (Proc.devRef .tc main_v8) = toV (kHv (args m c)) :=
  calc W5 m ρ c (Proc.devRef .tc main_v8)
    _ = W4 m ρ c (Proc.devRef .tc main_v8) := (W5_arr m ρ c 1).trans (((dat2 (V4 m ρ) c).arrAt_in 1 rfl _).trans (A_eq2 (V4 m ρ) c 1))
    _ = toV (kHv (args m c)) := hv_eq m ρ c

/-- After the third call: the messages summed per variable. The call's result is the product of its two input
    arrays; the first is the launched incidence matrix and the second the per-edge messages, so the product is
    the definition of the per-variable sum. -/
theorem vsum_eq (c : Dev nD) : W5 m ρ c (Proc.devRef .tc main_v9) = toV (kVsum (args m c)) := by
  refine ((W5_arr m ρ c 2).trans (R2.final (V4 m ρ) c)).trans ?_
  have h0 : V4 m ρ c (Pipeline.arrRef spec2 0) = m ((c : Thread nD τ).loc main_arg7) := W4_arg7 m ρ c
  have h1 : V4 m ρ c (Pipeline.arrRef spec2 1) = toV (kHv (args m c)) := hv_eq m ρ c
  rw [h0, h1]
  rfl

/-- After the fourth call: the sums sent back to the edges, less each edge's own message. The call's result is the
    product of its first two input arrays less the third; these are the launched incidence matrix, the
    per-variable sums and the per-edge messages. -/
theorem aggv_eq (c : Dev nD) : W6 m ρ c (Proc.devRef .tc main_v10) = toV (kAggV (args m c)) := by
  refine ((W6_arr m ρ c 3).trans (R3.final (V5 m ρ) c)).trans ?_
  have h0 : V5 m ρ c (Pipeline.arrRef spec3 0) = m ((c : Thread nD τ).loc main_arg8) := W5_arg8 m ρ c
  have h1 : V5 m ρ c (Pipeline.arrRef spec3 1) = toV (kVsum (args m c)) := vsum_eq m ρ c
  have h2 : V5 m ρ c (Pipeline.arrRef spec3 2) = toV (kHv (args m c)) := W5_v8 m ρ c
  rw [h0, h1, h2]
  rfl

end Cert.KernelIdeal.KV

end
-- ==== Proof.Region4.lean ====
/-
  The fifth call: the two-layer map after the node sums, blended with the old state by the row mask.

  The call works on four blocks of 2048 rows. At block t it loads rows 2048·t … 2048·t + 2047 of the summed messages,
  of the edge features, of the mask column and of the old state, and the whole of the two weight matrices and the two
  bias rows. It joins the summed messages and the edge features side by side (130 columns), multiplies by the first
  weight matrix into a zero accumulator, adds the first bias row to every row and takes max with 0; multiplies that by
  the second weight matrix into a zero accumulator and adds the second bias row; and stores
  mask · (that) + (1 − mask) · (old state), the mask column spread over the 128 columns. The changes of number format
  before the products are the identity on the extended reals. Row p of the result depends on row p of the row-indexed
  operands only, so block t of the result is block t of the same map of the WHOLE arrays; the four blocks tile the
  result, so after the call the result array holds that map.
-/
import proofs.«179721_j30537217474923_1_alg».proof.Proof.Gen.KernelIdeal.Frame
import proofs.«179721_j30537217474923_1_alg».proof.Proof.Spec
import proofs.«179721_j30537217474923_1_alg».proof.Proof.LibMatmulAt
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.R4

open Idealize.ShloMosaic.ValueIdx Cert.KernelIdeal Cert.KernelIdeal.Gen Cert.Spec

/-! ## Where the two products' dimension numbers read their operands -/

theorem d1_l0 (i : S2048x128.Idx) (q : dot_S2048x130_S130x128_S2048x128_1_0_0_1_n_n.contr.Idx) : (dot_S2048x130_S130x128_S2048x128_1_0_0_1_n_n.lhsIdx i q 0).val = (i 0).val := by
  unfold DotDims.lhsIdx
  rw [dif_neg (show ¬(0 : Fin S2048x130.rank) ∈ dot_S2048x130_S130x128_S2048x128_1_0_0_1_n_n.lhsBatch by decide), dif_pos (show (0 : Fin S2048x130.rank) ∈ dot_S2048x130_S130x128_S2048x128_1_0_0_1_n_n.lhsNonContracting by decide)]
  rfl
theorem d1_l1 (i : S2048x128.Idx) (q : dot_S2048x130_S130x128_S2048x128_1_0_0_1_n_n.contr.Idx) : (dot_S2048x130_S130x128_S2048x128_1_0_0_1_n_n.lhsIdx i q 1).val = (q ⟨0, by decide⟩).val :=
  dot_S2048x130_S130x128_S2048x128_1_0_0_1_n_n.lhsIdx_val_of_single rfl i q
theorem d1_r0 (i : S2048x128.Idx) (q : dot_S2048x130_S130x128_S2048x128_1_0_0_1_n_n.contr.Idx) : (dot_S2048x130_S130x128_S2048x128_1_0_0_1_n_n.rhsIdx i q 0).val = (q ⟨0, by decide⟩).val :=
  dot_S2048x130_S130x128_S2048x128_1_0_0_1_n_n.rhsIdx_val_of_single rfl i q
theorem d1_r1 (i : S2048x128.Idx) (q : dot_S2048x130_S130x128_S2048x128_1_0_0_1_n_n.contr.Idx) : (dot_S2048x130_S130x128_S2048x128_1_0_0_1_n_n.rhsIdx i q 1).val = (i 1).val := by
  unfold DotDims.rhsIdx
  rw [dif_neg (show ¬(1 : Fin S130x128.rank) ∈ dot_S2048x130_S130x128_S2048x128_1_0_0_1_n_n.rhsBatch by decide), dif_pos (show (1 : Fin S130x128.rank) ∈ dot_S2048x130_S130x128_S2048x128_1_0_0_1_n_n.rhsNonContracting by decide)]
  rfl

theorem d2_l0 (i : S2048x128.Idx) (q : dot_S2048x128_S128x128_S2048x128_1_0_0_1_n_n.contr.Idx) : (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem d2_l1 (i : S2048x128.Idx) (q : dot_S2048x128_S128x128_S2048x128_1_0_0_1_n_n.contr.Idx) : (dot_S2048x128_S128x128_S2048x128_1_0_0_1_n_n.lhsIdx i q 1).val = (q ⟨0, by decide⟩).val :=
  dot_S2048x128_S128x128_S2048x128_1_0_0_1_n_n.lhsIdx_val_of_single rfl i q
theorem d2_r0 (i : S2048x128.Idx) (q : dot_S2048x128_S128x128_S2048x128_1_0_0_1_n_n.contr.Idx) : (dot_S2048x128_S128x128_S2048x128_1_0_0_1_n_n.rhsIdx i q 0).val = (q ⟨0, by decide⟩).val :=
  dot_S2048x128_S128x128_S2048x128_1_0_0_1_n_n.rhsIdx_val_of_single rfl i q
theorem d2_r1 (i : S2048x128.Idx) (q : dot_S2048x128_S128x128_S2048x128_1_0_0_1_n_n.contr.Idx) : (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-! ## The layout operations at an entry -/

/-- The join of a 128-column block (through a change of shape to the same shape, which is the identity) and a
    2-column block, at an entry: the first block below column 128, the second from column 128 on, 128 less. -/
theorem cat_at (x : FVec Ideal S2048x128 .f32) (e : FVec Ideal S2048x2 .f32) (h : S2048x128.ShapeCasts S2048x128) (p : Fin 2048) (j : Fin 130) :
    concatenate S2048x130 1 [⟨S2048x128, shapeCast S2048x128 x h⟩, ⟨S2048x2, e⟩] concatenates_S2048x128_S2048x2_S2048x130_d1 (ix2 p j)
      = cat2 (ofV x) (ofV e) p j := by
  rw [shapeCast_self]
  unfold cat2
  by_cases h : j.val < 128
  · rw [dif_pos h]
    exact concatenate_pair_apply_left (t := S2048x130) (s₁ := S2048x128) (s₂ := S2048x2) (1 : Fin 2) x e _ (ix2 p j) rfl
      (ix2 p (⟨j.val, h⟩ : Fin 128)) (fun b => by
        match b with
        | ⟨0, _⟩ => rfl
        | ⟨1, _⟩ => rfl)
  · rw [dif_neg h]
    exact concatenate_pair_apply_right (t := S2048x130) (s₁ := S2048x128) (s₂ := S2048x2) (1 : Fin 2) x e _ (ix2 p j) rfl rfl
      (ix2 p (⟨j.val - 128, by have := j.isLt; omega⟩ : Fin 2)) (fun b hb => by
        match b with
        | ⟨0, _⟩ => rfl
        | ⟨1, _⟩ => exact absurd rfl hb) (by
        show (j.val - 128) + 128 = j.val
        omega)

/-- An `[a, 1]` array broadcast to `[a, b]` reads, at `(p, c)`, the operand's one column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products at an entry -/

/-- Entry (p, q) of the first product into zero: the sum over the 130 joined columns. -/
theorem mm1_at (l : FVec Ideal S2048x130 .bf16) (r : FVec Ideal S130x128 .bf16) (p : Fin 2048) (q : Fin 128) :
    matmul dot_S2048x130_S130x128_S2048x128_1_0_0_1_n_n none l r (constant (F := Ideal) S2048x128 .f32 0x00000000#32) (ix2 p q)
      = ∑ k : Fin 130, l (ix2 p k) * r (ix2 k q) :=
  MatmulAt.matmul_zero_at dot_S2048x130_S130x128_S2048x128_1_0_0_1_n_n rfl rfl d1_l0 d1_l1 d1_r0 d1_r1 none l r p q

/-- Entry (p, q) of the second product into zero: the sum over the 128 hidden columns. -/
theorem mm2_at (l : FVec Ideal S2048x128 .bf16) (r : FVec Ideal S128x128 .bf16) (p : Fin 2048) (q : Fin 128) :
    matmul dot_S2048x128_S128x128_S2048x128_1_0_0_1_n_n none l r (constant (F := Ideal) S2048x128 .f32 0x00000000#32) (ix2 p q)
      = ∑ k : Fin 128, l (ix2 p k) * r (ix2 k q) :=
  MatmulAt.matmul_zero_at dot_S2048x128_S128x128_S2048x128_1_0_0_1_n_n rfl rfl d2_l0 d2_l1 d2_r0 d2_r1 none l r p q

/-! ## The body's value at an entry -/

/-- The single-precision zero word is the number 0. -/
theorem zero_word : (FloatOps.ofBits (F := Ideal) .f32 0x00000000#32) = 0 := Ideal.ofBits_zero_f32

/-- The single-precision word of 1 is the number the blend subtracts the mask from, by definition. -/
theorem one_word : (FloatOps.ofBits (F := Ideal) .f32 0x3F800000#32) = one := by
  unfold one
  rfl

/-- Entry (p, q) of what the body stores is the blended two-layer map of the loaded blocks at (p, q). -/
theorem pay_at (agg : Vec Ideal S2048x128 .f32) (edge : Vec Ideal S2048x2 .f32) (a1 : Vec Ideal S130x128 .f32) (c1 : Vec Ideal S1x128 .f32)
    (a2 : Vec Ideal S128x128 .f32) (c2 : Vec Ideal S1x128 .f32) (mask : Vec Ideal S2048x1 .f32) (orig : Vec Ideal S2048x128 .f32)
    (p : Fin 2048) (q : Fin 128) :
    k4_pay1 (F := Ideal) agg edge a1 c1 a2 c2 mask orig (ix2 p q)
      = tail (ofV agg) (ofV edge) (ofCol mask) (ofV orig) (ofV a1) (ofRow c1) (ofV a2) (ofRow c2) p q := by
  unfold k4_pay1
  simp only [addf_apply, mulf_apply, subf_apply, shapeCast_self]
  rw [broadcastTo_a1_ab_apply (a := 2048) (b := 128) mask broadcasts_S2048x1_S2048x128 p q,
    broadcastTo_a1_ab_apply (a := 2048) (b := 128) _ broadcasts_S2048x1_S2048x128 p q,
    broadcastTo_1b_ab_apply (a := 2048) (b := 128) c2 broadcasts_S1x128_S2048x128 p q,
    mm2_at]
  simp only [truncf_apply, maximumf_apply, addf_apply, subf_apply, broadcast_apply, mm1_at, cat_at,
    broadcastTo_1b_ab_apply (a := 2048) (b := 128) c1 broadcasts_S1x128_S2048x128, zero_word, one_word]
  unfold tail mm relu ofCol ofRow
  rfl

/-- What the result array holds after the call, as a function of the arrays the call reads. -/
def G (a0 : Vec Ideal S8192x128 .f32) (a1 : Vec Ideal S8192x2 .f32) (a2 : Vec Ideal S8192x1 .f32) (a3 : Vec Ideal S8192x128 .f32) (a4 : Vec Ideal S130x128 .f32) (a5 : Vec Ideal S1x128 .f32) (a6 : Vec Ideal S128x128 .f32) (a7 : Vec Ideal S1x128 .f32) : Vec Ideal S8192x128 .f32 :=
  toV (tail (ofV a0) (ofV a1) (ofCol a2) (ofV a3) (ofV a4) (ofRow a5) (ofV a6) (ofRow a7))

/-- If the four row-indexed blocks are rows `r p` of their arrays and the four weight blocks are the weight arrays, the
    body's value at `y` is the whole-array map at the index with row `r (y 0)` and `y`'s column. -/
theorem point (x0 : Vec Ideal S2048x128 .f32) (x1 : Vec Ideal S2048x2 .f32) (x2 : Vec Ideal S2048x1 .f32) (x3 : Vec Ideal S2048x128 .f32)
    (x4 : Vec Ideal S130x128 .f32) (x5 : Vec Ideal S1x128 .f32) (x6 : Vec Ideal S128x128 .f32) (x7 : Vec Ideal S1x128 .f32)
    (a0 : Vec Ideal S8192x128 .f32) (a1 : Vec Ideal S8192x2 .f32) (a2 : Vec Ideal S8192x1 .f32) (a3 : Vec Ideal S8192x128 .f32)
    (a4 : Vec Ideal S130x128 .f32) (a5 : Vec Ideal S1x128 .f32) (a6 : Vec Ideal S128x128 .f32) (a7 : Vec Ideal S1x128 .f32)
    (r : Fin 2048 → Fin 8192)
    (h0 : ∀ (p : Fin 2048) (k : Fin 128), x0 (ix2 p k) = a0 (ix2 (r p) k))
    (h1 : ∀ (p : Fin 2048) (k : Fin 2), x1 (ix2 p k) = a1 (ix2 (r p) k))
    (h2 : ∀ (p : Fin 2048), x2 (ix2 p (0 : Fin 1)) = a2 (ix2 (r p) (0 : Fin 1)))
    (h3 : ∀ (p : Fin 2048) (k : Fin 128), x3 (ix2 p k) = a3 (ix2 (r p) k))
    (h4 : ∀ (k : Fin 130) (q : Fin 128), x4 (ix2 k q) = a4 (ix2 k q))
    (h5 : ∀ (q : Fin 128), x5 (ix2 (0 : Fin 1) q) = a5 (ix2 (0 : Fin 1) q))
    (h6 : ∀ (k : Fin 128) (q : Fin 128), x6 (ix2 k q) = a6 (ix2 k q))
    (h7 : ∀ (q : Fin 128), x7 (ix2 (0 : Fin 1) q) = a7 (ix2 (0 : Fin 1) q))
    (y : S2048x128.Idx) (i : S8192x128.Idx) (hi0 : (i 0).val = (r (y 0)).val) (hi1 : (i 1).val = (y 1).val) :
    k4_pay1 (F := Ideal) x0 x1 x4 x5 x6 x7 x2 x3 y = G a0 a1 a2 a3 a4 a5 a6 a7 i := by
  obtain ⟨p, q, rfl⟩ : ∃ (p : Fin 2048) (q : Fin 128), y = ix2 p q := ⟨y 0, y 1, eq_ix2 y⟩
  rw [pay_at]
  have e0 : i 0 = r p := Fin.ext hi0
  have e1 : i 1 = q := Fin.ext hi1
  show tail (ofV x0) (ofV x1) (ofCol x2) (ofV x3) (ofV x4) (ofRow x5) (ofV x6) (ofRow x7) p q
    = tail (ofV a0) (ofV a1) (ofCol a2) (ofV a3) (ofV a4) (ofRow a5) (ofV a6) (ofRow a7) (i 0) (i 1)
  rw [e0, e1]
  have hx0 : ofV x0 = fun p k => ofV a0 (r p) k := funext fun p => funext fun k => h0 p k
  have hx1 : ofV x1 = fun p k => ofV a1 (r p) k := funext fun p => funext fun k => h1 p k
  have hx2 : ofCol x2 = fun p => ofCol a2 (r p) := funext fun p => h2 p
  have hx3 : ofV x3 = fun p k => ofV a3 (r p) k := funext fun p => funext fun k => h3 p k
  have hx4 : ofV x4 = ofV a4 := funext fun k => funext fun q => h4 k q
  have hx5 : ofRow x5 = ofRow a5 := funext fun q => h5 q
  have hx6 : ofV x6 = ofV a6 := funext fun k => funext fun q => h6 k q
  have hx7 : ofRow x7 = ofRow a7 := funext fun q => h7 q
  rw [hx0, hx1, hx2, hx3, hx4, hx5, hx6, hx7]
  exact tail_rows r (ofV a0) (ofV a1) (ofCol a2) (ofV a3) (ofV a4) (ofRow a5) (ofV a6) (ofRow a7) p q

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-! The printed index maps, decided over the grid: at point t the four row-indexed windows and the result window are at
    block row t, the four weight windows at block (0, 0). -/

theorem idx0 : ∀ t : Fin cfg4.N, win4_0.index t (0 : Fin 2) = t.val ∧ win4_0.index t (1 : Fin 2) = 0 :=
  (by decide +kernel : ∀ t : Fin grid4.N, _)
theorem idx1 : ∀ t : Fin cfg4.N, win4_1.index t (0 : Fin 2) = t.val ∧ win4_1.index t (1 : Fin 2) = 0 :=
  (by decide +kernel : ∀ t : Fin grid4.N, _)
theorem idx2 : ∀ t : Fin cfg4.N, win4_2.index t (0 : Fin 2) = t.val ∧ win4_2.index t (1 : Fin 2) = 0 :=
  (by decide +kernel : ∀ t : Fin grid4.N, _)
theorem idx3 : ∀ t : Fin cfg4.N, win4_3.index t (0 : Fin 2) = t.val ∧ win4_3.index t (1 : Fin 2) = 0 :=
  (by decide +kernel : ∀ t : Fin grid4.N, _)
theorem idx4 : ∀ t : Fin cfg4.N, win4_4.index t (0 : Fin 2) = 0 ∧ win4_4.index t (1 : Fin 2) = 0 :=
  (by decide +kernel : ∀ t : Fin grid4.N, _)
theorem idx5 : ∀ t : Fin cfg4.N, win4_5.index t (0 : Fin 2) = 0 ∧ win4_5.index t (1 : Fin 2) = 0 :=
  (by decide +kernel : ∀ t : Fin grid4.N, _)
theorem idx6 : ∀ t : Fin cfg4.N, win4_6.index t (0 : Fin 2) = 0 ∧ win4_6.index t (1 : Fin 2) = 0 :=
  (by decide +kernel : ∀ t : Fin grid4.N, _)
theorem idx7 : ∀ t : Fin cfg4.N, win4_7.index t (0 : Fin 2) = 0 ∧ win4_7.index t (1 : Fin 2) = 0 :=
  (by decide +kernel : ∀ t : Fin grid4.N, _)
theorem idx8 : ∀ t : Fin cfg4.N, win4_8.index t (0 : Fin 2) = t.val ∧ win4_8.index t (1 : Fin 2) = 0 :=
  (by decide +kernel : ∀ t : Fin grid4.N, _)

/-- Row p of block t is row 2048·t + p of the array. -/
def rowOf (t : Fin cfg4.N) (p : Fin 2048) : Fin 8192 :=
  ⟨2048 * t.val + p.val, by have := p.isLt; have := Nat.lt_of_lt_of_eq t.isLt N_4; omega⟩

/-! Each window's block at point t, read at an entry, is its array at the entry the block's position sends it to: a
    block's coordinate is its block index times the block's extent plus the coordinate inside the block. -/

theorem rd0 (c : Dev nD) (t : Fin cfg4.N) (p : Fin 2048) (k : Fin 128) :
    (iblk4 V c 0 t : Vec Ideal S2048x128 .f32) (ix2 p k) = (V c (Pipeline.arrRef spec4 0)) (ix2 (rowOf t p) k) := by
  obtain ⟨er, ec⟩ := idx0 t
  unfold iblk4
  rw [View.read_apply]
  refine congrArg (V c (Pipeline.arrRef spec4 0)) ?_
  funext a; apply Fin.ext
  match a with
  | ⟨0, _⟩ => show win4_0.index t (0 : Fin 2) * 2048 + 1 * p.val = 2048 * t.val + p.val; rw [er]; omega
  | ⟨1, _⟩ => show win4_0.index t (1 : Fin 2) * 128 + 1 * k.val = k.val; rw [ec]; omega
theorem rd1 (c : Dev nD) (t : Fin cfg4.N) (p : Fin 2048) (k : Fin 2) :
    (iblk4 V c 1 t : Vec Ideal S2048x2 .f32) (ix2 p k) = (V c (Pipeline.arrRef spec4 1)) (ix2 (rowOf t p) k) := by
  obtain ⟨er, ec⟩ := idx1 t
  unfold iblk4
  rw [View.read_apply]
  refine congrArg (V c (Pipeline.arrRef spec4 1)) ?_
  funext a; apply Fin.ext
  match a with
  | ⟨0, _⟩ => show win4_1.index t (0 : Fin 2) * 2048 + 1 * p.val = 2048 * t.val + p.val; rw [er]; omega
  | ⟨1, _⟩ => show win4_1.index t (1 : Fin 2) * 2 + 1 * k.val = k.val; rw [ec]; omega
theorem rd2 (c : Dev nD) (t : Fin cfg4.N) (p : Fin 2048) :
    (iblk4 V c 2 t : Vec Ideal S2048x1 .f32) (ix2 p (0 : Fin 1)) = (V c (Pipeline.arrRef spec4 2)) (ix2 (rowOf t p) (0 : Fin 1)) := by
  obtain ⟨er, ec⟩ := idx2 t
  unfold iblk4
  rw [View.read_apply]
  refine congrArg (V c (Pipeline.arrRef spec4 2)) ?_
  funext a; apply Fin.ext
  match a with
  | ⟨0, _⟩ => show win4_2.index t (0 : Fin 2) * 2048 + 1 * p.val = 2048 * t.val + p.val; rw [er]; omega
  | ⟨1, _⟩ => show win4_2.index t (1 : Fin 2) * 1 + 1 * 0 = 0; rw [ec]
theorem rd3 (c : Dev nD) (t : Fin cfg4.N) (p : Fin 2048) (k : Fin 128) :
    (iblk4 V c 3 t : Vec Ideal S2048x128 .f32) (ix2 p k) = (V c (Pipeline.arrRef spec4 3)) (ix2 (rowOf t p) k) := by
  obtain ⟨er, ec⟩ := idx3 t
  unfold iblk4
  rw [View.read_apply]
  refine congrArg (V c (Pipeline.arrRef spec4 3)) ?_
  funext a; apply Fin.ext
  match a with
  | ⟨0, _⟩ => show win4_3.index t (0 : Fin 2) * 2048 + 1 * p.val = 2048 * t.val + p.val; rw [er]; omega
  | ⟨1, _⟩ => show win4_3.index t (1 : Fin 2) * 128 + 1 * k.val = k.val; rw [ec]; omega
theorem rd4 (c : Dev nD) (t : Fin cfg4.N) (k : Fin 130) (q : Fin 128) :
    (iblk4 V c 4 t : Vec Ideal S130x128 .f32) (ix2 k q) = (V c (Pipeline.arrRef spec4 4)) (ix2 k q) := by
  obtain ⟨er, ec⟩ := idx4 t
  unfold iblk4
  rw [View.read_apply]
  refine congrArg (V c (Pipeline.arrRef spec4 4)) ?_
  funext a; apply Fin.ext
  match a with
  | ⟨0, _⟩ => show win4_4.index t (0 : Fin 2) * 130 + 1 * k.val = k.val; rw [er]; omega
  | ⟨1, _⟩ => show win4_4.index t (1 : Fin 2) * 128 + 1 * q.val = q.val; rw [ec]; omega
theorem rd5 (c : Dev nD) (t : Fin cfg4.N) (q : Fin 128) :
    (iblk4 V c 5 t : Vec Ideal S1x128 .f32) (ix2 (0 : Fin 1) q) = (V c (Pipeline.arrRef spec4 5)) (ix2 (0 : Fin 1) q) := by
  obtain ⟨er, ec⟩ := idx5 t
  unfold iblk4
  rw [View.read_apply]
  refine congrArg (V c (Pipeline.arrRef spec4 5)) ?_
  funext a; apply Fin.ext
  match a with
  | ⟨0, _⟩ => show win4_5.index t (0 : Fin 2) * 1 + 1 * 0 = 0; rw [er]
  | ⟨1, _⟩ => show win4_5.index t (1 : Fin 2) * 128 + 1 * q.val = q.val; rw [ec]; omega
theorem rd6 (c : Dev nD) (t : Fin cfg4.N) (k : Fin 128) (q : Fin 128) :
    (iblk4 V c 6 t : Vec Ideal S128x128 .f32) (ix2 k q) = (V c (Pipeline.arrRef spec4 6)) (ix2 k q) := by
  obtain ⟨er, ec⟩ := idx6 t
  unfold iblk4
  rw [View.read_apply]
  refine congrArg (V c (Pipeline.arrRef spec4 6)) ?_
  funext a; apply Fin.ext
  match a with
  | ⟨0, _⟩ => show win4_6.index t (0 : Fin 2) * 128 + 1 * k.val = k.val; rw [er]; omega
  | ⟨1, _⟩ => show win4_6.index t (1 : Fin 2) * 128 + 1 * q.val = q.val; rw [ec]; omega
theorem rd7 (c : Dev nD) (t : Fin cfg4.N) (q : Fin 128) :
    (iblk4 V c 7 t : Vec Ideal S1x128 .f32) (ix2 (0 : Fin 1) q) = (V c (Pipeline.arrRef spec4 7)) (ix2 (0 : Fin 1) q) := by
  obtain ⟨er, ec⟩ := idx7 t
  unfold iblk4
  rw [View.read_apply]
  refine congrArg (V c (Pipeline.arrRef spec4 7)) ?_
  funext a; apply Fin.ext
  match a with
  | ⟨0, _⟩ => show win4_7.index t (0 : Fin 2) * 1 + 1 * 0 = 0; rw [er]
  | ⟨1, _⟩ => show win4_7.index t (1 : Fin 2) * 128 + 1 * q.val = q.val; rw [ec]; omega

/-- What point t writes back is block t of the whole-array map of the arrays as the call finds them. -/
theorem flushed_eq (c : Dev nD) (t : Fin cfg4.N) :
    (dat4 V c).flushed 8 t = ((cfg4.win 8).blk t).view.read (Elt Ideal) (G (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7))) := by
  show (cfg4.win 8).cut (grid4.coords t) ((dat4 V c).after 8 t) = _
  rw [after4_8]
  unfold out4_8
  rw [View.canon_unit_zero hz]
  simp only [View.ld_unit_zero (S := S2048x128) hz, View.ld_unit_zero (S := S2048x2) hz, View.ld_unit_zero (S := S2048x1) hz,
    View.ld_unit_zero (S := S130x128) hz, View.ld_unit_zero (S := S1x128) hz, View.ld_unit_zero (S := S128x128) hz]
  obtain ⟨er, ec⟩ := idx8 t
  funext j
  show k4_pay1 (F := Ideal) (iblk4 V c 0 t) (iblk4 V c 1 t) (iblk4 V c 4 t) (iblk4 V c 5 t) (iblk4 V c 6 t) (iblk4 V c 7 t) (iblk4 V c 2 t) (iblk4 V c 3 t) j
    = G (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (((cfg4.win 8).blk t).view.emb j)
  refine point (iblk4 V c 0 t) (iblk4 V c 1 t) (iblk4 V c 2 t) (iblk4 V c 3 t) (iblk4 V c 4 t) (iblk4 V c 5 t) (iblk4 V c 6 t) (iblk4 V c 7 t)
    (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7))
    (rowOf t) (rd0 V c t) (rd1 V c t) (rd2 V c t) (rd3 V c t) (rd4 V c t) (rd5 V c t) (rd6 V c t) (rd7 V c t) j (((cfg4.win 8).blk t).view.emb j) ?_ ?_
  · show win4_8.index t (0 : Fin 2) * 2048 + 1 * (j 0).val = 2048 * t.val + (j 0).val; rw [er]; omega
  · show win4_8.index t (1 : Fin 2) * 128 + 1 * (j 1).val = (j 1).val; rw [ec]; omega
/-- An index of the result array is in point t's block iff each coordinate is in the block's range on its axis. -/
theorem mem_blk (t : Fin cfg4.N) (i : S8192x128.Idx) :
    i ∈ ((cfg4.win 8).blk t).view.set ↔ ∀ a : Fin 2, win4_8.index t a * S2048x128.size a ≤ (i a).val ∧ (i a).val < win4_8.index t a * S2048x128.size a + S2048x128.size a := by
  show i ∈ ((View.whole main_v13).slice (win4_8.rect t)).set ↔ _
  rw [View.set_slice_whole, Rect.mem_set_unit]
  exact Iff.rfl

/-- After the call the result array holds the whole-array map: row r is written by point r / 2048. -/
theorem final (c : Dev nD) :
    (dat4 V c).arrAt 8 cfg4.N = G (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) := by
  refine (dat4 V c).arrAt_eq_of_cover 8 _ (fun t _ => flushed_eq V c t) fun i => ?_
  have hi0 : (i 0).val < 8192 := (i 0).isLt
  have hi1 : (i 1).val < 128 := (i 1).isLt
  refine ⟨⟨(i 0).val / 2048, by rw [show cfg4.N = 4 from N_4]; omega⟩, flush4_8 _, ?_⟩
  rw [mem_blk]
  obtain ⟨er, ec⟩ := idx8 ⟨(i 0).val / 2048, by rw [show cfg4.N = 4 from N_4]; omega⟩
  intro a
  match a with
  | ⟨0, _⟩ => show win4_8.index _ (0 : Fin 2) * 2048 ≤ (i 0).val ∧ (i 0).val < win4_8.index _ (0 : Fin 2) * 2048 + 2048; rw [er]; dsimp only; omega
  | ⟨1, _⟩ => show win4_8.index _ (1 : Fin 2) * 128 ≤ (i 1).val ∧ (i 1).val < win4_8.index _ (1 : Fin 2) * 128 + 128; rw [ec]; omega

end Cert.KernelIdeal.R4

end
-- ==== Proof.KV4.lean ====
import proofs.«179721_j30537217474923_1_alg».proof.Proof.Gen.KernelIdeal.Frame
import proofs.«179721_j30537217474923_1_alg».proof.Proof.Spec
import proofs.«179721_j30537217474923_1_alg».proof.Proof.LibMatmulAt
import proofs.«179721_j30537217474923_1_alg».proof.Proof.KV3
import proofs.«179721_j30537217474923_1_alg».proof.Proof.Region4
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.KV

open Idealize.ShloMosaic.ValueIdx Cert.KernelIdeal Cert.KernelIdeal.Gen Cert.Spec

variable (m : (ℓ : Loc nD τ sig) → Buf (Elt Ideal) ℓ) (ρ : Dev nD → PrngReg)

/-! ## What a stretch of host operations, or a call, leaves alone

A host operation rewrites its result array only; a call rewrites its result array only (its other arrays are read, and
end as they were entered; every array that is none of its own is untouched). -/

private theorem kv4_host0_keep (c : Dev nD) (b : Ref sig .tc) (h0 : b ≠ main_v0) (h1 : b ≠ main_v1) (h2 : b ≠ main_v2) :
    W1 m ρ c (Proc.devRef .tc b) = W0 m ρ c (Proc.devRef .tc b) := by
  show StableHlo.after hostOps0 (W0 m ρ c) (Proc.devRef .tc b) = _
  simp only [hostOps0, StableHlo.after_cons, StableHlo.after_nil]
  rw [StableHlo.binary_result_ne (h := h2), StableHlo.binary_result_ne (h := h1), StableHlo.unary_result_ne (h := h0)]

private theorem kv4_call0_keep (c : Dev nD) (b : Ref sig .tc) (h : b ≠ main_v3) :
    W2 m ρ c (Proc.devRef .tc b) = W1 m ρ c (Proc.devRef .tc b) := by
  by_cases hb : ∃ w, Pipeline.arrRef spec0 w = b
  · obtain ⟨w, rfl⟩ := hb
    have hin : (cfg0.win w).isOut = false := by
      revert w; decide
    exact (W2_arr m ρ c w).trans (((dat0 (V1 m ρ) c).arrAt_in w hin _).trans (A_eq0 (V1 m ρ) c w))
  · exact W2_of_ne m ρ c b fun w e => hb ⟨w, e⟩

private theorem kv4_host1_keep (c : Dev nD) (b : Ref sig .tc) (h4 : b ≠ main_v4) (h5 : b ≠ main_v5) (h6 : b ≠ main_v6) (h7 : b ≠ main_v7) :
    W3 m ρ c (Proc.devRef .tc b) = W2 m ρ c (Proc.devRef .tc b) := by
  show StableHlo.after hostOps1 (W2 m ρ c) (Proc.devRef .tc b) = _
  simp only [hostOps1, StableHlo.after_cons, StableHlo.after_nil]
  rw [StableHlo.reshape_result_ne (h := h7), StableHlo.reshape_result_ne (h := h6), StableHlo.unary_result_ne (h := h5), StableHlo.unary_result_ne (h := h4)]

private theorem kv4_call1_keep (c : Dev nD) (b : Ref sig .tc) (h : b ≠ main_v8) :
    W4 m ρ c (Proc.devRef .tc b) = W3 m ρ c (Proc.devRef .tc b) := by
  by_cases hb : ∃ w, Pipeline.arrRef spec1 w = b
  · obtain ⟨w, rfl⟩ := hb
    have hin : (cfg1.win w).isOut = false := by
      revert w; decide
    exact (W4_arr m ρ c w).trans (((dat1 (V3 m ρ) c).arrAt_in w hin _).trans (A_eq1 (V3 m ρ) c w))
  · exact W4_of_ne m ρ c b fun w e => hb ⟨w, e⟩

private theorem kv4_call2_keep (c : Dev nD) (b : Ref sig .tc) (h : b ≠ main_v9) :
    W5 m ρ c (Proc.devRef .tc b) = W4 m ρ c (Proc.devRef .tc b) := by
  by_cases hb : ∃ w, Pipeline.arrRef spec2 w = b
  · obtain ⟨w, rfl⟩ := hb
    have hin : (cfg2.win w).isOut = false := by
      revert w; decide
    exact (W5_arr m ρ c w).trans (((dat2 (V4 m ρ) c).arrAt_in w hin _).trans (A_eq2 (V4 m ρ) c w))
  · exact W5_of_ne m ρ c b fun w e => hb ⟨w, e⟩

private theorem kv4_call3_keep (c : Dev nD) (b : Ref sig .tc) (h : b ≠ main_v10) :
    W6 m ρ c (Proc.devRef .tc b) = W5 m ρ c (Proc.devRef .tc b) := by
  by_cases hb : ∃ w, Pipeline.arrRef spec3 w = b
  · obtain ⟨w, rfl⟩ := hb
    have hin : (cfg3.win w).isOut = false := by
      revert w; decide
    exact (W6_arr m ρ c w).trans (((dat3 (V5 m ρ) c).arrAt_in w hin _).trans (A_eq3 (V5 m ρ) c w))
  · exact W6_of_ne m ρ c b fun w e => hb ⟨w, e⟩

private theorem kv4_host4_keep (c : Dev nD) (b : Ref sig .tc) (h1 : b ≠ main_v11) (h2 : b ≠ main_v12) :
    W7 m ρ c (Proc.devRef .tc b) = W6 m ρ c (Proc.devRef .tc b) := by
  show StableHlo.after hostOps4 (W6 m ρ c) (Proc.devRef .tc b) = _
  simp only [hostOps4, StableHlo.after_cons, StableHlo.after_nil]
  rw [StableHlo.reshape_result_ne (h := h2), StableHlo.reshape_result_ne (h := h1)]

/-- An array nothing has written up to the fourth call's exit still holds what it was launched with. -/
private theorem kv4_W6_launch (c : Dev nD) (b : Ref sig .tc)
    (h : ∀ r ∈ [main_v0, main_v1, main_v2, main_v3, main_v4, main_v5, main_v6, main_v7, main_v8, main_v9, main_v10], b ≠ r) :
    W6 m ρ c (Proc.devRef .tc b) = m ((c : Thread nD τ).loc b) :=
  (kv4_call3_keep m ρ c b (h _ (by decide))).trans <| (kv4_call2_keep m ρ c b (h _ (by decide))).trans <|
    (kv4_call1_keep m ρ c b (h _ (by decide))).trans <|
    (kv4_host1_keep m ρ c b (h _ (by decide)) (h _ (by decide)) (h _ (by decide)) (h _ (by decide))).trans <|
    (kv4_call0_keep m ρ c b (h _ (by decide))).trans <|
    (kv4_host0_keep m ρ c b (h _ (by decide)) (h _ (by decide)) (h _ (by decide))).trans rfl

/-- The same at the fifth call's entry. -/
private theorem kv4_W7_launch (c : Dev nD) (b : Ref sig .tc)
    (h : ∀ r ∈ [main_v0, main_v1, main_v2, main_v3, main_v4, main_v5, main_v6, main_v7, main_v8, main_v9, main_v10, main_v11, main_v12], b ≠ r) :
    W7 m ρ c (Proc.devRef .tc b) = m ((c : Thread nD τ).loc b) :=
  (kv4_host4_keep m ρ c b (h _ (by decide)) (h _ (by decide))).trans
    (kv4_W6_launch m ρ c b fun r hr => h r (List.mem_of_mem_take (i := 11) hr))

/-- The per-edge mask, cut out before the second call, is still there at the fifth call's entry. -/
private theorem kv4_mask_W7 (c : Dev nD) :
    W7 m ρ c (Proc.devRef .tc main_v4) = (fun i : S8192x1.Idx => kMask (args m c) (i 0)) :=
  (kv4_host4_keep m ρ c main_v4 (by decide) (by decide)).trans <| (kv4_call3_keep m ρ c main_v4 (by decide)).trans <|
    (kv4_call2_keep m ρ c main_v4 (by decide)).trans <| (kv4_call1_keep m ρ c main_v4 (by decide)).trans (mask_eq m ρ c)

/-- A vector laid out as one row, read as a row, is the vector. -/
private theorem kv4_ofRow_reshape (y : Vec Ideal S128 .f32) (h : S128.ShapeCasts S1x128) :
    ofRow (fun i => shapeCast S1x128 y h i) = ofV1 y :=
  funext fun q => shapeCast_a_1a_apply y h 0 q

/-- The first bias of the fifth call: the host lays the launched vector out as one row. -/
private theorem in5 (c : Dev nD) : ofRow (V7 m ρ c (Pipeline.arrRef spec4 5)) = ofV1 (args m c).x17 := by
  have e : V7 m ρ c (Pipeline.arrRef spec4 5)
      = fun i => shapeCast S1x128 (W6 m ρ c (Proc.devRef .tc main_arg17)) shapeCasts_S128_S1x128 i := by
    show StableHlo.after hostOps4 (W6 m ρ c) (Proc.devRef .tc main_v11) = _
    after_results
    rfl
  rw [e, kv4_W6_launch m ρ c main_arg17 (by decide)]
  exact kv4_ofRow_reshape _ _

/-- The second bias of the fifth call, likewise. -/
private theorem in7 (c : Dev nD) : ofRow (V7 m ρ c (Pipeline.arrRef spec4 7)) = ofV1 (args m c).x19 := by
  have e : V7 m ρ c (Pipeline.arrRef spec4 7)
      = fun i => shapeCast S1x128 (W6 m ρ c (Proc.devRef .tc main_arg19)) shapeCasts_S128_S1x128 i := by
    show StableHlo.after hostOps4 (W6 m ρ c) (Proc.devRef .tc main_v12) = _
    after_results
    rfl
  rw [e, kv4_W6_launch m ρ c main_arg19 (by decide)]
  exact kv4_ofRow_reshape _ _

/-- After the fifth call: the new function state. The call's result is the tail map of its eight inputs; the first is
    the aggregated messages left by the fourth call, the third is the mask, the two bias rows are the launched vectors
    laid out as rows, and the rest are launched arrays nothing has written. -/
theorem fs_eq (c : Dev nD) : W8 m ρ c (Proc.devRef .tc main_v13) = toV (kFs (args m c)) := by
  refine ((W8_arr m ρ c 8).trans (R4.final (V7 m ρ) c)).trans ?_
  have e0 : V7 m ρ c (Pipeline.arrRef spec4 0) = toV (kAggV (args m c)) :=
    (kv4_host4_keep m ρ c main_v10 (by decide) (by decide)).trans (aggv_eq m ρ c)
  have e1 : V7 m ρ c (Pipeline.arrRef spec4 1) = (args m c).x4 := kv4_W7_launch m ρ c main_arg4 (by decide)
  have e2 : V7 m ρ c (Pipeline.arrRef spec4 2) = (fun i : S8192x1.Idx => kMask (args m c) (i 0)) := kv4_mask_W7 m ρ c
  have e3 : V7 m ρ c (Pipeline.arrRef spec4 3) = (args m c).x1 := kv4_W7_launch m ρ c main_arg1 (by decide)
  have e4 : V7 m ρ c (Pipeline.arrRef spec4 4) = (args m c).x16 := kv4_W7_launch m ρ c main_arg16 (by decide)
  have e6 : V7 m ρ c (Pipeline.arrRef spec4 6) = (args m c).x18 := kv4_W7_launch m ρ c main_arg18 (by decide)
  unfold R4.G kFs
  rw [e0, e1, e2, e3, e4, e6, in5, in7, ofV_toV]
  rfl

end Cert.KernelIdeal.KV

end
-- ==== Proof.Region5.lean ====
/-
  One call of the two-layer map applied to every edge before the node sums.

  The call works on four blocks of 2048 rows. At block t it loads rows 2048·t … 2048·t + 2047 of the decimator state
  (128 columns), of the edge features (2 columns) and of the per-edge graph features (4 columns), and the whole of
  the two weight matrices (134 × 256 and 256 × 128) and of the two bias rows. It joins the three row blocks side by
  side into a 2048 × 134 matrix, multiplies by the first weight matrix (into a zero accumulator; the change of number
  format before each product is the identity on the extended reals), adds the first bias row to every row, takes the
  maximum with 0, multiplies by the second weight matrix, adds the second bias row to every row, and stores the
  2048 × 128 result as rows 2048·t … of the result array.
  Row p of the result depends on row p of the three row-indexed operands only, so block t of the result is block t
  of the same map applied to the WHOLE arrays; the four blocks tile the result, so after the call the result array
  holds that map of the arrays the call reads.
-/
import proofs.«179721_j30537217474923_1_alg».proof.Proof.Gen.KernelIdeal.Frame
import proofs.«179721_j30537217474923_1_alg».proof.Proof.Spec
import proofs.«179721_j30537217474923_1_alg».proof.Proof.LibMatmulAt
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.R5

open Idealize.ShloMosaic.ValueIdx Cert.KernelIdeal Cert.KernelIdeal.Gen Cert.Spec

/-! ## Where the two products' dimension numbers read their operands -/

theorem d1_l0 (i : S2048x256.Idx) (q : dot_S2048x134_S134x256_S2048x256_1_0_0_1_n_n.contr.Idx) : (dot_S2048x134_S134x256_S2048x256_1_0_0_1_n_n.lhsIdx i q 0).val = (i 0).val := by
  unfold DotDims.lhsIdx
  rw [dif_neg (show ¬(0 : Fin S2048x134.rank) ∈ dot_S2048x134_S134x256_S2048x256_1_0_0_1_n_n.lhsBatch by decide), dif_pos (show (0 : Fin S2048x134.rank) ∈ dot_S2048x134_S134x256_S2048x256_1_0_0_1_n_n.lhsNonContracting by decide)]
  rfl
theorem d1_l1 (i : S2048x256.Idx) (q : dot_S2048x134_S134x256_S2048x256_1_0_0_1_n_n.contr.Idx) : (dot_S2048x134_S134x256_S2048x256_1_0_0_1_n_n.lhsIdx i q 1).val = (q ⟨0, by decide⟩).val :=
  dot_S2048x134_S134x256_S2048x256_1_0_0_1_n_n.lhsIdx_val_of_single rfl i q
theorem d1_r0 (i : S2048x256.Idx) (q : dot_S2048x134_S134x256_S2048x256_1_0_0_1_n_n.contr.Idx) : (dot_S2048x134_S134x256_S2048x256_1_0_0_1_n_n.rhsIdx i q 0).val = (q ⟨0, by decide⟩).val :=
  dot_S2048x134_S134x256_S2048x256_1_0_0_1_n_n.rhsIdx_val_of_single rfl i q
theorem d1_r1 (i : S2048x256.Idx) (q : dot_S2048x134_S134x256_S2048x256_1_0_0_1_n_n.contr.Idx) : (dot_S2048x134_S134x256_S2048x256_1_0_0_1_n_n.rhsIdx i q 1).val = (i 1).val := by
  unfold DotDims.rhsIdx
  rw [dif_neg (show ¬(1 : Fin S134x256.rank) ∈ dot_S2048x134_S134x256_S2048x256_1_0_0_1_n_n.rhsBatch by decide), dif_pos (show (1 : Fin S134x256.rank) ∈ dot_S2048x134_S134x256_S2048x256_1_0_0_1_n_n.rhsNonContracting by decide)]
  rfl

theorem d2_l0 (i : S2048x128.Idx) (q : dot_S2048x256_S256x128_S2048x128_1_0_0_1_n_n.contr.Idx) : (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem d2_l1 (i : S2048x128.Idx) (q : dot_S2048x256_S256x128_S2048x128_1_0_0_1_n_n.contr.Idx) : (dot_S2048x256_S256x128_S2048x128_1_0_0_1_n_n.lhsIdx i q 1).val = (q ⟨0, by decide⟩).val :=
  dot_S2048x256_S256x128_S2048x128_1_0_0_1_n_n.lhsIdx_val_of_single rfl i q
theorem d2_r0 (i : S2048x128.Idx) (q : dot_S2048x256_S256x128_S2048x128_1_0_0_1_n_n.contr.Idx) : (dot_S2048x256_S256x128_S2048x128_1_0_0_1_n_n.rhsIdx i q 0).val = (q ⟨0, by decide⟩).val :=
  dot_S2048x256_S256x128_S2048x128_1_0_0_1_n_n.rhsIdx_val_of_single rfl i q
theorem d2_r1 (i : S2048x128.Idx) (q : dot_S2048x256_S256x128_S2048x128_1_0_0_1_n_n.contr.Idx) : (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-! ## The pieces of the body's value at an entry -/

/-- A one-row array repeated over M rows, read at (p, q), is the row's entry q. -/
theorem row_bcast_at {M N : Nat} (hN : N ≠ 1) (x : (⟨2, ![1, N]⟩ : Shape).Idx → EReal)
    (h : (⟨2, ![1, N]⟩ : Shape).Broadcasts (⟨2, ![M, N]⟩ : Shape)) (p : Fin M) (q : Fin N) :
    broadcastTo (⟨2, ![M, N]⟩ : Shape) x h (ix2 p q) = x (ix2 0 q) := by
  refine broadcastTo_apply x h (ix2 p q) (ix2 0 q) fun a => ?_
  match a with
  | ⟨0, _⟩ => exact (if_pos rfl).symm
  | ⟨1, _⟩ => exact (if_neg hN).symm

/-- The three blocks joined along the columns, read at (p, k): the block whose column range holds k, at k less the
    widths before it. -/
theorem cat_at (x0 : Vec Ideal S2048x128 .f32) (x1 : Vec Ideal S2048x2 .f32) (x2 : Vec Ideal S2048x4 .f32) (p : Fin 2048) (k : Fin 134) :
    concatenate S2048x134 1 [⟨S2048x128, x0⟩, ⟨S2048x2, x1⟩, ⟨S2048x4, x2⟩] concatenates_S2048x128_S2048x2_S2048x4_S2048x134_d1 (ix2 p k)
      = cat3 (ofV x0) (ofV x1) (ofV x2) p k := by
  have hk := k.isLt
  unfold cat3
  by_cases h : k.val < 128
  · rw [dif_pos h]
    refine concatenate_apply_piece (t := S2048x134) 1 _ _ (ix2 p k) 0 (by show (0 : Nat) < 3; omega) S2048x128 x0 rfl rfl 0 rfl (ix2 p ⟨k.val, h⟩) ?_ ?_
    · intro b hb
      match b with
      | ⟨0, _⟩ => rfl
      | ⟨1, _⟩ => exact absurd (Fin.ext rfl) hb
    · show 0 + k.val = k.val; omega
  · rw [dif_neg h]
    by_cases h2 : k.val < 130
    · rw [dif_pos h2]
      refine concatenate_apply_piece (t := S2048x134) 1 _ _ (ix2 p k) 1 (by show (1 : Nat) < 3; omega) S2048x2 x1 rfl rfl 128 rfl (ix2 p ⟨k.val - 128, by omega⟩) ?_ ?_
      · intro b hb
        match b with
        | ⟨0, _⟩ => rfl
        | ⟨1, _⟩ => exact absurd (Fin.ext rfl) hb
      · show 128 + (k.val - 128) = k.val; omega
    · rw [dif_neg h2]
      refine concatenate_apply_piece (t := S2048x134) 1 _ _ (ix2 p k) 2 (by show (2 : Nat) < 3; omega) S2048x4 x2 rfl rfl 130 rfl (ix2 p ⟨k.val - 130, by omega⟩) ?_ ?_
      · intro b hb
        match b with
        | ⟨0, _⟩ => rfl
        | ⟨1, _⟩ => exact absurd (Fin.ext rfl) hb
      · show 130 + (k.val - 130) = k.val; omega

/-! ## The body's value at an entry -/

/-- Entry (p, q) of what the body stores is the two-layer map of the loaded blocks at (p, q): the changes of number
    format before each product are the identity on the extended reals, each product is into a zero accumulator, each
    bias row is repeated over the rows, and the maximum is with the zero word. -/
theorem pay_at (x0 : Vec Ideal S2048x128 .f32) (x1 : Vec Ideal S2048x2 .f32) (x2 : Vec Ideal S2048x4 .f32) (x3 : Vec Ideal S134x256 .f32) (x4 : Vec Ideal S1x256 .f32) (x5 : Vec Ideal S256x128 .f32) (x6 : Vec Ideal S1x128 .f32) (p : Fin 2048) (q : Fin 128) :
    k5_pay1 (F := Ideal) x0 x1 x2 x3 x4 x5 x6 (ix2 p q) = head (ofV x0) (ofV x1) (ofV x2) (ofV x3) (ofRow x4) (ofV x5) (ofRow x6) p q := by
  unfold k5_pay1
  rw [shapeCast_self, shapeCast_self, shapeCast_self, addf_apply]
  unfold head
  refine congrArg₂ (fun a b : EReal => a + b) ?_ (row_bcast_at (by decide) x6 _ p q)
  refine (MatmulAt.matmul_zero_at dot_S2048x256_S256x128_S2048x128_1_0_0_1_n_n rfl rfl d2_l0 d2_l1 d2_r0 d2_r1 none _ _ p q).trans ?_
  unfold mm
  refine Finset.sum_congr rfl fun k _ => ?_
  refine congrArg₂ (fun a b : EReal => a * b) ?_ rfl
  rw [truncf_apply, maximumf_apply, addf_apply]
  unfold relu
  refine congrArg₂ (fun a b : EReal => max a b) (congrArg₂ (fun a b : EReal => a + b) ?_ (row_bcast_at (by decide) x4 _ p k)) Ideal.ofBits_zero_f32
  refine (MatmulAt.matmul_zero_at dot_S2048x134_S134x256_S2048x256_1_0_0_1_n_n rfl rfl d1_l0 d1_l1 d1_r0 d1_r1 none _ _ p k).trans ?_
  refine Finset.sum_congr rfl fun m _ => ?_
  exact congrArg₂ (fun a b : EReal => a * b) (cat_at x0 x1 x2 p m) rfl

/-- What the result array holds after the call, as a function of the arrays the call reads. -/
def G (a0 : Vec Ideal S8192x128 .f32) (a1 : Vec Ideal S8192x2 .f32) (a2 : Vec Ideal S8192x4 .f32) (a3 : Vec Ideal S134x256 .f32) (a4 : Vec Ideal S1x256 .f32) (a5 : Vec Ideal S256x128 .f32) (a6 : Vec Ideal S1x128 .f32) : Vec Ideal S8192x128 .f32 :=
  toV (head (ofV a0) (ofV a1) (ofV a2) (ofV a3) (ofRow a4) (ofV a5) (ofRow a6))

/-- If the three row blocks are rows `r p` of their arrays and the weights and biases are their arrays, the body's
    value at `y` is the whole map at the index with row `r (y 0)` and `y`'s column. -/
theorem point (x0 : Vec Ideal S2048x128 .f32) (x1 : Vec Ideal S2048x2 .f32) (x2 : Vec Ideal S2048x4 .f32) (x3 : Vec Ideal S134x256 .f32) (x4 : Vec Ideal S1x256 .f32) (x5 : Vec Ideal S256x128 .f32) (x6 : Vec Ideal S1x128 .f32)
    (a0 : Vec Ideal S8192x128 .f32) (a1 : Vec Ideal S8192x2 .f32) (a2 : Vec Ideal S8192x4 .f32) (a3 : Vec Ideal S134x256 .f32) (a4 : Vec Ideal S1x256 .f32) (a5 : Vec Ideal S256x128 .f32) (a6 : Vec Ideal S1x128 .f32)
    (r : Fin 2048 → Fin 8192)
    (h0 : ∀ (p : Fin 2048) (k : Fin 128), x0 (ix2 p k) = a0 (ix2 (r p) k))
    (h1 : ∀ (p : Fin 2048) (k : Fin 2), x1 (ix2 p k) = a1 (ix2 (r p) k))
    (h2 : ∀ (p : Fin 2048) (k : Fin 4), x2 (ix2 p k) = a2 (ix2 (r p) k))
    (h3 : ∀ (k : Fin 134) (q : Fin 256), x3 (ix2 k q) = a3 (ix2 k q))
    (h4 : ∀ q : Fin 256, x4 (ix2 0 q) = a4 (ix2 0 q))
    (h5 : ∀ (k : Fin 256) (q : Fin 128), x5 (ix2 k q) = a5 (ix2 k q))
    (h6 : ∀ q : Fin 128, x6 (ix2 0 q) = a6 (ix2 0 q))
    (y : S2048x128.Idx) (i : S8192x128.Idx) (hi0 : (i 0).val = (r (y 0)).val) (hi1 : (i 1).val = (y 1).val) :
    k5_pay1 (F := Ideal) x0 x1 x2 x3 x4 x5 x6 y = G a0 a1 a2 a3 a4 a5 a6 i := by
  obtain ⟨p, q, rfl⟩ : ∃ (p : Fin 2048) (q : Fin 128), y = ix2 p q := ⟨y 0, y 1, eq_ix2 y⟩
  rw [pay_at]
  have e0 : i 0 = r p := Fin.ext hi0
  have e1 : i 1 = q := Fin.ext hi1
  show head (ofV x0) (ofV x1) (ofV x2) (ofV x3) (ofRow x4) (ofV x5) (ofRow x6) p q
    = head (ofV a0) (ofV a1) (ofV a2) (ofV a3) (ofRow a4) (ofV a5) (ofRow a6) (i 0) (i 1)
  rw [e0, e1]
  have hx0 : ofV x0 = fun p k => ofV a0 (r p) k := funext fun p => funext fun k => h0 p k
  have hx1 : ofV x1 = fun p k => ofV a1 (r p) k := funext fun p => funext fun k => h1 p k
  have hx2 : ofV x2 = fun p k => ofV a2 (r p) k := funext fun p => funext fun k => h2 p k
  have hx3 : ofV x3 = ofV a3 := funext fun k => funext fun q => h3 k q
  have hx4 : ofRow x4 = ofRow a4 := funext fun q => h4 q
  have hx5 : ofV x5 = ofV a5 := funext fun k => funext fun q => h5 k q
  have hx6 : ofRow x6 = ofRow a6 := funext fun q => h6 q
  rw [hx0, hx1, hx2, hx3, hx4, hx5, hx6]
  exact head_rows r (ofV a0) (ofV a1) (ofV a2) (ofV a3) (ofRow a4) (ofV a5) (ofRow a6) p q

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-! The printed index maps, decided over the grid: at point t the three row-blocked windows and the result window are
    at block row t, the two weight windows and the two bias windows at block (0, 0). -/

theorem idx0 : ∀ t : Fin cfg5.N, win5_0.index t (0 : Fin 2) = t.val ∧ win5_0.index t (1 : Fin 2) = 0 :=
  (by decide +kernel : ∀ t : Fin grid5.N, _)
theorem idx1 : ∀ t : Fin cfg5.N, win5_1.index t (0 : Fin 2) = t.val ∧ win5_1.index t (1 : Fin 2) = 0 :=
  (by decide +kernel : ∀ t : Fin grid5.N, _)
theorem idx2 : ∀ t : Fin cfg5.N, win5_2.index t (0 : Fin 2) = t.val ∧ win5_2.index t (1 : Fin 2) = 0 :=
  (by decide +kernel : ∀ t : Fin grid5.N, _)
theorem idx3 : ∀ t : Fin cfg5.N, win5_3.index t (0 : Fin 2) = 0 ∧ win5_3.index t (1 : Fin 2) = 0 :=
  (by decide +kernel : ∀ t : Fin grid5.N, _)
theorem idx4 : ∀ t : Fin cfg5.N, win5_4.index t (0 : Fin 2) = 0 ∧ win5_4.index t (1 : Fin 2) = 0 :=
  (by decide +kernel : ∀ t : Fin grid5.N, _)
theorem idx5 : ∀ t : Fin cfg5.N, win5_5.index t (0 : Fin 2) = 0 ∧ win5_5.index t (1 : Fin 2) = 0 :=
  (by decide +kernel : ∀ t : Fin grid5.N, _)
theorem idx6 : ∀ t : Fin cfg5.N, win5_6.index t (0 : Fin 2) = 0 ∧ win5_6.index t (1 : Fin 2) = 0 :=
  (by decide +kernel : ∀ t : Fin grid5.N, _)
theorem idx7 : ∀ t : Fin cfg5.N, win5_7.index t (0 : Fin 2) = t.val ∧ win5_7.index t (1 : Fin 2) = 0 :=
  (by decide +kernel : ∀ t : Fin grid5.N, _)

/-- Row p of block t is row 2048·t + p of the array. -/
def rowOf (t : Fin cfg5.N) (p : Fin 2048) : Fin 8192 :=
  ⟨2048 * t.val + p.val, by have := p.isLt; have := Nat.lt_of_lt_of_eq t.isLt N_5; omega⟩

/-! Each window's block at point t, read at an entry, is its array at the entry the block's position sends it to: a
    block's coordinate is its block index times the block's extent plus the coordinate inside the block. -/

theorem rd0 (c : Dev nD) (t : Fin cfg5.N) (p : Fin 2048) (k : Fin 128) :
    (iblk5 V c 0 t : Vec Ideal S2048x128 .f32) (ix2 p k) = (V c (Pipeline.arrRef spec5 0)) (ix2 (rowOf t p) k) := by
  obtain ⟨er, ec⟩ := idx0 t
  unfold iblk5
  rw [View.read_apply]
  refine congrArg (V c (Pipeline.arrRef spec5 0)) ?_
  funext a; apply Fin.ext
  match a with
  | ⟨0, _⟩ => show win5_0.index t (0 : Fin 2) * 2048 + 1 * p.val = 2048 * t.val + p.val; rw [er]; omega
  | ⟨1, _⟩ => show win5_0.index t (1 : Fin 2) * 128 + 1 * k.val = k.val; rw [ec]; omega
theorem rd1 (c : Dev nD) (t : Fin cfg5.N) (p : Fin 2048) (k : Fin 2) :
    (iblk5 V c 1 t : Vec Ideal S2048x2 .f32) (ix2 p k) = (V c (Pipeline.arrRef spec5 1)) (ix2 (rowOf t p) k) := by
  obtain ⟨er, ec⟩ := idx1 t
  unfold iblk5
  rw [View.read_apply]
  refine congrArg (V c (Pipeline.arrRef spec5 1)) ?_
  funext a; apply Fin.ext
  match a with
  | ⟨0, _⟩ => show win5_1.index t (0 : Fin 2) * 2048 + 1 * p.val = 2048 * t.val + p.val; rw [er]; omega
  | ⟨1, _⟩ => show win5_1.index t (1 : Fin 2) * 2 + 1 * k.val = k.val; rw [ec]; omega
theorem rd2 (c : Dev nD) (t : Fin cfg5.N) (p : Fin 2048) (k : Fin 4) :
    (iblk5 V c 2 t : Vec Ideal S2048x4 .f32) (ix2 p k) = (V c (Pipeline.arrRef spec5 2)) (ix2 (rowOf t p) k) := by
  obtain ⟨er, ec⟩ := idx2 t
  unfold iblk5
  rw [View.read_apply]
  refine congrArg (V c (Pipeline.arrRef spec5 2)) ?_
  funext a; apply Fin.ext
  match a with
  | ⟨0, _⟩ => show win5_2.index t (0 : Fin 2) * 2048 + 1 * p.val = 2048 * t.val + p.val; rw [er]; omega
  | ⟨1, _⟩ => show win5_2.index t (1 : Fin 2) * 4 + 1 * k.val = k.val; rw [ec]; omega
theorem rd3 (c : Dev nD) (t : Fin cfg5.N) (k : Fin 134) (q : Fin 256) :
    (iblk5 V c 3 t : Vec Ideal S134x256 .f32) (ix2 k q) = (V c (Pipeline.arrRef spec5 3)) (ix2 k q) := by
  obtain ⟨er, ec⟩ := idx3 t
  unfold iblk5
  rw [View.read_apply]
  refine congrArg (V c (Pipeline.arrRef spec5 3)) ?_
  funext a; apply Fin.ext
  match a with
  | ⟨0, _⟩ => show win5_3.index t (0 : Fin 2) * 134 + 1 * k.val = k.val; rw [er]; omega
  | ⟨1, _⟩ => show win5_3.index t (1 : Fin 2) * 256 + 1 * q.val = q.val; rw [ec]; omega
theorem rd4 (c : Dev nD) (t : Fin cfg5.N) (q : Fin 256) :
    (iblk5 V c 4 t : Vec Ideal S1x256 .f32) (ix2 0 q) = (V c (Pipeline.arrRef spec5 4)) (ix2 0 q) := by
  obtain ⟨er, ec⟩ := idx4 t
  unfold iblk5
  rw [View.read_apply]
  refine congrArg (V c (Pipeline.arrRef spec5 4)) ?_
  funext a; apply Fin.ext
  match a with
  | ⟨0, _⟩ => show win5_4.index t (0 : Fin 2) * 1 + 1 * 0 = 0; rw [er]
  | ⟨1, _⟩ => show win5_4.index t (1 : Fin 2) * 256 + 1 * q.val = q.val; rw [ec]; omega
theorem rd5 (c : Dev nD) (t : Fin cfg5.N) (k : Fin 256) (q : Fin 128) :
    (iblk5 V c 5 t : Vec Ideal S256x128 .f32) (ix2 k q) = (V c (Pipeline.arrRef spec5 5)) (ix2 k q) := by
  obtain ⟨er, ec⟩ := idx5 t
  unfold iblk5
  rw [View.read_apply]
  refine congrArg (V c (Pipeline.arrRef spec5 5)) ?_
  funext a; apply Fin.ext
  match a with
  | ⟨0, _⟩ => show win5_5.index t (0 : Fin 2) * 256 + 1 * k.val = k.val; rw [er]; omega
  | ⟨1, _⟩ => show win5_5.index t (1 : Fin 2) * 128 + 1 * q.val = q.val; rw [ec]; omega
theorem rd6 (c : Dev nD) (t : Fin cfg5.N) (q : Fin 128) :
    (iblk5 V c 6 t : Vec Ideal S1x128 .f32) (ix2 0 q) = (V c (Pipeline.arrRef spec5 6)) (ix2 0 q) := by
  obtain ⟨er, ec⟩ := idx6 t
  unfold iblk5
  rw [View.read_apply]
  refine congrArg (V c (Pipeline.arrRef spec5 6)) ?_
  funext a; apply Fin.ext
  match a with
  | ⟨0, _⟩ => show win5_6.index t (0 : Fin 2) * 1 + 1 * 0 = 0; rw [er]
  | ⟨1, _⟩ => show win5_6.index t (1 : Fin 2) * 128 + 1 * q.val = q.val; rw [ec]; omega

/-- What point t writes back is block t of the map of the arrays as the call finds them. -/
theorem flushed_eq (c : Dev nD) (t : Fin cfg5.N) :
    (dat5 V c).flushed 7 t = ((cfg5.win 7).blk t).view.read (Elt Ideal) (G (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))) := by
  show (cfg5.win 7).cut (grid5.coords t) ((dat5 V c).after 7 t) = _
  rw [after5_7]
  unfold out5_7
  rw [View.canon_unit_zero hz]
  simp only [View.ld_unit_zero (S := S2048x128) hz, View.ld_unit_zero (S := S2048x2) hz, View.ld_unit_zero (S := S2048x4) hz, View.ld_unit_zero (S := S134x256) hz, View.ld_unit_zero (S := S1x256) hz, View.ld_unit_zero (S := S256x128) hz, View.ld_unit_zero (S := S1x128) hz]
  obtain ⟨er, ec⟩ := idx7 t
  funext j
  show k5_pay1 (F := Ideal) (iblk5 V c 0 t) (iblk5 V c 1 t) (iblk5 V c 2 t) (iblk5 V c 3 t) (iblk5 V c 4 t) (iblk5 V c 5 t) (iblk5 V c 6 t) j
    = G (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (((cfg5.win 7).blk t).view.emb j)
  refine point (iblk5 V c 0 t) (iblk5 V c 1 t) (iblk5 V c 2 t) (iblk5 V c 3 t) (iblk5 V c 4 t) (iblk5 V c 5 t) (iblk5 V c 6 t)
    (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))
    (rowOf t) (rd0 V c t) (rd1 V c t) (rd2 V c t) (rd3 V c t) (rd4 V c t) (rd5 V c t) (rd6 V c t) j (((cfg5.win 7).blk t).view.emb j) ?_ ?_
  · show win5_7.index t (0 : Fin 2) * 2048 + 1 * (j 0).val = 2048 * t.val + (j 0).val; rw [er]; omega
  · show win5_7.index t (1 : Fin 2) * 128 + 1 * (j 1).val = (j 1).val; rw [ec]; omega

/-- An index of the result array is in point t's block iff each coordinate is in the block's range on its axis. -/
theorem mem_blk (t : Fin cfg5.N) (i : S8192x128.Idx) :
    i ∈ ((cfg5.win 7).blk t).view.set ↔ ∀ a : Fin 2, win5_7.index t a * S2048x128.size a ≤ (i a).val ∧ (i a).val < win5_7.index t a * S2048x128.size a + S2048x128.size a := by
  show i ∈ ((View.whole main_v16).slice (win5_7.rect t)).set ↔ _
  rw [View.set_slice_whole, Rect.mem_set_unit]
  exact Iff.rfl

/-- After the call the result array holds the map of the arrays it read: row r is written by point r / 2048. -/
theorem final (c : Dev nD) :
    (dat5 V c).arrAt 7 cfg5.N = G (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) := by
  refine (dat5 V c).arrAt_eq_of_cover 7 _ (fun t _ => flushed_eq V c t) fun i => ?_
  have hi0 : (i 0).val < 8192 := (i 0).isLt
  have hi1 : (i 1).val < 128 := (i 1).isLt
  refine ⟨⟨(i 0).val / 2048, by rw [show cfg5.N = 4 from N_5]; omega⟩, flush5_7 _, ?_⟩
  rw [mem_blk]
  obtain ⟨er, ec⟩ := idx7 ⟨(i 0).val / 2048, by rw [show cfg5.N = 4 from N_5]; omega⟩
  intro a
  match a with
  | ⟨0, _⟩ => show win5_7.index _ (0 : Fin 2) * 2048 ≤ (i 0).val ∧ (i 0).val < win5_7.index _ (0 : Fin 2) * 2048 + 2048; rw [er]; dsimp only; omega
  | ⟨1, _⟩ => show win5_7.index _ (1 : Fin 2) * 128 ≤ (i 1).val ∧ (i 1).val < win5_7.index _ (1 : Fin 2) * 128 + 128; rw [ec]; omega

end Cert.KernelIdeal.R5

end
-- ==== Proof.KV5.lean ====
/-
  The sixth call: the function branch's per-edge messages.

  The call applies the two-layer map `head` to seven arrays: the function branch's decimator state, the edge features,
  the per-edge graph features, and two weight matrices each with its bias row. What the result array holds after the
  call is `head` of those seven arrays as the call finds them, so it remains to say what each holds at that moment.

  * The decimator state, the edge features and the two weight matrices are inputs of the whole program. No host
    operation writes them, and the calls before this one either do not touch them or only read them (the edge features
    are read by the second and the fifth call), so each still holds what it held at launch.
  * The graph features were cut out by the host before the second call; since then the second call has read them and
    nothing has written them, so they are still columns 1 to 4 of the first call's result.
  * Each bias row is the host's reshape, just before this call, of a launched vector of length N to a 1 × N array.
    Entry (0, q) of that array is entry q of the vector: both sit at position q in row-major order.

  With the seven arrays so identified the result is `head` of exactly the arguments in the definition of `kHf`.
-/
import proofs.«179721_j30537217474923_1_alg».proof.Proof.Gen.KernelIdeal.Frame
import proofs.«179721_j30537217474923_1_alg».proof.Proof.Spec
import proofs.«179721_j30537217474923_1_alg».proof.Proof.LibMatmulAt
import proofs.«179721_j30537217474923_1_alg».proof.Proof.KV2
import proofs.«179721_j30537217474923_1_alg».proof.Proof.Region5
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.KV

open Idealize.ShloMosaic.ValueIdx Cert.KernelIdeal Cert.KernelIdeal.Gen Cert.Spec

variable (m : (ℓ : Loc nD τ sig) → Buf (Elt Ideal) ℓ) (ρ : Dev nD → PrngReg)

/-- The function branch's decimator state enters the sixth call as launched. -/
private theorem w9_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_forall_not_mem (b := Proc.devRef .tc main_arg3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The edge features enter the sixth call as launched: the second and fifth calls only read them. -/
private theorem w9_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_forall_not_mem (b := Proc.devRef .tc main_arg4) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := (W8_arr m ρ c 1).trans (((dat4 (V7 m ρ) c).arrAt_in 1 rfl _).trans (A_eq4 (V7 m ρ) c 1))
    _ = W6 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := (W4_arr m ρ c 1).trans (((dat1 (V3 m ρ) c).arrAt_in 1 rfl _).trans (A_eq1 (V3 m ρ) c 1))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The first weight matrix enters the sixth call as launched. -/
private theorem w9_arg20 (c : Dev nD) : W9 m ρ c (Proc.devRef .tc main_arg20) = m ((c : Thread nD τ).loc main_arg20) :=
  calc W9 m ρ c (Proc.devRef .tc main_arg20)
    _ = W8 m ρ c (Proc.devRef .tc main_arg20) := StableHlo.after_of_forall_not_mem (b := Proc.devRef .tc main_arg20) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg20) := W8_of_ne m ρ c main_arg20 (by decide)
    _ = W6 m ρ c (Proc.devRef .tc main_arg20) := StableHlo.after_of_forall_not_mem (b := Proc.devRef .tc main_arg20) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg20) := W6_of_ne m ρ c main_arg20 (by decide)
    _ = W4 m ρ c (Proc.devRef .tc main_arg20) := W5_of_ne m ρ c main_arg20 (by decide)
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

/-- The second weight matrix enters the sixth call as launched. -/
private theorem w9_arg22 (c : Dev nD) : W9 m ρ c (Proc.devRef .tc main_arg22) = m ((c : Thread nD τ).loc main_arg22) :=
  calc W9 m ρ c (Proc.devRef .tc main_arg22)
    _ = W8 m ρ c (Proc.devRef .tc main_arg22) := StableHlo.after_of_forall_not_mem (b := Proc.devRef .tc main_arg22) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg22) := W8_of_ne m ρ c main_arg22 (by decide)
    _ = W6 m ρ c (Proc.devRef .tc main_arg22) := StableHlo.after_of_forall_not_mem (b := Proc.devRef .tc main_arg22) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg22) := W6_of_ne m ρ c main_arg22 (by decide)
    _ = W4 m ρ c (Proc.devRef .tc main_arg22) := W5_of_ne m ρ c main_arg22 (by decide)
    _ = W3 m ρ c (Proc.devRef .tc main_arg22) := W4_of_ne m ρ c main_arg22 (by decide)
    _ = W2 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg22) := rfl

/-- The first bias is as launched when the host reshapes it. -/
private theorem w8_arg21 (c : Dev nD) : W8 m ρ c (Proc.devRef .tc main_arg21) = m ((c : Thread nD τ).loc main_arg21) :=
  calc W8 m ρ c (Proc.devRef .tc main_arg21)
    _ = W7 m ρ c (Proc.devRef .tc main_arg21) := W8_of_ne m ρ c main_arg21 (by decide)
    _ = W6 m ρ c (Proc.devRef .tc main_arg21) := StableHlo.after_of_forall_not_mem (b := Proc.devRef .tc main_arg21) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg21) := W6_of_ne m ρ c main_arg21 (by decide)
    _ = W4 m ρ c (Proc.devRef .tc main_arg21) := W5_of_ne m ρ c main_arg21 (by decide)
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg21) := rfl

/-- The second bias is as launched when the host reshapes it. -/
private theorem w8_arg23 (c : Dev nD) : W8 m ρ c (Proc.devRef .tc main_arg23) = m ((c : Thread nD τ).loc main_arg23) :=
  calc W8 m ρ c (Proc.devRef .tc main_arg23)
    _ = W7 m ρ c (Proc.devRef .tc main_arg23) := W8_of_ne m ρ c main_arg23 (by decide)
    _ = W6 m ρ c (Proc.devRef .tc main_arg23) := StableHlo.after_of_forall_not_mem (b := Proc.devRef .tc main_arg23) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg23) := W6_of_ne m ρ c main_arg23 (by decide)
    _ = W4 m ρ c (Proc.devRef .tc main_arg23) := W5_of_ne m ρ c main_arg23 (by decide)
    _ = W3 m ρ c (Proc.devRef .tc main_arg23) := W4_of_ne m ρ c main_arg23 (by decide)
    _ = W2 m ρ c (Proc.devRef .tc main_arg23) := StableHlo.after_of_forall_not_mem (b := Proc.devRef .tc main_arg23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg23) := rfl

/-- The graph features the host cut out before the second call are unchanged at the sixth: the second call only reads them. -/
private theorem w9_v5 (c : Dev nD) : W9 m ρ c (Proc.devRef .tc main_v5) = W3 m ρ c (Proc.devRef .tc main_v5) :=
  calc W9 m ρ c (Proc.devRef .tc main_v5)
    _ = W8 m ρ c (Proc.devRef .tc main_v5) := StableHlo.after_of_forall_not_mem (b := Proc.devRef .tc main_v5) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v5) := W8_of_ne m ρ c main_v5 (by decide)
    _ = W6 m ρ c (Proc.devRef .tc main_v5) := StableHlo.after_of_forall_not_mem (b := Proc.devRef .tc main_v5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v5) := W6_of_ne m ρ c main_v5 (by decide)
    _ = W4 m ρ c (Proc.devRef .tc main_v5) := W5_of_ne m ρ c main_v5 (by decide)
    _ = W3 m ρ c (Proc.devRef .tc main_v5) := (W4_arr m ρ c 2).trans (((dat1 (V3 m ρ) c).arrAt_in 2 rfl _).trans (A_eq1 (V3 m ρ) c 2))

/-- The first bias row the sixth call reads: the host's reshape of the launched vector to one row, read along the row,
    is the vector. -/
private theorem w9_v14 (c : Dev nD) :
    ofRow (W9 m ρ c (Proc.devRef .tc main_v14)) = ofV1 (m ((c : Thread nD τ).loc main_arg21)) := by
  have h : W9 m ρ c (Proc.devRef .tc main_v14)
      = fun i => shapeCast S1x256 (W8 m ρ c (Proc.devRef .tc main_arg21)) shapeCasts_S256_S1x256 i := by
    show StableHlo.after hostOps5 (W8 m ρ c) (Proc.devRef .tc main_v14) = _
    after_results
    rfl
  funext q
  show W9 m ρ c (Proc.devRef .tc main_v14) (ix2 0 q) = m ((c : Thread nD τ).loc main_arg21) (ix1 q)
  rw [h, ← w8_arg21 m ρ c]
  exact shapeCast_a_1a_apply _ _ 0 q

/-- The second bias row the sixth call reads, likewise. -/
private theorem w9_v15 (c : Dev nD) :
    ofRow (W9 m ρ c (Proc.devRef .tc main_v15)) = ofV1 (m ((c : Thread nD τ).loc main_arg23)) := by
  have h : W9 m ρ c (Proc.devRef .tc main_v15)
      = fun i => shapeCast S1x128 (W8 m ρ c (Proc.devRef .tc main_arg23)) shapeCasts_S128_S1x128 i := by
    show StableHlo.after hostOps5 (W8 m ρ c) (Proc.devRef .tc main_v15) = _
    after_results
    rfl
  funext q
  show W9 m ρ c (Proc.devRef .tc main_v15) (ix2 0 q) = m ((c : Thread nD τ).loc main_arg23) (ix1 q)
  rw [h, ← w8_arg23 m ρ c]
  exact shapeCast_a_1a_apply _ _ 0 q

/-- After the sixth call: the function branch's per-edge messages. -/
theorem hf_eq (c : Dev nD) : W10 m ρ c (Proc.devRef .tc main_v16) = toV (kHf (args m c)) := by
  refine ((W10_arr m ρ c 7).trans (R5.final (V9 m ρ) c)).trans ?_
  show toV (head (ofV (W9 m ρ c (Proc.devRef .tc main_arg3))) (ofV (W9 m ρ c (Proc.devRef .tc main_arg4)))
      (ofV (W9 m ρ c (Proc.devRef .tc main_v5))) (ofV (W9 m ρ c (Proc.devRef .tc main_arg20)))
      (ofRow (W9 m ρ c (Proc.devRef .tc main_v14))) (ofV (W9 m ρ c (Proc.devRef .tc main_arg22)))
      (ofRow (W9 m ρ c (Proc.devRef .tc main_v15)))) = toV (kHf (args m c))
  rw [w9_arg3 m ρ c, w9_arg4 m ρ c, w9_v5 m ρ c, graph_eq m ρ c, w9_arg20 m ρ c, w9_v14 m ρ c, w9_arg22 m ρ c, w9_v15 m ρ c]
  rfl

end Cert.KernelIdeal.KV

end
-- ==== Proof.Region6.lean ====
/-
  Kernel call 6 (calls are counted from 0): a node-by-edge incidence matrix times the 128 columns of per-edge
  messages, which gives the per-node sums.

  The call works on eight blocks of 256 rows. At block t it loads rows 256·t … 256·t + 255 of the 2048 × 8192
  incidence matrix and the whole 8192 × 128 right factor, multiplies them (into a zero accumulator; the change of
  number format before the product is the identity on the extended reals) and stores the 256 × 128 product as rows
  256·t … of the result. Row p of a product depends on row p of the left factor only, so block t of the result is
  block t of the product of the WHOLE arrays; the eight blocks tile the result, so after the call the result array
  holds that product.
-/
import proofs.«179721_j30537217474923_1_alg».proof.Proof.Gen.KernelIdeal.Frame
import proofs.«179721_j30537217474923_1_alg».proof.Proof.Spec
import proofs.«179721_j30537217474923_1_alg».proof.Proof.LibMatmulAt
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.R6

open Idealize.ShloMosaic.ValueIdx Cert.KernelIdeal Cert.KernelIdeal.Gen Cert.Spec

/-! ## Where the product's dimension numbers read their operands -/

theorem d_l0 (i : S256x128.Idx) (q : dot_S256x8192_S8192x128_S256x128_1_0_0_1_n_n.contr.Idx) : (dot_S256x8192_S8192x128_S256x128_1_0_0_1_n_n.lhsIdx i q 0).val = (i 0).val := by
  unfold DotDims.lhsIdx
  rw [dif_neg (show ¬(0 : Fin S256x8192.rank) ∈ dot_S256x8192_S8192x128_S256x128_1_0_0_1_n_n.lhsBatch by decide), dif_pos (show (0 : Fin S256x8192.rank) ∈ dot_S256x8192_S8192x128_S256x128_1_0_0_1_n_n.lhsNonContracting by decide)]
  rfl
theorem d_l1 (i : S256x128.Idx) (q : dot_S256x8192_S8192x128_S256x128_1_0_0_1_n_n.contr.Idx) : (dot_S256x8192_S8192x128_S256x128_1_0_0_1_n_n.lhsIdx i q 1).val = (q ⟨0, by decide⟩).val :=
  dot_S256x8192_S8192x128_S256x128_1_0_0_1_n_n.lhsIdx_val_of_single rfl i q
theorem d_r0 (i : S256x128.Idx) (q : dot_S256x8192_S8192x128_S256x128_1_0_0_1_n_n.contr.Idx) : (dot_S256x8192_S8192x128_S256x128_1_0_0_1_n_n.rhsIdx i q 0).val = (q ⟨0, by decide⟩).val :=
  dot_S256x8192_S8192x128_S256x128_1_0_0_1_n_n.rhsIdx_val_of_single rfl i q
theorem d_r1 (i : S256x128.Idx) (q : dot_S256x8192_S8192x128_S256x128_1_0_0_1_n_n.contr.Idx) : (dot_S256x8192_S8192x128_S256x128_1_0_0_1_n_n.rhsIdx i q 1).val = (i 1).val := by
  unfold DotDims.rhsIdx
  rw [dif_neg (show ¬(1 : Fin S8192x128.rank) ∈ dot_S256x8192_S8192x128_S256x128_1_0_0_1_n_n.rhsBatch by decide), dif_pos (show (1 : Fin S8192x128.rank) ∈ dot_S256x8192_S8192x128_S256x128_1_0_0_1_n_n.rhsNonContracting by decide)]
  rfl

/-! ## The body's value at an entry -/

/-- Entry (p, q) of what the body stores is the product of the two loaded blocks at (p, q). -/
theorem pay_at (x0 : Vec Ideal S256x8192 .f32) (x1 : Vec Ideal S8192x128 .f32) (p : Fin 256) (q : Fin 128) :
    k6_pay1 (F := Ideal) x0 x1 (ix2 p q) = mm (ofV x0) (ofV x1) p q := by
  unfold k6_pay1
  refine (MatmulAt.matmul_zero_at dot_S256x8192_S8192x128_S256x128_1_0_0_1_n_n rfl rfl d_l0 d_l1 d_r0 d_r1 none _ _ p q).trans ?_
  unfold mm
  refine Finset.sum_congr rfl fun k _ => ?_
  rw [shapeCast_self]
  rfl

/-- What the result array holds after the call, as a function of the arrays the call reads. -/
def G (a0 : Vec Ideal S2048x8192 .f32) (a1 : Vec Ideal S8192x128 .f32) : Vec Ideal S2048x128 .f32 :=
  toV (mm (ofV a0) (ofV a1))

/-- If the left block is rows `r p` of the left array and the right block is the right array, the body's value at
    `y` is the whole product at the index with row `r (y 0)` and `y`'s column. -/
theorem point (x0 : Vec Ideal S256x8192 .f32) (x1 : Vec Ideal S8192x128 .f32) (a0 : Vec Ideal S2048x8192 .f32) (a1 : Vec Ideal S8192x128 .f32)
    (r : Fin 256 → Fin 2048)
    (h0 : ∀ (p : Fin 256) (k : Fin 8192), x0 (ix2 p k) = a0 (ix2 (r p) k))
    (h1 : ∀ (k : Fin 8192) (q : Fin 128), x1 (ix2 k q) = a1 (ix2 k q))
    (y : S256x128.Idx) (i : S2048x128.Idx) (hi0 : (i 0).val = (r (y 0)).val) (hi1 : (i 1).val = (y 1).val) :
    k6_pay1 (F := Ideal) x0 x1 y = G a0 a1 i := by
  obtain ⟨p, q, rfl⟩ : ∃ (p : Fin 256) (q : Fin 128), y = ix2 p q := ⟨y 0, y 1, eq_ix2 y⟩
  rw [pay_at]
  have e0 : i 0 = r p := Fin.ext hi0
  have e1 : i 1 = q := Fin.ext hi1
  show mm (ofV x0) (ofV x1) p q = mm (ofV a0) (ofV a1) (i 0) (i 1)
  rw [e0, e1]
  have hx0 : ofV x0 = fun p k => ofV a0 (r p) k := funext fun p => funext fun k => h0 p k
  have hx1 : ofV x1 = ofV a1 := funext fun k => funext fun q => h1 k q
  rw [hx0, hx1]
  exact mm_rows r (ofV a0) (ofV a1) p q

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point t the left window and the result window are at block row t,
    the right window at block (0, 0). -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the product of the arrays as the call finds them. -/
theorem flushed_eq (c : Dev nD) (t : Fin cfg6.N) :
    (dat6 V c).flushed 2 t = ((cfg6.win 2).blk t).view.read (Elt Ideal) (G (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S256x8192) hz, View.ld_unit_zero (S := S8192x128) hz]
  obtain ⟨e0, e1, e2, e3, e4, e5⟩ := idx_facts t
  have htN : t.val < 8 := Nat.lt_of_lt_of_eq t.isLt N_6
  funext j
  show k6_pay1 (F := Ideal) (iblk6 V c 0 t) (iblk6 V c 1 t) j
    = G (V c (Pipeline.arrRef spec6 0)) (V c (Pipeline.arrRef spec6 1)) (((cfg6.win 2).blk t).view.emb j)
  refine point (iblk6 V c 0 t) (iblk6 V c 1 t) (V c (Pipeline.arrRef spec6 0)) (V c (Pipeline.arrRef spec6 1))
    (fun p => ⟨256 * t.val + p.val, by have := p.isLt; omega⟩) ?_ ?_ j (((cfg6.win 2).blk t).view.emb j) ?_ ?_
  · intro p k
    unfold iblk6
    rw [View.read_apply]
    refine congrArg (V c (Pipeline.arrRef spec6 0)) ?_
    funext a; apply Fin.ext
    match a with
    | ⟨0, _⟩ => show win6_0.index t (0 : Fin 2) * 256 + 1 * p.val = 256 * t.val + p.val; rw [e0]; omega
    | ⟨1, _⟩ => show win6_0.index t (1 : Fin 2) * 8192 + 1 * k.val = k.val; rw [e1]; omega
  · intro k q
    unfold iblk6
    rw [View.read_apply]
    refine congrArg (V c (Pipeline.arrRef spec6 1)) ?_
    funext a; apply Fin.ext
    match a with
    | ⟨0, _⟩ => show win6_1.index t (0 : Fin 2) * 8192 + 1 * k.val = k.val; rw [e2]; omega
    | ⟨1, _⟩ => show win6_1.index t (1 : Fin 2) * 128 + 1 * q.val = q.val; rw [e3]; omega
  · show win6_2.index t (0 : Fin 2) * 256 + 1 * (j 0).val = 256 * t.val + (j 0).val; rw [e4]; omega
  · show win6_2.index t (1 : Fin 2) * 128 + 1 * (j 1).val = (j 1).val; rw [e5]; omega

/-- An index of the result array is in point t's block iff each coordinate is in the block's range on its axis. -/
theorem mem_blk (t : Fin cfg6.N) (i : S2048x128.Idx) :
    i ∈ ((cfg6.win 2).blk t).view.set ↔ ∀ a : Fin 2, win6_2.index t a * S256x128.size a ≤ (i a).val ∧ (i a).val < win6_2.index t a * S256x128.size a + S256x128.size a := by
  show i ∈ ((View.whole main_v17).slice (win6_2.rect t)).set ↔ _
  rw [View.set_slice_whole, Rect.mem_set_unit]
  exact Iff.rfl

/-- After the call the result array holds the product: row r is written by point r / 256. -/
theorem final (c : Dev nD) :
    (dat6 V c).arrAt 2 cfg6.N = G (V c (Pipeline.arrRef spec6 0)) (V c (Pipeline.arrRef spec6 1)) :=
  (dat6 V c).arrAt_eq_of_cover 2 _ (fun t _ => flushed_eq V c t) fun i => by
    have hi0 : (i 0).val < 2048 := (i 0).isLt
    have hi1 : (i 1).val < 128 := (i 1).isLt
    refine ⟨⟨(i 0).val / 256, by rw [show cfg6.N = 8 from N_6]; omega⟩, flush6_2 _, ?_⟩
    rw [mem_blk]
    obtain ⟨e0, e1, e2, e3, e4, e5⟩ := idx_facts ⟨(i 0).val / 256, by rw [show cfg6.N = 8 from N_6]; omega⟩
    intro a
    match a with
    | ⟨0, _⟩ => show win6_2.index _ (0 : Fin 2) * 256 ≤ (i 0).val ∧ (i 0).val < win6_2.index _ (0 : Fin 2) * 256 + 256; rw [e4]; dsimp only; omega
    | ⟨1, _⟩ => show win6_2.index _ (1 : Fin 2) * 128 ≤ (i 1).val ∧ (i 1).val < win6_2.index _ (1 : Fin 2) * 128 + 128; rw [e5]; omega

end Cert.KernelIdeal.R6

end
-- ==== Proof.Region7.lean ====
/-
  Kernel call 7 (calls are counted from 0): an edge-by-node incidence matrix times the 128 columns of per-node sums,
  less each edge's own message.

  The call works on eight blocks of 1024 rows. At block t it loads rows 1024·t … 1024·t + 1023 of the 8192 × 2048
  incidence matrix, the whole 2048 × 128 right factor, and rows 1024·t … of the 8192 × 128 matrix to subtract;
  it multiplies the first two (into a zero accumulator; the change of number format before the product is the
  identity on the extended reals), subtracts the third entry by entry, and stores the 1024 × 128 difference as rows
  1024·t … of the result. Row p of the product depends on row p of the left factor only, and row p of the
  difference on row p of the subtrahend only, so block t of the result is block t of the product of the WHOLE
  arrays less the WHOLE subtrahend; the eight blocks tile the result, so after the call the result array holds that
  difference.
-/
import proofs.«179721_j30537217474923_1_alg».proof.Proof.Gen.KernelIdeal.Frame
import proofs.«179721_j30537217474923_1_alg».proof.Proof.Spec
import proofs.«179721_j30537217474923_1_alg».proof.Proof.LibMatmulAt
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.R7

open Idealize.ShloMosaic.ValueIdx Cert.KernelIdeal Cert.KernelIdeal.Gen Cert.Spec

/-! ## Where the product's dimension numbers read their operands -/

theorem d_l0 (i : S1024x128.Idx) (q : dot_S1024x2048_S2048x128_S1024x128_1_0_0_1_n_n.contr.Idx) : (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem d_l1 (i : S1024x128.Idx) (q : dot_S1024x2048_S2048x128_S1024x128_1_0_0_1_n_n.contr.Idx) : (dot_S1024x2048_S2048x128_S1024x128_1_0_0_1_n_n.lhsIdx i q 1).val = (q ⟨0, by decide⟩).val :=
  dot_S1024x2048_S2048x128_S1024x128_1_0_0_1_n_n.lhsIdx_val_of_single rfl i q
theorem d_r0 (i : S1024x128.Idx) (q : dot_S1024x2048_S2048x128_S1024x128_1_0_0_1_n_n.contr.Idx) : (dot_S1024x2048_S2048x128_S1024x128_1_0_0_1_n_n.rhsIdx i q 0).val = (q ⟨0, by decide⟩).val :=
  dot_S1024x2048_S2048x128_S1024x128_1_0_0_1_n_n.rhsIdx_val_of_single rfl i q
theorem d_r1 (i : S1024x128.Idx) (q : dot_S1024x2048_S2048x128_S1024x128_1_0_0_1_n_n.contr.Idx) : (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-! ## The body's value at an entry -/

/-- Entry (p, q) of what the body stores is the product of the first two loaded blocks at (p, q) less the third
    block's entry there. -/
theorem pay_at (x0 : Vec Ideal S1024x2048 .f32) (x1 : Vec Ideal S2048x128 .f32) (x2 : Vec Ideal S1024x128 .f32) (p : Fin 1024) (q : Fin 128) :
    k7_pay1 (F := Ideal) x0 x1 x2 (ix2 p q) = mmSub (ofV x0) (ofV x1) (ofV x2) p q := by
  unfold k7_pay1 mmSub
  refine (congrArg₂ (fun a b : EReal => a - b)
    (MatmulAt.matmul_zero_at dot_S1024x2048_S2048x128_S1024x128_1_0_0_1_n_n rfl rfl d_l0 d_l1 d_r0 d_r1 none _ _ p q)
    (congrFun (shapeCast_self x2 shapeCasts_S1024x128_S1024x128) (ix2 p q))).trans ?_
  show (∑ k : Fin 2048, _ * _) - x2 (ix2 p q) = mm (ofV x0) (ofV x1) p q - ofV x2 p q
  refine congrArg (fun a : EReal => a - x2 (ix2 p q)) ?_
  unfold mm
  refine Finset.sum_congr rfl fun k _ => ?_
  rw [shapeCast_self]
  rfl

/-- What the result array holds after the call, as a function of the arrays the call reads. -/
def G (a0 : Vec Ideal S8192x2048 .f32) (a1 : Vec Ideal S2048x128 .f32) (a2 : Vec Ideal S8192x128 .f32) : Vec Ideal S8192x128 .f32 :=
  toV (mmSub (ofV a0) (ofV a1) (ofV a2))

/-- If the left block and the block to subtract are rows `r p` of their arrays and the right block is the right
    array, the body's value at `y` is the whole difference at the index with row `r (y 0)` and `y`'s column. -/
theorem point (x0 : Vec Ideal S1024x2048 .f32) (x1 : Vec Ideal S2048x128 .f32) (x2 : Vec Ideal S1024x128 .f32)
    (a0 : Vec Ideal S8192x2048 .f32) (a1 : Vec Ideal S2048x128 .f32) (a2 : Vec Ideal S8192x128 .f32)
    (r : Fin 1024 → Fin 8192)
    (h0 : ∀ (p : Fin 1024) (k : Fin 2048), x0 (ix2 p k) = a0 (ix2 (r p) k))
    (h1 : ∀ (k : Fin 2048) (q : Fin 128), x1 (ix2 k q) = a1 (ix2 k q))
    (h2 : ∀ (p : Fin 1024) (q : Fin 128), x2 (ix2 p q) = a2 (ix2 (r p) q))
    (y : S1024x128.Idx) (i : S8192x128.Idx) (hi0 : (i 0).val = (r (y 0)).val) (hi1 : (i 1).val = (y 1).val) :
    k7_pay1 (F := Ideal) x0 x1 x2 y = G a0 a1 a2 i := by
  obtain ⟨p, q, rfl⟩ : ∃ (p : Fin 1024) (q : Fin 128), y = ix2 p q := ⟨y 0, y 1, eq_ix2 y⟩
  rw [pay_at]
  have e0 : i 0 = r p := Fin.ext hi0
  have e1 : i 1 = q := Fin.ext hi1
  show mmSub (ofV x0) (ofV x1) (ofV x2) p q = mmSub (ofV a0) (ofV a1) (ofV a2) (i 0) (i 1)
  rw [e0, e1]
  have hx0 : ofV x0 = fun p k => ofV a0 (r p) k := funext fun p => funext fun k => h0 p k
  have hx1 : ofV x1 = ofV a1 := funext fun k => funext fun q => h1 k q
  have hx2 : ofV x2 = fun p q => ofV a2 (r p) q := funext fun p => funext fun q => h2 p q
  rw [hx0, hx1, hx2]
  exact mmSub_rows r (ofV a0) (ofV a1) (ofV a2) p q

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point t the left window, the window of the matrix to subtract
    and the result window are at block row t, the right window at block (0, 0). -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

/-- What point t writes back is block t of the difference computed from the arrays as the call finds them. -/
theorem flushed_eq (c : Dev nD) (t : Fin cfg7.N) :
    (dat7 V c).flushed 3 t = ((cfg7.win 3).blk t).view.read (Elt Ideal) (G (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz]
  simp only [View.ld_unit_zero (S := S1024x2048) hz, View.ld_unit_zero (S := S2048x128) hz, View.ld_unit_zero (S := S1024x128) hz]
  obtain ⟨e0, e1, e2, e3, e4, e5, e6, e7⟩ := idx_facts t
  have htN : t.val < 8 := Nat.lt_of_lt_of_eq t.isLt N_7
  funext j
  show k7_pay1 (F := Ideal) (iblk7 V c 0 t) (iblk7 V c 1 t) (iblk7 V c 2 t) j
    = G (V c (Pipeline.arrRef spec7 0)) (V c (Pipeline.arrRef spec7 1)) (V c (Pipeline.arrRef spec7 2)) (((cfg7.win 3).blk t).view.emb j)
  refine point (iblk7 V c 0 t) (iblk7 V c 1 t) (iblk7 V c 2 t)
    (V c (Pipeline.arrRef spec7 0)) (V c (Pipeline.arrRef spec7 1)) (V c (Pipeline.arrRef spec7 2))
    (fun p => ⟨1024 * t.val + p.val, by have := p.isLt; omega⟩) ?_ ?_ ?_ j (((cfg7.win 3).blk t).view.emb j) ?_ ?_
  · intro p k
    unfold iblk7
    rw [View.read_apply]
    refine congrArg (V c (Pipeline.arrRef spec7 0)) ?_
    funext a; apply Fin.ext
    match a with
    | ⟨0, _⟩ => show win7_0.index t (0 : Fin 2) * 1024 + 1 * p.val = 1024 * t.val + p.val; rw [e0]; omega
    | ⟨1, _⟩ => show win7_0.index t (1 : Fin 2) * 2048 + 1 * k.val = k.val; rw [e1]; omega
  · intro k q
    unfold iblk7
    rw [View.read_apply]
    refine congrArg (V c (Pipeline.arrRef spec7 1)) ?_
    funext a; apply Fin.ext
    match a with
    | ⟨0, _⟩ => show win7_1.index t (0 : Fin 2) * 2048 + 1 * k.val = k.val; rw [e2]; omega
    | ⟨1, _⟩ => show win7_1.index t (1 : Fin 2) * 128 + 1 * q.val = q.val; rw [e3]; omega
  · intro p q
    unfold iblk7
    rw [View.read_apply]
    refine congrArg (V c (Pipeline.arrRef spec7 2)) ?_
    funext a; apply Fin.ext
    match a with
    | ⟨0, _⟩ => show win7_2.index t (0 : Fin 2) * 1024 + 1 * p.val = 1024 * t.val + p.val; rw [e4]; omega
    | ⟨1, _⟩ => show win7_2.index t (1 : Fin 2) * 128 + 1 * q.val = q.val; rw [e5]; omega
  · show win7_3.index t (0 : Fin 2) * 1024 + 1 * (j 0).val = 1024 * t.val + (j 0).val; rw [e6]; omega
  · show win7_3.index t (1 : Fin 2) * 128 + 1 * (j 1).val = (j 1).val; rw [e7]; omega

/-- An index of the result array is in point t's block iff each coordinate is in the block's range on its axis. -/
theorem mem_blk (t : Fin cfg7.N) (i : S8192x128.Idx) :
    i ∈ ((cfg7.win 3).blk t).view.set ↔ ∀ a : Fin 2, win7_3.index t a * S1024x128.size a ≤ (i a).val ∧ (i a).val < win7_3.index t a * S1024x128.size a + S1024x128.size a := by
  show i ∈ ((View.whole main_v18).slice (win7_3.rect t)).set ↔ _
  rw [View.set_slice_whole, Rect.mem_set_unit]
  exact Iff.rfl

/-- After the call the result array holds the difference: row r is written by point r / 1024. -/
theorem final (c : Dev nD) :
    (dat7 V c).arrAt 3 cfg7.N = G (V c (Pipeline.arrRef spec7 0)) (V c (Pipeline.arrRef spec7 1)) (V c (Pipeline.arrRef spec7 2)) :=
  (dat7 V c).arrAt_eq_of_cover 3 _ (fun t _ => flushed_eq V c t) fun i => by
    have hi0 : (i 0).val < 8192 := (i 0).isLt
    have hi1 : (i 1).val < 128 := (i 1).isLt
    refine ⟨⟨(i 0).val / 1024, by rw [show cfg7.N = 8 from N_7]; omega⟩, flush7_3 _, ?_⟩
    rw [mem_blk]
    obtain ⟨e0, e1, e2, e3, e4, e5, e6, e7⟩ := idx_facts ⟨(i 0).val / 1024, by rw [show cfg7.N = 8 from N_7]; omega⟩
    intro a
    match a with
    | ⟨0, _⟩ => show win7_3.index _ (0 : Fin 2) * 1024 ≤ (i 0).val ∧ (i 0).val < win7_3.index _ (0 : Fin 2) * 1024 + 1024; rw [e6]; dsimp only; omega
    | ⟨1, _⟩ => show win7_3.index _ (1 : Fin 2) * 128 ≤ (i 1).val ∧ (i 1).val < win7_3.index _ (1 : Fin 2) * 128 + 128; rw [e7]; omega

end Cert.KernelIdeal.R7

end
-- ==== Proof.KV6.lean ====
import proofs.«179721_j30537217474923_1_alg».proof.Proof.Gen.KernelIdeal.Frame
import proofs.«179721_j30537217474923_1_alg».proof.Proof.Spec
import proofs.«179721_j30537217474923_1_alg».proof.Proof.LibMatmulAt
import proofs.«179721_j30537217474923_1_alg».proof.Proof.KV5
import proofs.«179721_j30537217474923_1_alg».proof.Proof.Region6
import proofs.«179721_j30537217474923_1_alg».proof.Proof.Region7
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.KV

open Idealize.ShloMosaic.ValueIdx Cert.KernelIdeal Cert.KernelIdeal.Gen Cert.Spec

variable (m : (ℓ : Loc nD τ sig) → Buf (Elt Ideal) ℓ) (ρ : Dev nD → PrngReg)

/-- The clause-side incidence matrix (edges summed per clause) is read-only: at the seventh call's entry it still
    holds what was launched. No earlier call has it as one of its arrays, and no host operation writes it. -/
private theorem W10_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- The edge-side incidence matrix of the clause branch (clauses sent back to their edges) at the eighth call's
    entry still holds what was launched: no earlier call has it as one of its arrays, and no host operation writes
    it. -/
private theorem W11_arg10 (c : Dev nD) : W11 m ρ c (Proc.devRef .tc main_arg10) = m ((c : Thread nD τ).loc main_arg10) :=
  calc W11 m ρ c (Proc.devRef .tc main_arg10)
    _ = W10 m ρ c (Proc.devRef .tc main_arg10) := W11_of_ne m ρ c main_arg10 (by decide)
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- The clause branch's per-edge messages are an input array of the seventh call, which leaves them as it found
    them. -/
private theorem W11_v16 (c : Dev nD) : W11 m ρ c (Proc.devRef .tc main_v16) = toV (kHf (args m c)) :=
  calc W11 m ρ c (Proc.devRef .tc main_v16)
    _ = W10 m ρ c (Proc.devRef .tc main_v16) := (W11_arr m ρ c 1).trans (((dat6 (V10 m ρ) c).arrAt_in 1 rfl _).trans (A_eq6 (V10 m ρ) c 1))
    _ = toV (kHf (args m c)) := hf_eq m ρ c

/-- After the seventh call: the messages summed per clause. The call's result is the product of its two input
    arrays; the first is the launched incidence matrix and the second the per-edge messages, so the product is
    the definition of the per-clause sum. -/
theorem fsum_eq (c : Dev nD) : W11 m ρ c (Proc.devRef .tc main_v17) = toV (kFsum (args m c)) := by
  refine ((W11_arr m ρ c 2).trans (R6.final (V10 m ρ) c)).trans ?_
  have h0 : V10 m ρ c (Pipeline.arrRef spec6 0) = m ((c : Thread nD τ).loc main_arg9) := W10_arg9 m ρ c
  have h1 : V10 m ρ c (Pipeline.arrRef spec6 1) = toV (kHf (args m c)) := hf_eq m ρ c
  rw [h0, h1]
  rfl

/-- After the eighth call: the sums sent back to the edges, less each edge's own message. The call's result is the
    product of its first two input arrays less the third; these are the launched incidence matrix, the
    per-clause sums and the per-edge messages. -/
theorem aggf_eq (c : Dev nD) : W12 m ρ c (Proc.devRef .tc main_v18) = toV (kAggF (args m c)) := by
  refine ((W12_arr m ρ c 3).trans (R7.final (V11 m ρ) c)).trans ?_
  have h0 : V11 m ρ c (Pipeline.arrRef spec7 0) = m ((c : Thread nD τ).loc main_arg10) := W11_arg10 m ρ c
  have h1 : V11 m ρ c (Pipeline.arrRef spec7 1) = toV (kFsum (args m c)) := fsum_eq m ρ c
  have h2 : V11 m ρ c (Pipeline.arrRef spec7 2) = toV (kHf (args m c)) := W11_v16 m ρ c
  rw [h0, h1, h2]
  rfl

end Cert.KernelIdeal.KV

end
-- ==== Proof.Region8.lean ====
/-
  The ninth call: the two-layer map after the node sums, blended with the old state by the row mask.

  The call works on four blocks of 2048 rows. At block t it loads rows 2048·t … 2048·t + 2047 of the summed messages,
  of the edge features, of the mask column and of the old state, and the whole of the two weight matrices and the two
  bias rows. It joins the summed messages and the edge features side by side (130 columns), multiplies by the first
  weight matrix into a zero accumulator, adds the first bias row to every row and takes max with 0; multiplies that by
  the second weight matrix into a zero accumulator and adds the second bias row; and stores
  mask · (that) + (1 − mask) · (old state), the mask column spread over the 128 columns. The changes of number format
  before the products are the identity on the extended reals. Row p of the result depends on row p of the row-indexed
  operands only, so block t of the result is block t of the same map of the WHOLE arrays; the four blocks tile the
  result, so after the call the result array holds that map.
-/
import proofs.«179721_j30537217474923_1_alg».proof.Proof.Gen.KernelIdeal.Frame
import proofs.«179721_j30537217474923_1_alg».proof.Proof.Spec
import proofs.«179721_j30537217474923_1_alg».proof.Proof.LibMatmulAt
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.R8

open Idealize.ShloMosaic.ValueIdx Cert.KernelIdeal Cert.KernelIdeal.Gen Cert.Spec

/-! ## Where the two products' dimension numbers read their operands -/

theorem d1_l0 (i : S2048x128.Idx) (q : dot_S2048x130_S130x128_S2048x128_1_0_0_1_n_n.contr.Idx) : (dot_S2048x130_S130x128_S2048x128_1_0_0_1_n_n.lhsIdx i q 0).val = (i 0).val := by
  unfold DotDims.lhsIdx
  rw [dif_neg (show ¬(0 : Fin S2048x130.rank) ∈ dot_S2048x130_S130x128_S2048x128_1_0_0_1_n_n.lhsBatch by decide), dif_pos (show (0 : Fin S2048x130.rank) ∈ dot_S2048x130_S130x128_S2048x128_1_0_0_1_n_n.lhsNonContracting by decide)]
  rfl
theorem d1_l1 (i : S2048x128.Idx) (q : dot_S2048x130_S130x128_S2048x128_1_0_0_1_n_n.contr.Idx) : (dot_S2048x130_S130x128_S2048x128_1_0_0_1_n_n.lhsIdx i q 1).val = (q ⟨0, by decide⟩).val :=
  dot_S2048x130_S130x128_S2048x128_1_0_0_1_n_n.lhsIdx_val_of_single rfl i q
theorem d1_r0 (i : S2048x128.Idx) (q : dot_S2048x130_S130x128_S2048x128_1_0_0_1_n_n.contr.Idx) : (dot_S2048x130_S130x128_S2048x128_1_0_0_1_n_n.rhsIdx i q 0).val = (q ⟨0, by decide⟩).val :=
  dot_S2048x130_S130x128_S2048x128_1_0_0_1_n_n.rhsIdx_val_of_single rfl i q
theorem d1_r1 (i : S2048x128.Idx) (q : dot_S2048x130_S130x128_S2048x128_1_0_0_1_n_n.contr.Idx) : (dot_S2048x130_S130x128_S2048x128_1_0_0_1_n_n.rhsIdx i q 1).val = (i 1).val := by
  unfold DotDims.rhsIdx
  rw [dif_neg (show ¬(1 : Fin S130x128.rank) ∈ dot_S2048x130_S130x128_S2048x128_1_0_0_1_n_n.rhsBatch by decide), dif_pos (show (1 : Fin S130x128.rank) ∈ dot_S2048x130_S130x128_S2048x128_1_0_0_1_n_n.rhsNonContracting by decide)]
  rfl

theorem d2_l0 (i : S2048x128.Idx) (q : dot_S2048x128_S128x128_S2048x128_1_0_0_1_n_n.contr.Idx) : (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem d2_l1 (i : S2048x128.Idx) (q : dot_S2048x128_S128x128_S2048x128_1_0_0_1_n_n.contr.Idx) : (dot_S2048x128_S128x128_S2048x128_1_0_0_1_n_n.lhsIdx i q 1).val = (q ⟨0, by decide⟩).val :=
  dot_S2048x128_S128x128_S2048x128_1_0_0_1_n_n.lhsIdx_val_of_single rfl i q
theorem d2_r0 (i : S2048x128.Idx) (q : dot_S2048x128_S128x128_S2048x128_1_0_0_1_n_n.contr.Idx) : (dot_S2048x128_S128x128_S2048x128_1_0_0_1_n_n.rhsIdx i q 0).val = (q ⟨0, by decide⟩).val :=
  dot_S2048x128_S128x128_S2048x128_1_0_0_1_n_n.rhsIdx_val_of_single rfl i q
theorem d2_r1 (i : S2048x128.Idx) (q : dot_S2048x128_S128x128_S2048x128_1_0_0_1_n_n.contr.Idx) : (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-! ## The layout operations at an entry -/

/-- The join of a 128-column block (through a change of shape to the same shape, which is the identity) and a
    2-column block, at an entry: the first block below column 128, the second from column 128 on, 128 less. -/
theorem cat_at (x : FVec Ideal S2048x128 .f32) (e : FVec Ideal S2048x2 .f32) (h : S2048x128.ShapeCasts S2048x128) (p : Fin 2048) (j : Fin 130) :
    concatenate S2048x130 1 [⟨S2048x128, shapeCast S2048x128 x h⟩, ⟨S2048x2, e⟩] concatenates_S2048x128_S2048x2_S2048x130_d1 (ix2 p j)
      = cat2 (ofV x) (ofV e) p j := by
  rw [shapeCast_self]
  unfold cat2
  by_cases h : j.val < 128
  · rw [dif_pos h]
    exact concatenate_pair_apply_left (t := S2048x130) (s₁ := S2048x128) (s₂ := S2048x2) (1 : Fin 2) x e _ (ix2 p j) rfl
      (ix2 p (⟨j.val, h⟩ : Fin 128)) (fun b => by
        match b with
        | ⟨0, _⟩ => rfl
        | ⟨1, _⟩ => rfl)
  · rw [dif_neg h]
    exact concatenate_pair_apply_right (t := S2048x130) (s₁ := S2048x128) (s₂ := S2048x2) (1 : Fin 2) x e _ (ix2 p j) rfl rfl
      (ix2 p (⟨j.val - 128, by have := j.isLt; omega⟩ : Fin 2)) (fun b hb => by
        match b with
        | ⟨0, _⟩ => rfl
        | ⟨1, _⟩ => exact absurd rfl hb) (by
        show (j.val - 128) + 128 = j.val
        omega)

/-- An `[a, 1]` array broadcast to `[a, b]` reads, at `(p, c)`, the operand's one column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products at an entry -/

/-- Entry (p, q) of the first product into zero: the sum over the 130 joined columns. -/
theorem mm1_at (l : FVec Ideal S2048x130 .bf16) (r : FVec Ideal S130x128 .bf16) (p : Fin 2048) (q : Fin 128) :
    matmul dot_S2048x130_S130x128_S2048x128_1_0_0_1_n_n none l r (constant (F := Ideal) S2048x128 .f32 0x00000000#32) (ix2 p q)
      = ∑ k : Fin 130, l (ix2 p k) * r (ix2 k q) :=
  MatmulAt.matmul_zero_at dot_S2048x130_S130x128_S2048x128_1_0_0_1_n_n rfl rfl d1_l0 d1_l1 d1_r0 d1_r1 none l r p q

/-- Entry (p, q) of the second product into zero: the sum over the 128 hidden columns. -/
theorem mm2_at (l : FVec Ideal S2048x128 .bf16) (r : FVec Ideal S128x128 .bf16) (p : Fin 2048) (q : Fin 128) :
    matmul dot_S2048x128_S128x128_S2048x128_1_0_0_1_n_n none l r (constant (F := Ideal) S2048x128 .f32 0x00000000#32) (ix2 p q)
      = ∑ k : Fin 128, l (ix2 p k) * r (ix2 k q) :=
  MatmulAt.matmul_zero_at dot_S2048x128_S128x128_S2048x128_1_0_0_1_n_n rfl rfl d2_l0 d2_l1 d2_r0 d2_r1 none l r p q

/-! ## The body's value at an entry -/

/-- The single-precision zero word is the number 0. -/
theorem zero_word : (FloatOps.ofBits (F := Ideal) .f32 0x00000000#32) = 0 := Ideal.ofBits_zero_f32

/-- The single-precision word of 1 is the number the blend subtracts the mask from, by definition. -/
theorem one_word : (FloatOps.ofBits (F := Ideal) .f32 0x3F800000#32) = one := by
  unfold one
  rfl

/-- Entry (p, q) of what the body stores is the blended two-layer map of the loaded blocks at (p, q). -/
theorem pay_at (agg : Vec Ideal S2048x128 .f32) (edge : Vec Ideal S2048x2 .f32) (a1 : Vec Ideal S130x128 .f32) (c1 : Vec Ideal S1x128 .f32)
    (a2 : Vec Ideal S128x128 .f32) (c2 : Vec Ideal S1x128 .f32) (mask : Vec Ideal S2048x1 .f32) (orig : Vec Ideal S2048x128 .f32)
    (p : Fin 2048) (q : Fin 128) :
    k8_pay1 (F := Ideal) agg edge a1 c1 a2 c2 mask orig (ix2 p q)
      = tail (ofV agg) (ofV edge) (ofCol mask) (ofV orig) (ofV a1) (ofRow c1) (ofV a2) (ofRow c2) p q := by
  unfold k8_pay1
  simp only [addf_apply, mulf_apply, subf_apply, shapeCast_self]
  rw [broadcastTo_a1_ab_apply (a := 2048) (b := 128) mask broadcasts_S2048x1_S2048x128 p q,
    broadcastTo_a1_ab_apply (a := 2048) (b := 128) _ broadcasts_S2048x1_S2048x128 p q,
    broadcastTo_1b_ab_apply (a := 2048) (b := 128) c2 broadcasts_S1x128_S2048x128 p q,
    mm2_at]
  simp only [truncf_apply, maximumf_apply, addf_apply, subf_apply, broadcast_apply, mm1_at, cat_at,
    broadcastTo_1b_ab_apply (a := 2048) (b := 128) c1 broadcasts_S1x128_S2048x128, zero_word, one_word]
  unfold tail mm relu ofCol ofRow
  rfl

/-- What the result array holds after the call, as a function of the arrays the call reads. -/
def G (a0 : Vec Ideal S8192x128 .f32) (a1 : Vec Ideal S8192x2 .f32) (a2 : Vec Ideal S8192x1 .f32) (a3 : Vec Ideal S8192x128 .f32) (a4 : Vec Ideal S130x128 .f32) (a5 : Vec Ideal S1x128 .f32) (a6 : Vec Ideal S128x128 .f32) (a7 : Vec Ideal S1x128 .f32) : Vec Ideal S8192x128 .f32 :=
  toV (tail (ofV a0) (ofV a1) (ofCol a2) (ofV a3) (ofV a4) (ofRow a5) (ofV a6) (ofRow a7))

/-- If the four row-indexed blocks are rows `r p` of their arrays and the four weight blocks are the weight arrays, the
    body's value at `y` is the whole-array map at the index with row `r (y 0)` and `y`'s column. -/
theorem point (x0 : Vec Ideal S2048x128 .f32) (x1 : Vec Ideal S2048x2 .f32) (x2 : Vec Ideal S2048x1 .f32) (x3 : Vec Ideal S2048x128 .f32)
    (x4 : Vec Ideal S130x128 .f32) (x5 : Vec Ideal S1x128 .f32) (x6 : Vec Ideal S128x128 .f32) (x7 : Vec Ideal S1x128 .f32)
    (a0 : Vec Ideal S8192x128 .f32) (a1 : Vec Ideal S8192x2 .f32) (a2 : Vec Ideal S8192x1 .f32) (a3 : Vec Ideal S8192x128 .f32)
    (a4 : Vec Ideal S130x128 .f32) (a5 : Vec Ideal S1x128 .f32) (a6 : Vec Ideal S128x128 .f32) (a7 : Vec Ideal S1x128 .f32)
    (r : Fin 2048 → Fin 8192)
    (h0 : ∀ (p : Fin 2048) (k : Fin 128), x0 (ix2 p k) = a0 (ix2 (r p) k))
    (h1 : ∀ (p : Fin 2048) (k : Fin 2), x1 (ix2 p k) = a1 (ix2 (r p) k))
    (h2 : ∀ (p : Fin 2048), x2 (ix2 p (0 : Fin 1)) = a2 (ix2 (r p) (0 : Fin 1)))
    (h3 : ∀ (p : Fin 2048) (k : Fin 128), x3 (ix2 p k) = a3 (ix2 (r p) k))
    (h4 : ∀ (k : Fin 130) (q : Fin 128), x4 (ix2 k q) = a4 (ix2 k q))
    (h5 : ∀ (q : Fin 128), x5 (ix2 (0 : Fin 1) q) = a5 (ix2 (0 : Fin 1) q))
    (h6 : ∀ (k : Fin 128) (q : Fin 128), x6 (ix2 k q) = a6 (ix2 k q))
    (h7 : ∀ (q : Fin 128), x7 (ix2 (0 : Fin 1) q) = a7 (ix2 (0 : Fin 1) q))
    (y : S2048x128.Idx) (i : S8192x128.Idx) (hi0 : (i 0).val = (r (y 0)).val) (hi1 : (i 1).val = (y 1).val) :
    k8_pay1 (F := Ideal) x0 x1 x4 x5 x6 x7 x2 x3 y = G a0 a1 a2 a3 a4 a5 a6 a7 i := by
  obtain ⟨p, q, rfl⟩ : ∃ (p : Fin 2048) (q : Fin 128), y = ix2 p q := ⟨y 0, y 1, eq_ix2 y⟩
  rw [pay_at]
  have e0 : i 0 = r p := Fin.ext hi0
  have e1 : i 1 = q := Fin.ext hi1
  show tail (ofV x0) (ofV x1) (ofCol x2) (ofV x3) (ofV x4) (ofRow x5) (ofV x6) (ofRow x7) p q
    = tail (ofV a0) (ofV a1) (ofCol a2) (ofV a3) (ofV a4) (ofRow a5) (ofV a6) (ofRow a7) (i 0) (i 1)
  rw [e0, e1]
  have hx0 : ofV x0 = fun p k => ofV a0 (r p) k := funext fun p => funext fun k => h0 p k
  have hx1 : ofV x1 = fun p k => ofV a1 (r p) k := funext fun p => funext fun k => h1 p k
  have hx2 : ofCol x2 = fun p => ofCol a2 (r p) := funext fun p => h2 p
  have hx3 : ofV x3 = fun p k => ofV a3 (r p) k := funext fun p => funext fun k => h3 p k
  have hx4 : ofV x4 = ofV a4 := funext fun k => funext fun q => h4 k q
  have hx5 : ofRow x5 = ofRow a5 := funext fun q => h5 q
  have hx6 : ofV x6 = ofV a6 := funext fun k => funext fun q => h6 k q
  have hx7 : ofRow x7 = ofRow a7 := funext fun q => h7 q
  rw [hx0, hx1, hx2, hx3, hx4, hx5, hx6, hx7]
  exact tail_rows r (ofV a0) (ofV a1) (ofCol a2) (ofV a3) (ofV a4) (ofRow a5) (ofV a6) (ofRow a7) p q

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-! The printed index maps, decided over the grid: at point t the four row-indexed windows and the result window are at
    block row t, the four weight windows at block (0, 0). -/

theorem idx0 : ∀ t : Fin cfg8.N, win8_0.index t (0 : Fin 2) = t.val ∧ win8_0.index t (1 : Fin 2) = 0 :=
  (by decide +kernel : ∀ t : Fin grid8.N, _)
theorem idx1 : ∀ t : Fin cfg8.N, win8_1.index t (0 : Fin 2) = t.val ∧ win8_1.index t (1 : Fin 2) = 0 :=
  (by decide +kernel : ∀ t : Fin grid8.N, _)
theorem idx2 : ∀ t : Fin cfg8.N, win8_2.index t (0 : Fin 2) = t.val ∧ win8_2.index t (1 : Fin 2) = 0 :=
  (by decide +kernel : ∀ t : Fin grid8.N, _)
theorem idx3 : ∀ t : Fin cfg8.N, win8_3.index t (0 : Fin 2) = t.val ∧ win8_3.index t (1 : Fin 2) = 0 :=
  (by decide +kernel : ∀ t : Fin grid8.N, _)
theorem idx4 : ∀ t : Fin cfg8.N, win8_4.index t (0 : Fin 2) = 0 ∧ win8_4.index t (1 : Fin 2) = 0 :=
  (by decide +kernel : ∀ t : Fin grid8.N, _)
theorem idx5 : ∀ t : Fin cfg8.N, win8_5.index t (0 : Fin 2) = 0 ∧ win8_5.index t (1 : Fin 2) = 0 :=
  (by decide +kernel : ∀ t : Fin grid8.N, _)
theorem idx6 : ∀ t : Fin cfg8.N, win8_6.index t (0 : Fin 2) = 0 ∧ win8_6.index t (1 : Fin 2) = 0 :=
  (by decide +kernel : ∀ t : Fin grid8.N, _)
theorem idx7 : ∀ t : Fin cfg8.N, win8_7.index t (0 : Fin 2) = 0 ∧ win8_7.index t (1 : Fin 2) = 0 :=
  (by decide +kernel : ∀ t : Fin grid8.N, _)
theorem idx8 : ∀ t : Fin cfg8.N, win8_8.index t (0 : Fin 2) = t.val ∧ win8_8.index t (1 : Fin 2) = 0 :=
  (by decide +kernel : ∀ t : Fin grid8.N, _)

/-- Row p of block t is row 2048·t + p of the array. -/
def rowOf (t : Fin cfg8.N) (p : Fin 2048) : Fin 8192 :=
  ⟨2048 * t.val + p.val, by have := p.isLt; have := Nat.lt_of_lt_of_eq t.isLt N_8; omega⟩

/-! Each window's block at point t, read at an entry, is its array at the entry the block's position sends it to: a
    block's coordinate is its block index times the block's extent plus the coordinate inside the block. -/

theorem rd0 (c : Dev nD) (t : Fin cfg8.N) (p : Fin 2048) (k : Fin 128) :
    (iblk8 V c 0 t : Vec Ideal S2048x128 .f32) (ix2 p k) = (V c (Pipeline.arrRef spec8 0)) (ix2 (rowOf t p) k) := by
  obtain ⟨er, ec⟩ := idx0 t
  unfold iblk8
  rw [View.read_apply]
  refine congrArg (V c (Pipeline.arrRef spec8 0)) ?_
  funext a; apply Fin.ext
  match a with
  | ⟨0, _⟩ => show win8_0.index t (0 : Fin 2) * 2048 + 1 * p.val = 2048 * t.val + p.val; rw [er]; omega
  | ⟨1, _⟩ => show win8_0.index t (1 : Fin 2) * 128 + 1 * k.val = k.val; rw [ec]; omega
theorem rd1 (c : Dev nD) (t : Fin cfg8.N) (p : Fin 2048) (k : Fin 2) :
    (iblk8 V c 1 t : Vec Ideal S2048x2 .f32) (ix2 p k) = (V c (Pipeline.arrRef spec8 1)) (ix2 (rowOf t p) k) := by
  obtain ⟨er, ec⟩ := idx1 t
  unfold iblk8
  rw [View.read_apply]
  refine congrArg (V c (Pipeline.arrRef spec8 1)) ?_
  funext a; apply Fin.ext
  match a with
  | ⟨0, _⟩ => show win8_1.index t (0 : Fin 2) * 2048 + 1 * p.val = 2048 * t.val + p.val; rw [er]; omega
  | ⟨1, _⟩ => show win8_1.index t (1 : Fin 2) * 2 + 1 * k.val = k.val; rw [ec]; omega
theorem rd2 (c : Dev nD) (t : Fin cfg8.N) (p : Fin 2048) :
    (iblk8 V c 2 t : Vec Ideal S2048x1 .f32) (ix2 p (0 : Fin 1)) = (V c (Pipeline.arrRef spec8 2)) (ix2 (rowOf t p) (0 : Fin 1)) := by
  obtain ⟨er, ec⟩ := idx2 t
  unfold iblk8
  rw [View.read_apply]
  refine congrArg (V c (Pipeline.arrRef spec8 2)) ?_
  funext a; apply Fin.ext
  match a with
  | ⟨0, _⟩ => show win8_2.index t (0 : Fin 2) * 2048 + 1 * p.val = 2048 * t.val + p.val; rw [er]; omega
  | ⟨1, _⟩ => show win8_2.index t (1 : Fin 2) * 1 + 1 * 0 = 0; rw [ec]
theorem rd3 (c : Dev nD) (t : Fin cfg8.N) (p : Fin 2048) (k : Fin 128) :
    (iblk8 V c 3 t : Vec Ideal S2048x128 .f32) (ix2 p k) = (V c (Pipeline.arrRef spec8 3)) (ix2 (rowOf t p) k) := by
  obtain ⟨er, ec⟩ := idx3 t
  unfold iblk8
  rw [View.read_apply]
  refine congrArg (V c (Pipeline.arrRef spec8 3)) ?_
  funext a; apply Fin.ext
  match a with
  | ⟨0, _⟩ => show win8_3.index t (0 : Fin 2) * 2048 + 1 * p.val = 2048 * t.val + p.val; rw [er]; omega
  | ⟨1, _⟩ => show win8_3.index t (1 : Fin 2) * 128 + 1 * k.val = k.val; rw [ec]; omega
theorem rd4 (c : Dev nD) (t : Fin cfg8.N) (k : Fin 130) (q : Fin 128) :
    (iblk8 V c 4 t : Vec Ideal S130x128 .f32) (ix2 k q) = (V c (Pipeline.arrRef spec8 4)) (ix2 k q) := by
  obtain ⟨er, ec⟩ := idx4 t
  unfold iblk8
  rw [View.read_apply]
  refine congrArg (V c (Pipeline.arrRef spec8 4)) ?_
  funext a; apply Fin.ext
  match a with
  | ⟨0, _⟩ => show win8_4.index t (0 : Fin 2) * 130 + 1 * k.val = k.val; rw [er]; omega
  | ⟨1, _⟩ => show win8_4.index t (1 : Fin 2) * 128 + 1 * q.val = q.val; rw [ec]; omega
theorem rd5 (c : Dev nD) (t : Fin cfg8.N) (q : Fin 128) :
    (iblk8 V c 5 t : Vec Ideal S1x128 .f32) (ix2 (0 : Fin 1) q) = (V c (Pipeline.arrRef spec8 5)) (ix2 (0 : Fin 1) q) := by
  obtain ⟨er, ec⟩ := idx5 t
  unfold iblk8
  rw [View.read_apply]
  refine congrArg (V c (Pipeline.arrRef spec8 5)) ?_
  funext a; apply Fin.ext
  match a with
  | ⟨0, _⟩ => show win8_5.index t (0 : Fin 2) * 1 + 1 * 0 = 0; rw [er]
  | ⟨1, _⟩ => show win8_5.index t (1 : Fin 2) * 128 + 1 * q.val = q.val; rw [ec]; omega
theorem rd6 (c : Dev nD) (t : Fin cfg8.N) (k : Fin 128) (q : Fin 128) :
    (iblk8 V c 6 t : Vec Ideal S128x128 .f32) (ix2 k q) = (V c (Pipeline.arrRef spec8 6)) (ix2 k q) := by
  obtain ⟨er, ec⟩ := idx6 t
  unfold iblk8
  rw [View.read_apply]
  refine congrArg (V c (Pipeline.arrRef spec8 6)) ?_
  funext a; apply Fin.ext
  match a with
  | ⟨0, _⟩ => show win8_6.index t (0 : Fin 2) * 128 + 1 * k.val = k.val; rw [er]; omega
  | ⟨1, _⟩ => show win8_6.index t (1 : Fin 2) * 128 + 1 * q.val = q.val; rw [ec]; omega
theorem rd7 (c : Dev nD) (t : Fin cfg8.N) (q : Fin 128) :
    (iblk8 V c 7 t : Vec Ideal S1x128 .f32) (ix2 (0 : Fin 1) q) = (V c (Pipeline.arrRef spec8 7)) (ix2 (0 : Fin 1) q) := by
  obtain ⟨er, ec⟩ := idx7 t
  unfold iblk8
  rw [View.read_apply]
  refine congrArg (V c (Pipeline.arrRef spec8 7)) ?_
  funext a; apply Fin.ext
  match a with
  | ⟨0, _⟩ => show win8_7.index t (0 : Fin 2) * 1 + 1 * 0 = 0; rw [er]
  | ⟨1, _⟩ => show win8_7.index t (1 : Fin 2) * 128 + 1 * q.val = q.val; rw [ec]; omega

/-- What point t writes back is block t of the whole-array map of the arrays as the call finds them. -/
theorem flushed_eq (c : Dev nD) (t : Fin cfg8.N) :
    (dat8 V c).flushed 8 t = ((cfg8.win 8).blk t).view.read (Elt Ideal) (G (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7))) := by
  show (cfg8.win 8).cut (grid8.coords t) ((dat8 V c).after 8 t) = _
  rw [after8_8]
  unfold out8_8
  rw [View.canon_unit_zero hz]
  simp only [View.ld_unit_zero (S := S2048x128) hz, View.ld_unit_zero (S := S2048x2) hz, View.ld_unit_zero (S := S2048x1) hz,
    View.ld_unit_zero (S := S130x128) hz, View.ld_unit_zero (S := S1x128) hz, View.ld_unit_zero (S := S128x128) hz]
  obtain ⟨er, ec⟩ := idx8 t
  funext j
  show k8_pay1 (F := Ideal) (iblk8 V c 0 t) (iblk8 V c 1 t) (iblk8 V c 4 t) (iblk8 V c 5 t) (iblk8 V c 6 t) (iblk8 V c 7 t) (iblk8 V c 2 t) (iblk8 V c 3 t) j
    = G (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (((cfg8.win 8).blk t).view.emb j)
  refine point (iblk8 V c 0 t) (iblk8 V c 1 t) (iblk8 V c 2 t) (iblk8 V c 3 t) (iblk8 V c 4 t) (iblk8 V c 5 t) (iblk8 V c 6 t) (iblk8 V c 7 t)
    (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7))
    (rowOf t) (rd0 V c t) (rd1 V c t) (rd2 V c t) (rd3 V c t) (rd4 V c t) (rd5 V c t) (rd6 V c t) (rd7 V c t) j (((cfg8.win 8).blk t).view.emb j) ?_ ?_
  · show win8_8.index t (0 : Fin 2) * 2048 + 1 * (j 0).val = 2048 * t.val + (j 0).val; rw [er]; omega
  · show win8_8.index t (1 : Fin 2) * 128 + 1 * (j 1).val = (j 1).val; rw [ec]; omega
/-- An index of the result array is in point t's block iff each coordinate is in the block's range on its axis. -/
theorem mem_blk (t : Fin cfg8.N) (i : S8192x128.Idx) :
    i ∈ ((cfg8.win 8).blk t).view.set ↔ ∀ a : Fin 2, win8_8.index t a * S2048x128.size a ≤ (i a).val ∧ (i a).val < win8_8.index t a * S2048x128.size a + S2048x128.size a := by
  show i ∈ ((View.whole main_v21).slice (win8_8.rect t)).set ↔ _
  rw [View.set_slice_whole, Rect.mem_set_unit]
  exact Iff.rfl

/-- After the call the result array holds the whole-array map: row r is written by point r / 2048. -/
theorem final (c : Dev nD) :
    (dat8 V c).arrAt 8 cfg8.N = G (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) := by
  refine (dat8 V c).arrAt_eq_of_cover 8 _ (fun t _ => flushed_eq V c t) fun i => ?_
  have hi0 : (i 0).val < 8192 := (i 0).isLt
  have hi1 : (i 1).val < 128 := (i 1).isLt
  refine ⟨⟨(i 0).val / 2048, by rw [show cfg8.N = 4 from N_8]; omega⟩, flush8_8 _, ?_⟩
  rw [mem_blk]
  obtain ⟨er, ec⟩ := idx8 ⟨(i 0).val / 2048, by rw [show cfg8.N = 4 from N_8]; omega⟩
  intro a
  match a with
  | ⟨0, _⟩ => show win8_8.index _ (0 : Fin 2) * 2048 ≤ (i 0).val ∧ (i 0).val < win8_8.index _ (0 : Fin 2) * 2048 + 2048; rw [er]; dsimp only; omega
  | ⟨1, _⟩ => show win8_8.index _ (1 : Fin 2) * 128 ≤ (i 1).val ∧ (i 1).val < win8_8.index _ (1 : Fin 2) * 128 + 128; rw [ec]; omega

end Cert.KernelIdeal.R8

end
-- ==== Proof.KV7.lean ====
import proofs.«179721_j30537217474923_1_alg».proof.Proof.Gen.KernelIdeal.Frame
import proofs.«179721_j30537217474923_1_alg».proof.Proof.Spec
import proofs.«179721_j30537217474923_1_alg».proof.Proof.LibMatmulAt
import proofs.«179721_j30537217474923_1_alg».proof.Proof.KV4
import proofs.«179721_j30537217474923_1_alg».proof.Proof.KV6
import proofs.«179721_j30537217474923_1_alg».proof.Proof.Region8
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.KV

open Idealize.ShloMosaic.ValueIdx Cert.KernelIdeal Cert.KernelIdeal.Gen Cert.Spec

variable (m : (ℓ : Loc nD τ sig) → Buf (Elt Ideal) ℓ) (ρ : Dev nD → PrngReg)

/-! ## What a stretch of host operations, or a call, leaves alone

A host operation rewrites its result array only; a call rewrites its result array only (its other arrays are read, and
end as they were entered; every array that is none of its own is untouched). -/

private theorem kv7_host0_keep (c : Dev nD) (b : Ref sig .tc) (h0 : b ≠ main_v0) (h1 : b ≠ main_v1) (h2 : b ≠ main_v2) :
    W1 m ρ c (Proc.devRef .tc b) = W0 m ρ c (Proc.devRef .tc b) := by
  show StableHlo.after hostOps0 (W0 m ρ c) (Proc.devRef .tc b) = _
  simp only [hostOps0, StableHlo.after_cons, StableHlo.after_nil]
  rw [StableHlo.binary_result_ne (h := h2), StableHlo.binary_result_ne (h := h1), StableHlo.unary_result_ne (h := h0)]

private theorem kv7_call0_keep (c : Dev nD) (b : Ref sig .tc) (h : b ≠ main_v3) :
    W2 m ρ c (Proc.devRef .tc b) = W1 m ρ c (Proc.devRef .tc b) := by
  by_cases hb : ∃ w, Pipeline.arrRef spec0 w = b
  · obtain ⟨w, rfl⟩ := hb
    have hin : (cfg0.win w).isOut = false := by
      revert w; decide
    exact (W2_arr m ρ c w).trans (((dat0 (V1 m ρ) c).arrAt_in w hin _).trans (A_eq0 (V1 m ρ) c w))
  · exact W2_of_ne m ρ c b fun w e => hb ⟨w, e⟩

private theorem kv7_host1_keep (c : Dev nD) (b : Ref sig .tc) (h0 : b ≠ main_v4) (h1 : b ≠ main_v5) (h2 : b ≠ main_v6) (h3 : b ≠ main_v7) :
    W3 m ρ c (Proc.devRef .tc b) = W2 m ρ c (Proc.devRef .tc b) := by
  show StableHlo.after hostOps1 (W2 m ρ c) (Proc.devRef .tc b) = _
  simp only [hostOps1, StableHlo.after_cons, StableHlo.after_nil]
  rw [StableHlo.reshape_result_ne (h := h3), StableHlo.reshape_result_ne (h := h2), StableHlo.unary_result_ne (h := h1), StableHlo.unary_result_ne (h := h0)]

private theorem kv7_call1_keep (c : Dev nD) (b : Ref sig .tc) (h : b ≠ main_v8) :
    W4 m ρ c (Proc.devRef .tc b) = W3 m ρ c (Proc.devRef .tc b) := by
  by_cases hb : ∃ w, Pipeline.arrRef spec1 w = b
  · obtain ⟨w, rfl⟩ := hb
    have hin : (cfg1.win w).isOut = false := by
      revert w; decide
    exact (W4_arr m ρ c w).trans (((dat1 (V3 m ρ) c).arrAt_in w hin _).trans (A_eq1 (V3 m ρ) c w))
  · exact W4_of_ne m ρ c b fun w e => hb ⟨w, e⟩

private theorem kv7_call2_keep (c : Dev nD) (b : Ref sig .tc) (h : b ≠ main_v9) :
    W5 m ρ c (Proc.devRef .tc b) = W4 m ρ c (Proc.devRef .tc b) := by
  by_cases hb : ∃ w, Pipeline.arrRef spec2 w = b
  · obtain ⟨w, rfl⟩ := hb
    have hin : (cfg2.win w).isOut = false := by
      revert w; decide
    exact (W5_arr m ρ c w).trans (((dat2 (V4 m ρ) c).arrAt_in w hin _).trans (A_eq2 (V4 m ρ) c w))
  · exact W5_of_ne m ρ c b fun w e => hb ⟨w, e⟩

private theorem kv7_call3_keep (c : Dev nD) (b : Ref sig .tc) (h : b ≠ main_v10) :
    W6 m ρ c (Proc.devRef .tc b) = W5 m ρ c (Proc.devRef .tc b) := by
  by_cases hb : ∃ w, Pipeline.arrRef spec3 w = b
  · obtain ⟨w, rfl⟩ := hb
    have hin : (cfg3.win w).isOut = false := by
      revert w; decide
    exact (W6_arr m ρ c w).trans (((dat3 (V5 m ρ) c).arrAt_in w hin _).trans (A_eq3 (V5 m ρ) c w))
  · exact W6_of_ne m ρ c b fun w e => hb ⟨w, e⟩

private theorem kv7_host4_keep (c : Dev nD) (b : Ref sig .tc) (h0 : b ≠ main_v11) (h1 : b ≠ main_v12) :
    W7 m ρ c (Proc.devRef .tc b) = W6 m ρ c (Proc.devRef .tc b) := by
  show StableHlo.after hostOps4 (W6 m ρ c) (Proc.devRef .tc b) = _
  simp only [hostOps4, StableHlo.after_cons, StableHlo.after_nil]
  rw [StableHlo.reshape_result_ne (h := h1), StableHlo.reshape_result_ne (h := h0)]

private theorem kv7_call4_keep (c : Dev nD) (b : Ref sig .tc) (h : b ≠ main_v13) :
    W8 m ρ c (Proc.devRef .tc b) = W7 m ρ c (Proc.devRef .tc b) := by
  by_cases hb : ∃ w, Pipeline.arrRef spec4 w = b
  · obtain ⟨w, rfl⟩ := hb
    have hin : (cfg4.win w).isOut = false := by
      revert w; decide
    exact (W8_arr m ρ c w).trans (((dat4 (V7 m ρ) c).arrAt_in w hin _).trans (A_eq4 (V7 m ρ) c w))
  · exact W8_of_ne m ρ c b fun w e => hb ⟨w, e⟩

private theorem kv7_host5_keep (c : Dev nD) (b : Ref sig .tc) (h0 : b ≠ main_v14) (h1 : b ≠ main_v15) :
    W9 m ρ c (Proc.devRef .tc b) = W8 m ρ c (Proc.devRef .tc b) := by
  show StableHlo.after hostOps5 (W8 m ρ c) (Proc.devRef .tc b) = _
  simp only [hostOps5, StableHlo.after_cons, StableHlo.after_nil]
  rw [StableHlo.reshape_result_ne (h := h1), StableHlo.reshape_result_ne (h := h0)]

private theorem kv7_call5_keep (c : Dev nD) (b : Ref sig .tc) (h : b ≠ main_v16) :
    W10 m ρ c (Proc.devRef .tc b) = W9 m ρ c (Proc.devRef .tc b) := by
  by_cases hb : ∃ w, Pipeline.arrRef spec5 w = b
  · obtain ⟨w, rfl⟩ := hb
    have hin : (cfg5.win w).isOut = false := by
      revert w; decide
    exact (W10_arr m ρ c w).trans (((dat5 (V9 m ρ) c).arrAt_in w hin _).trans (A_eq5 (V9 m ρ) c w))
  · exact W10_of_ne m ρ c b fun w e => hb ⟨w, e⟩

private theorem kv7_call6_keep (c : Dev nD) (b : Ref sig .tc) (h : b ≠ main_v17) :
    W11 m ρ c (Proc.devRef .tc b) = W10 m ρ c (Proc.devRef .tc b) := by
  by_cases hb : ∃ w, Pipeline.arrRef spec6 w = b
  · obtain ⟨w, rfl⟩ := hb
    have hin : (cfg6.win w).isOut = false := by
      revert w; decide
    exact (W11_arr m ρ c w).trans (((dat6 (V10 m ρ) c).arrAt_in w hin _).trans (A_eq6 (V10 m ρ) c w))
  · exact W11_of_ne m ρ c b fun w e => hb ⟨w, e⟩

private theorem kv7_call7_keep (c : Dev nD) (b : Ref sig .tc) (h : b ≠ main_v18) :
    W12 m ρ c (Proc.devRef .tc b) = W11 m ρ c (Proc.devRef .tc b) := by
  by_cases hb : ∃ w, Pipeline.arrRef spec7 w = b
  · obtain ⟨w, rfl⟩ := hb
    have hin : (cfg7.win w).isOut = false := by
      revert w; decide
    exact (W12_arr m ρ c w).trans (((dat7 (V11 m ρ) c).arrAt_in w hin _).trans (A_eq7 (V11 m ρ) c w))
  · exact W12_of_ne m ρ c b fun w e => hb ⟨w, e⟩

private theorem kv7_host8_keep (c : Dev nD) (b : Ref sig .tc) (h0 : b ≠ main_v19) (h1 : b ≠ main_v20) :
    W13 m ρ c (Proc.devRef .tc b) = W12 m ρ c (Proc.devRef .tc b) := by
  show StableHlo.after hostOps8 (W12 m ρ c) (Proc.devRef .tc b) = _
  simp only [hostOps8, StableHlo.after_cons, StableHlo.after_nil]
  rw [StableHlo.reshape_result_ne (h := h1), StableHlo.reshape_result_ne (h := h0)]

private theorem kv7_call8_keep (c : Dev nD) (b : Ref sig .tc) (h : b ≠ main_v21) :
    W14 m ρ c (Proc.devRef .tc b) = W13 m ρ c (Proc.devRef .tc b) := by
  by_cases hb : ∃ w, Pipeline.arrRef spec8 w = b
  · obtain ⟨w, rfl⟩ := hb
    have hin : (cfg8.win w).isOut = false := by
      revert w; decide
    exact (W14_arr m ρ c w).trans (((dat8 (V13 m ρ) c).arrAt_in w hin _).trans (A_eq8 (V13 m ρ) c w))
  · exact W14_of_ne m ρ c b fun w e => hb ⟨w, e⟩

/-- An array nothing has written up to the eighth call's exit still holds what it was launched with. -/
private theorem kv7_W12_launch (c : Dev nD) (b : Ref sig .tc)
    (h : ∀ r ∈ [main_v0, main_v1, main_v2, main_v3, main_v4, main_v5, main_v6, main_v7, main_v8, main_v9, main_v10, main_v11, main_v12, main_v13, main_v14, main_v15, main_v16, main_v17, main_v18], b ≠ r) :
    W12 m ρ c (Proc.devRef .tc b) = m ((c : Thread nD τ).loc b) :=
  (kv7_call7_keep m ρ c b (h _ (by decide))).trans <| (kv7_call6_keep m ρ c b (h _ (by decide))).trans <|
    (kv7_call5_keep m ρ c b (h _ (by decide))).trans <| (kv7_host5_keep m ρ c b (h _ (by decide)) (h _ (by decide))).trans <|
    (kv7_call4_keep m ρ c b (h _ (by decide))).trans <| (kv7_host4_keep m ρ c b (h _ (by decide)) (h _ (by decide))).trans <|
    (kv7_call3_keep m ρ c b (h _ (by decide))).trans <| (kv7_call2_keep m ρ c b (h _ (by decide))).trans <|
    (kv7_call1_keep m ρ c b (h _ (by decide))).trans <|
    (kv7_host1_keep m ρ c b (h _ (by decide)) (h _ (by decide)) (h _ (by decide)) (h _ (by decide))).trans <|
    (kv7_call0_keep m ρ c b (h _ (by decide))).trans <|
    (kv7_host0_keep m ρ c b (h _ (by decide)) (h _ (by decide)) (h _ (by decide))).trans rfl

/-- The same at the ninth call's entry. -/
private theorem kv7_W13_launch (c : Dev nD) (b : Ref sig .tc)
    (h : ∀ r ∈ [main_v0, main_v1, main_v2, main_v3, main_v4, main_v5, main_v6, main_v7, main_v8, main_v9, main_v10, main_v11, main_v12, main_v13, main_v14, main_v15, main_v16, main_v17, main_v18, main_v19, main_v20], b ≠ r) :
    W13 m ρ c (Proc.devRef .tc b) = m ((c : Thread nD τ).loc b) :=
  (kv7_host8_keep m ρ c b (h _ (by decide)) (h _ (by decide))).trans
    (kv7_W12_launch m ρ c b fun r hr => h r (List.mem_of_mem_take (i := 19) hr))

/-- The per-edge mask, cut out before the second call, is still there at the ninth call's entry. -/
private theorem kv7_mask_W13 (c : Dev nD) :
    W13 m ρ c (Proc.devRef .tc main_v4) = (fun i : S8192x1.Idx => kMask (args m c) (i 0)) :=
  (kv7_host8_keep m ρ c main_v4 (by decide) (by decide)).trans <| (kv7_call7_keep m ρ c main_v4 (by decide)).trans <|
    (kv7_call6_keep m ρ c main_v4 (by decide)).trans <| (kv7_call5_keep m ρ c main_v4 (by decide)).trans <|
    (kv7_host5_keep m ρ c main_v4 (by decide) (by decide)).trans <| (kv7_call4_keep m ρ c main_v4 (by decide)).trans <|
    (kv7_host4_keep m ρ c main_v4 (by decide) (by decide)).trans <| (kv7_call3_keep m ρ c main_v4 (by decide)).trans <|
    (kv7_call2_keep m ρ c main_v4 (by decide)).trans <| (kv7_call1_keep m ρ c main_v4 (by decide)).trans (mask_eq m ρ c)

/-- A vector laid out as one row, read as a row, is the vector. -/
private theorem kv7_ofRow_reshape (y : Vec Ideal S128 .f32) (h : S128.ShapeCasts S1x128) :
    ofRow (fun i => shapeCast S1x128 y h i) = ofV1 y :=
  funext fun q => shapeCast_a_1a_apply y h 0 q

/-- The first bias of the ninth call: the host lays the launched vector out as one row. -/
private theorem kv7_in5 (c : Dev nD) : ofRow (V13 m ρ c (Pipeline.arrRef spec8 5)) = ofV1 (args m c).x25 := by
  have e : V13 m ρ c (Pipeline.arrRef spec8 5)
      = fun i => shapeCast S1x128 (W12 m ρ c (Proc.devRef .tc main_arg25)) shapeCasts_S128_S1x128 i := by
    show StableHlo.after hostOps8 (W12 m ρ c) (Proc.devRef .tc main_v19) = _
    after_results
    rfl
  rw [e, kv7_W12_launch m ρ c main_arg25 (by decide)]
  exact kv7_ofRow_reshape _ _

/-- The second bias of the ninth call, likewise. -/
private theorem kv7_in7 (c : Dev nD) : ofRow (V13 m ρ c (Pipeline.arrRef spec8 7)) = ofV1 (args m c).x27 := by
  have e : V13 m ρ c (Pipeline.arrRef spec8 7)
      = fun i => shapeCast S1x128 (W12 m ρ c (Proc.devRef .tc main_arg27)) shapeCasts_S128_S1x128 i := by
    show StableHlo.after hostOps8 (W12 m ρ c) (Proc.devRef .tc main_v20) = _
    after_results
    rfl
  rw [e, kv7_W12_launch m ρ c main_arg27 (by decide)]
  exact kv7_ofRow_reshape _ _

/-- After the ninth call: the new variable state. The call's result is the tail map of its eight inputs; the first is
    the aggregated messages left by the eighth call, the third is the mask, the two bias rows are the launched vectors
    laid out as rows, and the rest are launched arrays nothing has written. -/
theorem vs_eq (c : Dev nD) : W14 m ρ c (Proc.devRef .tc main_v21) = toV (kVs (args m c)) := by
  refine ((W14_arr m ρ c 8).trans (R8.final (V13 m ρ) c)).trans ?_
  have e0 : V13 m ρ c (Pipeline.arrRef spec8 0) = toV (kAggF (args m c)) :=
    (kv7_host8_keep m ρ c main_v18 (by decide) (by decide)).trans (aggf_eq m ρ c)
  have e1 : V13 m ρ c (Pipeline.arrRef spec8 1) = (args m c).x4 := kv7_W13_launch m ρ c main_arg4 (by decide)
  have e2 : V13 m ρ c (Pipeline.arrRef spec8 2) = (fun i : S8192x1.Idx => kMask (args m c) (i 0)) := kv7_mask_W13 m ρ c
  have e3 : V13 m ρ c (Pipeline.arrRef spec8 3) = (args m c).x0 := kv7_W13_launch m ρ c main_arg0 (by decide)
  have e4 : V13 m ρ c (Pipeline.arrRef spec8 4) = (args m c).x24 := kv7_W13_launch m ρ c main_arg24 (by decide)
  have e6 : V13 m ρ c (Pipeline.arrRef spec8 6) = (args m c).x26 := kv7_W13_launch m ρ c main_arg26 (by decide)
  unfold R8.G kVs
  rw [e0, e1, e2, e3, e4, e6, kv7_in5, kv7_in7, ofV_toV]
  rfl

/-- The new function state, written by the fifth call, is still there at the end: nothing after writes it. -/
theorem fs_final (c : Dev nD) : W14 m ρ c (Proc.devRef .tc main_v13) = toV (kFs (args m c)) :=
  (kv7_call8_keep m ρ c main_v13 (by decide)).trans <| (kv7_host8_keep m ρ c main_v13 (by decide) (by decide)).trans <|
    (kv7_call7_keep m ρ c main_v13 (by decide)).trans <| (kv7_call6_keep m ρ c main_v13 (by decide)).trans <|
    (kv7_call5_keep m ρ c main_v13 (by decide)).trans <|
    (kv7_host5_keep m ρ c main_v13 (by decide) (by decide)).trans (fs_eq m ρ c)

end Cert.KernelIdeal.KV

end
-- ==== Proof.RefA.lean ====
import proofs.«179721_j30537217474923_1_alg».proof.Proof.Gen.ReferenceIdeal.Read
import proofs.«179721_j30537217474923_1_alg».proof.Proof.Spec
import Idealize.ShloMosaic.Lib.Pipeline.Value
import Idealize.ShloMosaic.Lib.ValueLayout

noncomputable section

open Idealize.ShloMosaic Idealize.ShloMosaic.TcCoe Idealize.SL.Sem

namespace Cert.ReferenceIdeal.RefValue

open Idealize.ShloMosaic.ValueIdx Cert.ReferenceIdeal Cert.ReferenceIdeal.Read Cert.Spec

/-! ## The mask and the graph features: two nested products -/

/-- Entry (v, 0) of the flag sent from problems to variables. -/
theorem v1_at (a : Args) (v : Fin 2048) :
    val_main_v1 (F := Ideal) a.x6 a.x11 (ix2 v 0) = mm (ofV a.x11) (act a) v 0 := by
  rw [val_main_v1_apply]
  unfold mm
  refine Finset.sum_congr rfl fun k _ => ?_
  have el : lidx_main_v1 (ix2 v (0 : Fin 1)) k = ix2 v k :=
    funext fun d => Fin.ext (by match d with | ⟨0, _⟩ => rfl | ⟨1, _⟩ => rfl)
  have er : ridx_main_v1 (ix2 v (0 : Fin 1)) k = ix2 k (0 : Fin 1) :=
    funext fun d => Fin.ext (by match d with | ⟨0, _⟩ => rfl | ⟨1, _⟩ => rfl)
  rw [el, er, val_main_v0_apply]
  rfl

/-- The reference's per-edge mask: the activity flag sent from problems to variables to edges. -/
theorem v2_at (a : Args) (p : Fin 8192) : val_main_v2 (F := Ideal) a.x6 a.x8 a.x11 (ix2 p 0) = rMask a p := by
  rw [val_main_v2_apply]
  unfold rMask
  show _ = ∑ k : Fin 2048, ofV a.x8 p k * mm (ofV a.x11) (act a) k 0
  refine Finset.sum_congr rfl fun k _ => ?_
  have el : lidx_main_v2 (ix2 p (0 : Fin 1)) k = ix2 p k :=
    funext fun d => Fin.ext (by match d with | ⟨0, _⟩ => rfl | ⟨1, _⟩ => rfl)
  have er : ridx_main_v2 (ix2 p (0 : Fin 1)) k = ix2 k (0 : Fin 1) :=
    funext fun d => Fin.ext (by match d with | ⟨0, _⟩ => rfl | ⟨1, _⟩ => rfl)
  rw [el, er, v1_at]
  rfl

/-- Entry (v, j) of the features sent from problems to variables. -/
theorem v3_at (a : Args) (v : Fin 2048) (j : Fin 4) :
    val_main_v3 (F := Ideal) a.x5 a.x11 (ix2 v j) = mm (ofV a.x11) (ofV a.x5) v j := by
  rw [val_main_v3_apply]
  unfold mm
  refine Finset.sum_congr rfl fun k _ => ?_
  have el : lidx_main_v3 (ix2 v j) k = ix2 v k :=
    funext fun d => Fin.ext (by match d with | ⟨0, _⟩ => rfl | ⟨1, _⟩ => rfl)
  have er : ridx_main_v3 (ix2 v j) k = ix2 k j :=
    funext fun d => Fin.ext (by match d with | ⟨0, _⟩ => rfl | ⟨1, _⟩ => rfl)
  rw [el, er]
  rfl

/-- The reference's per-edge graph features. -/
theorem v4_eq (a : Args) : val_main_v4 (F := Ideal) a.x5 a.x8 a.x11 = toV (rGraph a) := by
  funext i
  obtain ⟨p, j, rfl⟩ : ∃ (p : Fin 8192) (j : Fin 4), i = ix2 p j := ⟨i 0, i 1, eq_ix2 i⟩
  rw [val_main_v4_apply, toV_apply]
  unfold rGraph
  show _ = ∑ k : Fin 2048, ofV a.x8 p k * mm (ofV a.x11) (ofV a.x5) k j
  refine Finset.sum_congr rfl fun k _ => ?_
  have el : lidx_main_v4 (ix2 p j) k = ix2 p k :=
    funext fun d => Fin.ext (by match d with | ⟨0, _⟩ => rfl | ⟨1, _⟩ => rfl)
  have er : ridx_main_v4 (ix2 p j) k = ix2 k j :=
    funext fun d => Fin.ext (by match d with | ⟨0, _⟩ => rfl | ⟨1, _⟩ => rfl)
  rw [el, er, v3_at]
  rfl

/-! ## The map applied to every edge -/

/-- The three column blocks laid side by side, read at an entry: the block whose column range holds the column. -/
theorem cat_at (xd : S8192x128.Idx → EReal) (x4 : S8192x2.Idx → EReal) (g : S8192x4.Idx → EReal)
    (h : Shape.Concatenates [S8192x128, S8192x2, S8192x4] S8192x134 1) (p : Fin 8192) (k : Fin 134) :
    concatenate S8192x134 1 [⟨S8192x128, xd⟩, ⟨S8192x2, x4⟩, ⟨S8192x4, g⟩] h (ix2 p k)
      = cat3 (ofV xd) (ofV x4) (ofV g) p k := by
  unfold cat3
  by_cases h1 : k.val < 128
  · rw [dif_pos h1]
    exact concatenate_apply_piece (1 : Fin S8192x134.rank) [⟨S8192x128, xd⟩, ⟨S8192x2, x4⟩, ⟨S8192x4, g⟩] h (ix2 p k) 0 (by show 0 < 3; omega) S8192x128 xd rfl rfl 0 rfl
      (ix2 p ⟨k.val, h1⟩) (fun b hb => by match b with | ⟨0, _⟩ => rfl | ⟨1, _⟩ => exact absurd rfl hb)
      (by show 0 + k.val = k.val; omega)
  · rw [dif_neg h1]
    by_cases h2 : k.val < 130
    · rw [dif_pos h2]
      exact concatenate_apply_piece (1 : Fin S8192x134.rank) [⟨S8192x128, xd⟩, ⟨S8192x2, x4⟩, ⟨S8192x4, g⟩] h (ix2 p k) 1 (by show 1 < 3; omega) S8192x2 x4 rfl rfl 128 rfl
        (ix2 p ⟨k.val - 128, by omega⟩) (fun b hb => by match b with | ⟨0, _⟩ => rfl | ⟨1, _⟩ => exact absurd rfl hb)
        (by show 128 + (k.val - 128) = k.val; omega)
    · rw [dif_neg h2]
      exact concatenate_apply_piece (1 : Fin S8192x134.rank) [⟨S8192x128, xd⟩, ⟨S8192x2, x4⟩, ⟨S8192x4, g⟩] h (ix2 p k) 2 (by show 2 < 3; omega) S8192x4 g rfl rfl 130 rfl
        (ix2 p ⟨k.val - 130, by have := k.isLt; omega⟩) (fun b hb => by match b with | ⟨0, _⟩ => rfl | ⟨1, _⟩ => exact absurd rfl hb)
        (by show 130 + (k.val - 130) = k.val; omega)

/-- The chain join → product → bias → max with 0 → product → bias at an entry, from what each stage is at an entry. -/
theorem head_at (dec : Mat 8192 128) (edge : Mat 8192 2) (g : Mat 8192 4)
    (w1 : S134x256.Idx → EReal) (b1 : S256.Idx → EReal) (w2 : S256x128.Idx → EReal) (b2 : S128.Idx → EReal)
    (c5 : S8192x134.Idx → EReal) (c6 c8 c9 z c10 : S8192x256.Idx → EReal) (c11 c13 c14 : S8192x128.Idx → EReal)
    (h5 : ∀ (p : Fin 8192) (k : Fin 134), c5 (ix2 p k) = cat3 dec edge g p k)
    (h6 : ∀ (p : Fin 8192) (j : Fin 256), c6 (ix2 p j) = ∑ k : Fin 134, c5 (ix2 p k) * w1 (ix2 k j))
    (h8 : ∀ (p : Fin 8192) (j : Fin 256), c8 (ix2 p j) = b1 (ix1 j))
    (h9 : ∀ i, c9 i = c6 i + c8 i)
    (hz : ∀ i, z i = 0)
    (h10 : ∀ i, c10 i = max (c9 i) (z i))
    (h11 : ∀ (p : Fin 8192) (q : Fin 128), c11 (ix2 p q) = ∑ k : Fin 256, c10 (ix2 p k) * w2 (ix2 k q))
    (h13 : ∀ (p : Fin 8192) (q : Fin 128), c13 (ix2 p q) = b2 (ix1 q))
    (h14 : ∀ i, c14 i = c11 i + c13 i)
    (p : Fin 8192) (q : Fin 128) :
    c14 (ix2 p q) = head dec edge g (ofV w1) (ofV1 b1) (ofV w2) (ofV1 b2) p q := by
  rw [h14, h11, h13]
  unfold head
  show _ = (∑ k : Fin 256, relu (mm (cat3 dec edge g) (ofV w1) p k + ofV1 b1 k) * ofV w2 k q) + ofV1 b2 q
  refine congrArg (· + b2 (ix1 q)) ?_
  refine Finset.sum_congr rfl fun k _ => ?_
  refine congrArg (· * w2 (ix2 k q)) ?_
  rw [h10, hz, h9, h6, h8]
  unfold relu mm
  refine congrArg (fun x => max (x + b1 (ix1 k)) 0) ?_
  refine Finset.sum_congr rfl fun k' _ => ?_
  rw [h5]
  rfl

/-- The variable branch's per-edge messages. -/
theorem v14_eq (a : Args) : val_main_v14 (F := Ideal) a.x2 a.x4 a.x5 a.x8 a.x11 a.x12 a.x13 a.x14 a.x15 = toV (rHv a) := by
  funext i
  obtain ⟨p, q, rfl⟩ : ∃ (p : Fin 8192) (q : Fin 128), i = ix2 p q := ⟨i 0, i 1, eq_ix2 i⟩
  rw [toV_apply]
  unfold rHv
  refine head_at (ofV a.x2) (ofV a.x4) (rGraph a) a.x12 a.x13 a.x14 a.x15
    (val_main_v5 (F := Ideal) a.x2 a.x4 a.x5 a.x8 a.x11)
    (val_main_v6 (F := Ideal) a.x2 a.x4 a.x5 a.x8 a.x11 a.x12)
    (val_main_v8 (F := Ideal) a.x13)
    (val_main_v9 (F := Ideal) a.x2 a.x4 a.x5 a.x8 a.x11 a.x12 a.x13)
    (val_main_call0_v0 (F := Ideal))
    (val_main_v10 (F := Ideal) a.x2 a.x4 a.x5 a.x8 a.x11 a.x12 a.x13)
    (val_main_v11 (F := Ideal) a.x2 a.x4 a.x5 a.x8 a.x11 a.x12 a.x13 a.x14)
    (val_main_v13 (F := Ideal) a.x15)
    (val_main_v14 (F := Ideal) a.x2 a.x4 a.x5 a.x8 a.x11 a.x12 a.x13 a.x14 a.x15)
    ?_ ?_ ?_ ?_ ?_ ?_ ?_ ?_ ?_ p q
  · intro p k
    unfold val_main_v5
    rw [v4_eq]
    exact cat_at a.x2 a.x4 (toV (rGraph a)) _ p k
  · intro p j
    rw [val_main_v6_apply]
    refine Finset.sum_congr rfl fun k _ => ?_
    have el : lidx_main_v6 (ix2 p j) k = ix2 p k :=
      funext fun d => Fin.ext (by match d with | ⟨0, _⟩ => rfl | ⟨1, _⟩ => rfl)
    have er : ridx_main_v6 (ix2 p j) k = ix2 k j :=
      funext fun d => Fin.ext (by match d with | ⟨0, _⟩ => rfl | ⟨1, _⟩ => rfl)
    rw [el, er]
  · intro p j
    rw [val_main_v8_apply, val_main_v7_apply]
    refine congrArg a.x13 ?_
    exact funext fun d => Fin.ext (by match d with | ⟨0, _⟩ => rfl)
  · intro i
    rfl
  · intro i
    rw [val_main_call0_v0_apply, val_main_call0_cst_apply]
    exact Ideal.ofBits_zero_f32
  · intro i
    rfl
  · intro p q
    rw [val_main_v11_apply]
    refine Finset.sum_congr rfl fun k _ => ?_
    have el : lidx_main_v11 (ix2 p q) k = ix2 p k :=
      funext fun d => Fin.ext (by match d with | ⟨0, _⟩ => rfl | ⟨1, _⟩ => rfl)
    have er : ridx_main_v11 (ix2 p q) k = ix2 k q :=
      funext fun d => Fin.ext (by match d with | ⟨0, _⟩ => rfl | ⟨1, _⟩ => rfl)
    rw [el, er]
  · intro p q
    rw [val_main_v13_apply, val_main_v12_apply]
    refine congrArg a.x15 ?_
    exact funext fun d => Fin.ext (by match d with | ⟨0, _⟩ => rfl)
  · intro i
    rfl

/-- The function branch's per-edge messages. -/
theorem v44_eq (a : Args) : val_main_v44 (F := Ideal) a.x3 a.x4 a.x5 a.x8 a.x11 a.x20 a.x21 a.x22 a.x23 = toV (rHf a) := by
  funext i
  obtain ⟨p, q, rfl⟩ : ∃ (p : Fin 8192) (q : Fin 128), i = ix2 p q := ⟨i 0, i 1, eq_ix2 i⟩
  rw [toV_apply]
  unfold rHf
  refine head_at (ofV a.x3) (ofV a.x4) (rGraph a) a.x20 a.x21 a.x22 a.x23
    (val_main_v35 (F := Ideal) a.x3 a.x4 a.x5 a.x8 a.x11)
    (val_main_v36 (F := Ideal) a.x3 a.x4 a.x5 a.x8 a.x11 a.x20)
    (val_main_v38 (F := Ideal) a.x21)
    (val_main_v39 (F := Ideal) a.x3 a.x4 a.x5 a.x8 a.x11 a.x20 a.x21)
    (val_main_call2_v0 (F := Ideal))
    (val_main_v40 (F := Ideal) a.x3 a.x4 a.x5 a.x8 a.x11 a.x20 a.x21)
    (val_main_v41 (F := Ideal) a.x3 a.x4 a.x5 a.x8 a.x11 a.x20 a.x21 a.x22)
    (val_main_v43 (F := Ideal) a.x23)
    (val_main_v44 (F := Ideal) a.x3 a.x4 a.x5 a.x8 a.x11 a.x20 a.x21 a.x22 a.x23)
    ?_ ?_ ?_ ?_ ?_ ?_ ?_ ?_ ?_ p q
  · intro p k
    unfold val_main_v35
    rw [v4_eq]
    exact cat_at a.x3 a.x4 (toV (rGraph a)) _ p k
  · intro p j
    rw [val_main_v36_apply]
    refine Finset.sum_congr rfl fun k _ => ?_
    have el : lidx_main_v36 (ix2 p j) k = ix2 p k :=
      funext fun d => Fin.ext (by match d with | ⟨0, _⟩ => rfl | ⟨1, _⟩ => rfl)
    have er : ridx_main_v36 (ix2 p j) k = ix2 k j :=
      funext fun d => Fin.ext (by match d with | ⟨0, _⟩ => rfl | ⟨1, _⟩ => rfl)
    rw [el, er]
  · intro p j
    rw [val_main_v38_apply, val_main_v37_apply]
    refine congrArg a.x21 ?_
    exact funext fun d => Fin.ext (by match d with | ⟨0, _⟩ => rfl)
  · intro i
    rfl
  · intro i
    rw [val_main_call2_v0_apply, val_main_call2_cst_apply]
    exact Ideal.ofBits_zero_f32
  · intro i
    rfl
  · intro p q
    rw [val_main_v41_apply]
    refine Finset.sum_congr rfl fun k _ => ?_
    have el : lidx_main_v41 (ix2 p q) k = ix2 p k :=
      funext fun d => Fin.ext (by match d with | ⟨0, _⟩ => rfl | ⟨1, _⟩ => rfl)
    have er : ridx_main_v41 (ix2 p q) k = ix2 k q :=
      funext fun d => Fin.ext (by match d with | ⟨0, _⟩ => rfl | ⟨1, _⟩ => rfl)
    rw [el, er]
  · intro p q
    rw [val_main_v43_apply, val_main_v42_apply]
    refine congrArg a.x23 ?_
    exact funext fun d => Fin.ext (by match d with | ⟨0, _⟩ => rfl)
  · intro i
    rfl

end Cert.ReferenceIdeal.RefValue

end
-- ==== Proof.RefB.lean ====
/-
  The reference program after the first two-layer map, read entry by entry, for both branches.

  With h the per-edge messages (8192 × 128), M the node-by-edge incidence matrix and Mt the edge-by-node one:
    * the per-node sums are M · h, and sent back to the edges less the edge's own message they are Mt · (M · h) − h;
    * the second map joins these 128 columns with the two edge features, multiplies by the first weight, adds the
      first bias row to every row, takes the larger of that and zero, multiplies by the second weight and adds the
      second bias row;
    * the result is blended with the old state by the per-edge mask m: m · new + (1 − m) · old, the mask and its
      complement being one column repeated across all 128 columns.
  Each stage is identified at an entry (p, q) with the matching term of the specification; a product's entry is a
  sum over the contracted index, matched term by term. The function branch is the variable branch with its own
  messages, incidence matrices, weights and old state.
-/
import proofs.«179721_j30537217474923_1_alg».proof.Proof.Gen.ReferenceIdeal.Read
import proofs.«179721_j30537217474923_1_alg».proof.Proof.Spec
import proofs.«179721_j30537217474923_1_alg».proof.Proof.RefA
import Idealize.ShloMosaic.Lib.Pipeline.Value
import Idealize.ShloMosaic.Lib.ValueLayout

noncomputable section

open Idealize.ShloMosaic Idealize.ShloMosaic.TcCoe Idealize.SL.Sem

namespace Cert.ReferenceIdeal.RefValue

open Idealize.ShloMosaic.ValueIdx Cert.ReferenceIdeal Cert.ReferenceIdeal.Read Cert.Spec

/-! ## The variable branch after the first map: stages 15 to 34 -/

/-- The per-node sums: entry (v, q) is the sum over edges k of the incidence entry (v, k) times edge k's message. -/
theorem b_v15_at (a : Args) (v : Fin 2048) (q : Fin 128) :
    val_main_v15 (F := Ideal) a.x2 a.x4 a.x5 a.x7 a.x8 a.x11 a.x12 a.x13 a.x14 a.x15 (ix2 v q) = mm (ofV a.x7) (rHv a) v q := by
  rw [val_main_v15_apply, v14_eq]
  unfold mm
  refine Finset.sum_congr rfl fun k _ => ?_
  have el : lidx_main_v15 (ix2 v q) k = ix2 v k :=
    funext fun d => Fin.ext (by match d with | ⟨0, _⟩ => rfl | ⟨1, _⟩ => rfl)
  have er : ridx_main_v15 (ix2 v q) k = ix2 k q :=
    funext fun d => Fin.ext (by match d with | ⟨0, _⟩ => rfl | ⟨1, _⟩ => rfl)
  rw [el, er]
  rfl

/-- The sums sent back to the edges: entry (p, q) is the sum over nodes k of the incidence entry (p, k) times node k's sum. -/
theorem b_v16_at (a : Args) (p : Fin 8192) (q : Fin 128) :
    val_main_v16 (F := Ideal) a.x2 a.x4 a.x5 a.x7 a.x8 a.x11 a.x12 a.x13 a.x14 a.x15 (ix2 p q) = mm (ofV a.x8) (mm (ofV a.x7) (rHv a)) p q := by
  rw [val_main_v16_apply]
  show _ = ∑ k : Fin 2048, ofV a.x8 p k * mm (ofV a.x7) (rHv a) k q
  refine Finset.sum_congr rfl fun k _ => ?_
  have el : lidx_main_v16 (ix2 p q) k = ix2 p k :=
    funext fun d => Fin.ext (by match d with | ⟨0, _⟩ => rfl | ⟨1, _⟩ => rfl)
  have er : ridx_main_v16 (ix2 p q) k = ix2 k q :=
    funext fun d => Fin.ext (by match d with | ⟨0, _⟩ => rfl | ⟨1, _⟩ => rfl)
  rw [el, er, b_v15_at]
  rfl

/-- The variable branch's sums sent back to the edges, less each edge's own message. -/
theorem v17_eq (a : Args) : val_main_v17 (F := Ideal) a.x2 a.x4 a.x5 a.x7 a.x8 a.x11 a.x12 a.x13 a.x14 a.x15 = toV (rAggV a) := by
  funext i
  obtain ⟨p, q, rfl⟩ : ∃ (p : Fin 8192) (q : Fin 128), i = ix2 p q := ⟨i 0, i 1, eq_ix2 i⟩
  rw [val_main_v17_apply, b_v16_at, v14_eq]
  rfl

/-- The second map's joined input: columns 0 … 127 are the sums, columns 128, 129 the two edge features. -/
theorem b_v18_at (a : Args) (p : Fin 8192) (k : Fin 130) :
    val_main_v18 (F := Ideal) a.x2 a.x4 a.x5 a.x7 a.x8 a.x11 a.x12 a.x13 a.x14 a.x15 (ix2 p k) = cat2 (rAggV a) (ofV a.x4) p k := by
  unfold val_main_v18 cat2
  by_cases h : k.val < 128
  · rw [dif_pos h]
    refine (concatenate_pair_apply_left 1 (val_main_v17 (F := Ideal) a.x2 a.x4 a.x5 a.x7 a.x8 a.x11 a.x12 a.x13 a.x14 a.x15) a.x4
      Gen.concatenates_S8192x128_S8192x2_S8192x130_d1 (ix2 p k) rfl (ix2 p ⟨k.val, h⟩) (fun b => by
        match b with
        | ⟨0, _⟩ => rfl
        | ⟨1, _⟩ => rfl)).trans ?_
    rw [v17_eq]
    rfl
  · rw [dif_neg h]
    have hk : k.val - 128 < 2 := by have := k.isLt; omega
    refine (concatenate_pair_apply_right 1 (val_main_v17 (F := Ideal) a.x2 a.x4 a.x5 a.x7 a.x8 a.x11 a.x12 a.x13 a.x14 a.x15) a.x4
      Gen.concatenates_S8192x128_S8192x2_S8192x130_d1 (ix2 p k) rfl rfl (ix2 p ⟨k.val - 128, hk⟩) (fun b hb => by
        match b with
        | ⟨0, _⟩ => rfl
        | ⟨1, _⟩ => exact absurd rfl hb) ?_).trans ?_
    · show k.val - 128 + 128 = k.val
      omega
    · rfl

/-- The second map's first product. -/
theorem b_v19_at (a : Args) (p : Fin 8192) (j : Fin 128) :
    val_main_v19 (F := Ideal) a.x2 a.x4 a.x5 a.x7 a.x8 a.x11 a.x12 a.x13 a.x14 a.x15 a.x16 (ix2 p j) = mm (cat2 (rAggV a) (ofV a.x4)) (ofV a.x16) p j := by
  rw [val_main_v19_apply]
  show _ = ∑ k : Fin 130, cat2 (rAggV a) (ofV a.x4) p k * ofV a.x16 k j
  refine Finset.sum_congr rfl fun k _ => ?_
  have el : lidx_main_v19 (ix2 p j) k = ix2 p k :=
    funext fun d => Fin.ext (by match d with | ⟨0, _⟩ => rfl | ⟨1, _⟩ => rfl)
  have er : ridx_main_v19 (ix2 p j) k = ix2 k j :=
    funext fun d => Fin.ext (by match d with | ⟨0, _⟩ => rfl | ⟨1, _⟩ => rfl)
  rw [el, er, b_v18_at]
  rfl

/-- The first bias row, repeated on every row. -/
theorem b_v21_at (a : Args) (p : Fin 8192) (j : Fin 128) :
    val_main_v21 (F := Ideal) a.x17 (ix2 p j) = ofV1 a.x17 j := by
  rw [val_main_v21_apply, val_main_v20_apply]
  exact congrArg a.x17 (funext fun d => Fin.ext (by match d with | ⟨0, _⟩ => rfl))

/-- The second map's hidden layer: the larger of the first product plus its bias and zero. -/
theorem b_v23_at (a : Args) (p : Fin 8192) (j : Fin 128) :
    val_main_v23 (F := Ideal) a.x2 a.x4 a.x5 a.x7 a.x8 a.x11 a.x12 a.x13 a.x14 a.x15 a.x16 a.x17 (ix2 p j)
      = relu (mm (cat2 (rAggV a) (ofV a.x4)) (ofV a.x16) p j + ofV1 a.x17 j) := by
  rw [val_main_v23_apply, val_main_v22_apply, b_v19_at, b_v21_at, val_main_call1_v0_apply,
    val_main_call1_cst_apply]
  show max (mm (cat2 (rAggV a) (ofV a.x4)) (ofV a.x16) p j + ofV1 a.x17 j) (Ideal.ofBits .f32 0x00000000#32) = _
  rw [Ideal.ofBits_zero_f32]
  rfl

/-- The second map's second product. -/
theorem b_v24_at (a : Args) (p : Fin 8192) (q : Fin 128) :
    val_main_v24 (F := Ideal) a.x2 a.x4 a.x5 a.x7 a.x8 a.x11 a.x12 a.x13 a.x14 a.x15 a.x16 a.x17 a.x18 (ix2 p q)
      = mm (fun p' j => relu (mm (cat2 (rAggV a) (ofV a.x4)) (ofV a.x16) p' j + ofV1 a.x17 j)) (ofV a.x18) p q := by
  rw [val_main_v24_apply]
  show _ = ∑ k : Fin 128, relu (mm (cat2 (rAggV a) (ofV a.x4)) (ofV a.x16) p k + ofV1 a.x17 k) * ofV a.x18 k q
  refine Finset.sum_congr rfl fun k _ => ?_
  have el : lidx_main_v24 (ix2 p q) k = ix2 p k :=
    funext fun d => Fin.ext (by match d with | ⟨0, _⟩ => rfl | ⟨1, _⟩ => rfl)
  have er : ridx_main_v24 (ix2 p q) k = ix2 k q :=
    funext fun d => Fin.ext (by match d with | ⟨0, _⟩ => rfl | ⟨1, _⟩ => rfl)
  rw [el, er, b_v23_at]
  rfl

/-- The second bias row, repeated on every row. -/
theorem b_v26_at (a : Args) (p : Fin 8192) (q : Fin 128) :
    val_main_v26 (F := Ideal) a.x19 (ix2 p q) = ofV1 a.x19 q := by
  rw [val_main_v26_apply, val_main_v25_apply]
  exact congrArg a.x19 (funext fun d => Fin.ext (by match d with | ⟨0, _⟩ => rfl))

/-- The row mask, repeated on every column. -/
theorem b_v28_at (a : Args) (p : Fin 8192) (q : Fin 128) :
    val_main_v28 (F := Ideal) a.x6 a.x8 a.x11 (ix2 p q) = rMask a p := by
  rw [val_main_v28_apply]
  have e : idx_main_v28 (ix2 p q) = ix2 p 0 :=
    funext fun d => Fin.ext (by match d with | ⟨0, _⟩ => rfl | ⟨1, _⟩ => rfl)
  rw [e, v2_at]

/-- One less the row mask, repeated on every column. -/
theorem b_v32_at (a : Args) (p : Fin 8192) (q : Fin 128) :
    val_main_v32 (F := Ideal) a.x6 a.x8 a.x11 (ix2 p q) = one - rMask a p := by
  rw [val_main_v32_apply]
  have e : idx_main_v32 (ix2 p q) = ix2 p 0 :=
    funext fun d => Fin.ext (by match d with | ⟨0, _⟩ => rfl | ⟨1, _⟩ => rfl)
  rw [e, val_main_v31_apply, v2_at, val_main_v30_apply, val_main_cst_apply]
  rfl

/-- The reference's new function state. -/
theorem v34_eq (a : Args) : val_main_v34 (F := Ideal) a.x1 a.x2 a.x4 a.x5 a.x6 a.x7 a.x8 a.x11 a.x12 a.x13 a.x14 a.x15 a.x16 a.x17 a.x18 a.x19 = toV (rFs a) := by
  funext i
  obtain ⟨p, q, rfl⟩ : ∃ (p : Fin 8192) (q : Fin 128), i = ix2 p q := ⟨i 0, i 1, eq_ix2 i⟩
  rw [val_main_v34_apply, val_main_v29_apply, val_main_v33_apply, val_main_v27_apply, b_v28_at, b_v24_at,
    b_v26_at, b_v32_at]
  rfl

/-! ## The function branch after the first map: stages 45 to 64 -/

/-- The per-node sums: entry (v, q) is the sum over edges k of the incidence entry (v, k) times edge k's message. -/
theorem b_v45_at (a : Args) (v : Fin 2048) (q : Fin 128) :
    val_main_v45 (F := Ideal) a.x3 a.x4 a.x5 a.x8 a.x9 a.x11 a.x20 a.x21 a.x22 a.x23 (ix2 v q) = mm (ofV a.x9) (rHf a) v q := by
  rw [val_main_v45_apply, v44_eq]
  unfold mm
  refine Finset.sum_congr rfl fun k _ => ?_
  have el : lidx_main_v45 (ix2 v q) k = ix2 v k :=
    funext fun d => Fin.ext (by match d with | ⟨0, _⟩ => rfl | ⟨1, _⟩ => rfl)
  have er : ridx_main_v45 (ix2 v q) k = ix2 k q :=
    funext fun d => Fin.ext (by match d with | ⟨0, _⟩ => rfl | ⟨1, _⟩ => rfl)
  rw [el, er]
  rfl

/-- The sums sent back to the edges: entry (p, q) is the sum over nodes k of the incidence entry (p, k) times node k's sum. -/
theorem b_v46_at (a : Args) (p : Fin 8192) (q : Fin 128) :
    val_main_v46 (F := Ideal) a.x3 a.x4 a.x5 a.x8 a.x9 a.x10 a.x11 a.x20 a.x21 a.x22 a.x23 (ix2 p q) = mm (ofV a.x10) (mm (ofV a.x9) (rHf a)) p q := by
  rw [val_main_v46_apply]
  show _ = ∑ k : Fin 2048, ofV a.x10 p k * mm (ofV a.x9) (rHf a) k q
  refine Finset.sum_congr rfl fun k _ => ?_
  have el : lidx_main_v46 (ix2 p q) k = ix2 p k :=
    funext fun d => Fin.ext (by match d with | ⟨0, _⟩ => rfl | ⟨1, _⟩ => rfl)
  have er : ridx_main_v46 (ix2 p q) k = ix2 k q :=
    funext fun d => Fin.ext (by match d with | ⟨0, _⟩ => rfl | ⟨1, _⟩ => rfl)
  rw [el, er, b_v45_at]
  rfl

/-- The function branch's sums sent back to the edges, less each edge's own message. -/
theorem v47_eq (a : Args) : val_main_v47 (F := Ideal) a.x3 a.x4 a.x5 a.x8 a.x9 a.x10 a.x11 a.x20 a.x21 a.x22 a.x23 = toV (rAggF a) := by
  funext i
  obtain ⟨p, q, rfl⟩ : ∃ (p : Fin 8192) (q : Fin 128), i = ix2 p q := ⟨i 0, i 1, eq_ix2 i⟩
  rw [val_main_v47_apply, b_v46_at, v44_eq]
  rfl

/-- The second map's joined input: columns 0 … 127 are the sums, columns 128, 129 the two edge features. -/
theorem b_v48_at (a : Args) (p : Fin 8192) (k : Fin 130) :
    val_main_v48 (F := Ideal) a.x3 a.x4 a.x5 a.x8 a.x9 a.x10 a.x11 a.x20 a.x21 a.x22 a.x23 (ix2 p k) = cat2 (rAggF a) (ofV a.x4) p k := by
  unfold val_main_v48 cat2
  by_cases h : k.val < 128
  · rw [dif_pos h]
    refine (concatenate_pair_apply_left 1 (val_main_v47 (F := Ideal) a.x3 a.x4 a.x5 a.x8 a.x9 a.x10 a.x11 a.x20 a.x21 a.x22 a.x23) a.x4
      Gen.concatenates_S8192x128_S8192x2_S8192x130_d1 (ix2 p k) rfl (ix2 p ⟨k.val, h⟩) (fun b => by
        match b with
        | ⟨0, _⟩ => rfl
        | ⟨1, _⟩ => rfl)).trans ?_
    rw [v47_eq]
    rfl
  · rw [dif_neg h]
    have hk : k.val - 128 < 2 := by have := k.isLt; omega
    refine (concatenate_pair_apply_right 1 (val_main_v47 (F := Ideal) a.x3 a.x4 a.x5 a.x8 a.x9 a.x10 a.x11 a.x20 a.x21 a.x22 a.x23) a.x4
      Gen.concatenates_S8192x128_S8192x2_S8192x130_d1 (ix2 p k) rfl rfl (ix2 p ⟨k.val - 128, hk⟩) (fun b hb => by
        match b with
        | ⟨0, _⟩ => rfl
        | ⟨1, _⟩ => exact absurd rfl hb) ?_).trans ?_
    · show k.val - 128 + 128 = k.val
      omega
    · rfl

/-- The second map's first product. -/
theorem b_v49_at (a : Args) (p : Fin 8192) (j : Fin 128) :
    val_main_v49 (F := Ideal) a.x3 a.x4 a.x5 a.x8 a.x9 a.x10 a.x11 a.x20 a.x21 a.x22 a.x23 a.x24 (ix2 p j) = mm (cat2 (rAggF a) (ofV a.x4)) (ofV a.x24) p j := by
  rw [val_main_v49_apply]
  show _ = ∑ k : Fin 130, cat2 (rAggF a) (ofV a.x4) p k * ofV a.x24 k j
  refine Finset.sum_congr rfl fun k _ => ?_
  have el : lidx_main_v49 (ix2 p j) k = ix2 p k :=
    funext fun d => Fin.ext (by match d with | ⟨0, _⟩ => rfl | ⟨1, _⟩ => rfl)
  have er : ridx_main_v49 (ix2 p j) k = ix2 k j :=
    funext fun d => Fin.ext (by match d with | ⟨0, _⟩ => rfl | ⟨1, _⟩ => rfl)
  rw [el, er, b_v48_at]
  rfl

/-- The first bias row, repeated on every row. -/
theorem b_v51_at (a : Args) (p : Fin 8192) (j : Fin 128) :
    val_main_v51 (F := Ideal) a.x25 (ix2 p j) = ofV1 a.x25 j := by
  rw [val_main_v51_apply, val_main_v50_apply]
  exact congrArg a.x25 (funext fun d => Fin.ext (by match d with | ⟨0, _⟩ => rfl))

/-- The second map's hidden layer: the larger of the first product plus its bias and zero. -/
theorem b_v53_at (a : Args) (p : Fin 8192) (j : Fin 128) :
    val_main_v53 (F := Ideal) a.x3 a.x4 a.x5 a.x8 a.x9 a.x10 a.x11 a.x20 a.x21 a.x22 a.x23 a.x24 a.x25 (ix2 p j)
      = relu (mm (cat2 (rAggF a) (ofV a.x4)) (ofV a.x24) p j + ofV1 a.x25 j) := by
  rw [val_main_v53_apply, val_main_v52_apply, b_v49_at, b_v51_at, val_main_call3_v0_apply,
    val_main_call3_cst_apply]
  show max (mm (cat2 (rAggF a) (ofV a.x4)) (ofV a.x24) p j + ofV1 a.x25 j) (Ideal.ofBits .f32 0x00000000#32) = _
  rw [Ideal.ofBits_zero_f32]
  rfl

/-- The second map's second product. -/
theorem b_v54_at (a : Args) (p : Fin 8192) (q : Fin 128) :
    val_main_v54 (F := Ideal) a.x3 a.x4 a.x5 a.x8 a.x9 a.x10 a.x11 a.x20 a.x21 a.x22 a.x23 a.x24 a.x25 a.x26 (ix2 p q)
      = mm (fun p' j => relu (mm (cat2 (rAggF a) (ofV a.x4)) (ofV a.x24) p' j + ofV1 a.x25 j)) (ofV a.x26) p q := by
  rw [val_main_v54_apply]
  show _ = ∑ k : Fin 128, relu (mm (cat2 (rAggF a) (ofV a.x4)) (ofV a.x24) p k + ofV1 a.x25 k) * ofV a.x26 k q
  refine Finset.sum_congr rfl fun k _ => ?_
  have el : lidx_main_v54 (ix2 p q) k = ix2 p k :=
    funext fun d => Fin.ext (by match d with | ⟨0, _⟩ => rfl | ⟨1, _⟩ => rfl)
  have er : ridx_main_v54 (ix2 p q) k = ix2 k q :=
    funext fun d => Fin.ext (by match d with | ⟨0, _⟩ => rfl | ⟨1, _⟩ => rfl)
  rw [el, er, b_v53_at]
  rfl

/-- The second bias row, repeated on every row. -/
theorem b_v56_at (a : Args) (p : Fin 8192) (q : Fin 128) :
    val_main_v56 (F := Ideal) a.x27 (ix2 p q) = ofV1 a.x27 q := by
  rw [val_main_v56_apply, val_main_v55_apply]
  exact congrArg a.x27 (funext fun d => Fin.ext (by match d with | ⟨0, _⟩ => rfl))

/-- The row mask, repeated on every column. -/
theorem b_v58_at (a : Args) (p : Fin 8192) (q : Fin 128) :
    val_main_v58 (F := Ideal) a.x6 a.x8 a.x11 (ix2 p q) = rMask a p := by
  rw [val_main_v58_apply]
  have e : idx_main_v58 (ix2 p q) = ix2 p 0 :=
    funext fun d => Fin.ext (by match d with | ⟨0, _⟩ => rfl | ⟨1, _⟩ => rfl)
  rw [e, v2_at]

/-- One less the row mask, repeated on every column. -/
theorem b_v62_at (a : Args) (p : Fin 8192) (q : Fin 128) :
    val_main_v62 (F := Ideal) a.x6 a.x8 a.x11 (ix2 p q) = one - rMask a p := by
  rw [val_main_v62_apply]
  have e : idx_main_v62 (ix2 p q) = ix2 p 0 :=
    funext fun d => Fin.ext (by match d with | ⟨0, _⟩ => rfl | ⟨1, _⟩ => rfl)
  rw [e, val_main_v61_apply, v2_at, val_main_v60_apply, val_main_cst_0_apply]
  rfl

/-- The reference's new variable state. -/
theorem v64_eq (a : Args) : val_main_v64 (F := Ideal) a.x0 a.x3 a.x4 a.x5 a.x6 a.x8 a.x9 a.x10 a.x11 a.x20 a.x21 a.x22 a.x23 a.x24 a.x25 a.x26 a.x27 = toV (rVs a) := by
  funext i
  obtain ⟨p, q, rfl⟩ : ∃ (p : Fin 8192) (q : Fin 128), i = ix2 p q := ⟨i 0, i 1, eq_ix2 i⟩
  rw [val_main_v64_apply, val_main_v59_apply, val_main_v63_apply, val_main_v57_apply, b_v58_at, b_v54_at,
    b_v56_at, b_v62_at]
  rfl

end Cert.ReferenceIdeal.RefValue

end
-- ==== Proof.lean ====
/-
  A message-passing layer on a bipartite graph of variables and clauses, with 8192 edges: the idealized kernel
  against its reference, over the extended reals.

  Both programs compute, for each of the two branches (variables → clauses and clauses → variables),
      h   = relu([dec | edge | graph] · W1 + b1) · W2 + b2                  (per edge)
      agg = Mt · (M · h) − h                                                 (summed per node, sent back, own message removed)
      new = mask · (relu([agg | edge] · A1 + c1) · A2 + c2) + (1 − mask) · old
  where `mask` (one number per edge) and `graph` (four per edge) are the per-problem activity flag and features sent
  from problems to variables to edges by two incidence products. The kernel does this in nine calls, each over blocks
  of rows, and sends the flag and the features through the incidence matrices as five columns of ONE matrix; the
  reference sends them as two. Since column j of a matrix product depends on column j of the right factor only, and
  every other step is the same function applied row by row, the two results are equal entry by entry; no
  distributive law and so no finiteness of the inputs is used.

  The parts: `Spec` states the functions and proves the kernel's and the reference's spelling equal (`kVs_eq`,
  `kFs_eq`); `Region0` … `Region8` read each call's result array as one whole-array function of the arrays it
  reads; `KV1` … `KV7` follow the arrays through the program's boundaries to the two results; `RefA`, `RefB` read
  the reference's stages; `KernelRun` is the kernel's run with the results named. The frames are the generated ones;
  the reference's is its generated run with the results dropped. `preserves` has no conjunct: the idealization
  rewrote nothing.
-/
import proofs.«179721_j30537217474923_1_alg».proof.Defs
import proofs.«179721_j30537217474923_1_alg».proof.Proof.Gen.Kernel
import proofs.«179721_j30537217474923_1_alg».proof.Proof.Gen.Kernel.Skeleton
import proofs.«179721_j30537217474923_1_alg».proof.Proof.Gen.Kernel.Launch
import proofs.«179721_j30537217474923_1_alg».proof.Proof.Gen.Kernel.Points
import proofs.«179721_j30537217474923_1_alg».proof.Proof.Gen.Kernel.Frame
import proofs.«179721_j30537217474923_1_alg».proof.Proof.Gen.KernelIdeal
import proofs.«179721_j30537217474923_1_alg».proof.Proof.Gen.KernelIdeal.Skeleton
import proofs.«179721_j30537217474923_1_alg».proof.Proof.Gen.KernelIdeal.Launch
import proofs.«179721_j30537217474923_1_alg».proof.Proof.Gen.KernelIdeal.Points
import proofs.«179721_j30537217474923_1_alg».proof.Proof.Gen.KernelIdeal.Frame
import proofs.«179721_j30537217474923_1_alg».proof.Proof.Gen.ReferenceIdeal
import proofs.«179721_j30537217474923_1_alg».proof.Proof.Gen.ReferenceIdeal.Run
import proofs.«179721_j30537217474923_1_alg».proof.Proof.Gen.ReferenceIdeal.Read
import proofs.«179721_j30537217474923_1_alg».proof.Proof.Gen.Pre_finite_inputs
import proofs.«179721_j30537217474923_1_alg».proof.Proof.Spec
import proofs.«179721_j30537217474923_1_alg».proof.Proof.KernelRun
import proofs.«179721_j30537217474923_1_alg».proof.Proof.KV7
import proofs.«179721_j30537217474923_1_alg».proof.Proof.RefB
import Idealize.ShloMosaic.Adequacy
import Idealize.ShloMosaic.Init

noncomputable section

namespace Cert.Proof

open Idealize.ShloMosaic Idealize.ShloMosaic.TcCoe Idealize.SL.Sem Cert.Spec

/-- The reference's inputs as launched, on core c. -/
def refArgs (m' : (ℓ : Loc Cert.ReferenceIdeal.nD Cert.ReferenceIdeal.τ Cert.ReferenceIdeal.sig) → Buf (Elt Ideal) ℓ)
    (c : Dev Cert.ReferenceIdeal.nD) : Spec.Args where
  x0 := m' ((c.tc : Thread Cert.ReferenceIdeal.nD Cert.ReferenceIdeal.τ).loc Cert.ReferenceIdeal.main_arg0)
  x1 := m' ((c.tc : Thread Cert.ReferenceIdeal.nD Cert.ReferenceIdeal.τ).loc Cert.ReferenceIdeal.main_arg1)
  x2 := m' ((c.tc : Thread Cert.ReferenceIdeal.nD Cert.ReferenceIdeal.τ).loc Cert.ReferenceIdeal.main_arg2)
  x3 := m' ((c.tc : Thread Cert.ReferenceIdeal.nD Cert.ReferenceIdeal.τ).loc Cert.ReferenceIdeal.main_arg3)
  x4 := m' ((c.tc : Thread Cert.ReferenceIdeal.nD Cert.ReferenceIdeal.τ).loc Cert.ReferenceIdeal.main_arg4)
  x5 := m' ((c.tc : Thread Cert.ReferenceIdeal.nD Cert.ReferenceIdeal.τ).loc Cert.ReferenceIdeal.main_arg5)
  x6 := m' ((c.tc : Thread Cert.ReferenceIdeal.nD Cert.ReferenceIdeal.τ).loc Cert.ReferenceIdeal.main_arg6)
  x7 := m' ((c.tc : Thread Cert.ReferenceIdeal.nD Cert.ReferenceIdeal.τ).loc Cert.ReferenceIdeal.main_arg7)
  x8 := m' ((c.tc : Thread Cert.ReferenceIdeal.nD Cert.ReferenceIdeal.τ).loc Cert.ReferenceIdeal.main_arg8)
  x9 := m' ((c.tc : Thread Cert.ReferenceIdeal.nD Cert.ReferenceIdeal.τ).loc Cert.ReferenceIdeal.main_arg9)
  x10 := m' ((c.tc : Thread Cert.ReferenceIdeal.nD Cert.ReferenceIdeal.τ).loc Cert.ReferenceIdeal.main_arg10)
  x11 := m' ((c.tc : Thread Cert.ReferenceIdeal.nD Cert.ReferenceIdeal.τ).loc Cert.ReferenceIdeal.main_arg11)
  x12 := m' ((c.tc : Thread Cert.ReferenceIdeal.nD Cert.ReferenceIdeal.τ).loc Cert.ReferenceIdeal.main_arg12)
  x13 := m' ((c.tc : Thread Cert.ReferenceIdeal.nD Cert.ReferenceIdeal.τ).loc Cert.ReferenceIdeal.main_arg13)
  x14 := m' ((c.tc : Thread Cert.ReferenceIdeal.nD Cert.ReferenceIdeal.τ).loc Cert.ReferenceIdeal.main_arg14)
  x15 := m' ((c.tc : Thread Cert.ReferenceIdeal.nD Cert.ReferenceIdeal.τ).loc Cert.ReferenceIdeal.main_arg15)
  x16 := m' ((c.tc : Thread Cert.ReferenceIdeal.nD Cert.ReferenceIdeal.τ).loc Cert.ReferenceIdeal.main_arg16)
  x17 := m' ((c.tc : Thread Cert.ReferenceIdeal.nD Cert.ReferenceIdeal.τ).loc Cert.ReferenceIdeal.main_arg17)
  x18 := m' ((c.tc : Thread Cert.ReferenceIdeal.nD Cert.ReferenceIdeal.τ).loc Cert.ReferenceIdeal.main_arg18)
  x19 := m' ((c.tc : Thread Cert.ReferenceIdeal.nD Cert.ReferenceIdeal.τ).loc Cert.ReferenceIdeal.main_arg19)
  x20 := m' ((c.tc : Thread Cert.ReferenceIdeal.nD Cert.ReferenceIdeal.τ).loc Cert.ReferenceIdeal.main_arg20)
  x21 := m' ((c.tc : Thread Cert.ReferenceIdeal.nD Cert.ReferenceIdeal.τ).loc Cert.ReferenceIdeal.main_arg21)
  x22 := m' ((c.tc : Thread Cert.ReferenceIdeal.nD Cert.ReferenceIdeal.τ).loc Cert.ReferenceIdeal.main_arg22)
  x23 := m' ((c.tc : Thread Cert.ReferenceIdeal.nD Cert.ReferenceIdeal.τ).loc Cert.ReferenceIdeal.main_arg23)
  x24 := m' ((c.tc : Thread Cert.ReferenceIdeal.nD Cert.ReferenceIdeal.τ).loc Cert.ReferenceIdeal.main_arg24)
  x25 := m' ((c.tc : Thread Cert.ReferenceIdeal.nD Cert.ReferenceIdeal.τ).loc Cert.ReferenceIdeal.main_arg25)
  x26 := m' ((c.tc : Thread Cert.ReferenceIdeal.nD Cert.ReferenceIdeal.τ).loc Cert.ReferenceIdeal.main_arg26)
  x27 := m' ((c.tc : Thread Cert.ReferenceIdeal.nD Cert.ReferenceIdeal.τ).loc Cert.ReferenceIdeal.main_arg27)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Run from memories that agree on the inputs, both programs end with the new variable state and the new function
    state at the same two functions of the inputs. -/
theorem algebraic : Cert.algebraic_KernelIdeal_ReferenceIdeal := by
  intro m ρ m' ρ' _ hagree
  refine ⟨fun c => toV (kVs (Cert.KernelIdeal.KV.args m c)), fun c => toV (kFs (Cert.KernelIdeal.KV.args m c)), ?_, ?_⟩
  · refine (θ_run Cert.KernelIdeal.defs _ _).mono (fun r h c => ?_) (Cert.KernelIdeal.Run.run_values (F := Ideal) m ρ)
    exact ⟨(h c).1.trans (Cert.KernelIdeal.KV.vs_eq m ρ c), (h c).2.1.trans (Cert.KernelIdeal.KV.fs_final m ρ c), (h c).2.2⟩
  · refine (θ_run Cert.ReferenceIdeal.defs _ _).mono (fun r h c => ?_) (Cert.ReferenceIdeal.Value.run (F := Ideal) m' ρ')
    have hargs : refArgs m' c = Cert.KernelIdeal.KV.args m c := by
      unfold refArgs Cert.KernelIdeal.KV.args
      rw [Spec.Args.mk.injEq]
      exact hagree c
    refine ⟨(h c).1.trans ?_, (h c).2.1.trans ?_, (h c).2.2⟩
    · exact (Cert.ReferenceIdeal.RefValue.v64_eq (refArgs m' c)).trans (by rw [hargs]; exact congrArg toV (kVs_eq _).symm)
    · exact (Cert.ReferenceIdeal.RefValue.v34_eq (refArgs m' c)).trans (by rw [hargs]; exact congrArg toV (kFs_eq _).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
